-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x10 : Shape := ⟨2, ![1024, 10]⟩
abbrev S1024x30 : Shape := ⟨2, ![1024, 30]⟩
abbrev S1024x750 : Shape := ⟨2, ![1024, 750]⟩
abbrev S10331x10 : Shape := ⟨2, ![10331, 10]⟩
abbrev S10331x11541 : Shape := ⟨2, ![10331, 11541]⟩
abbrev S10331 : Shape := ⟨1, ![10331]⟩
abbrev S_ : Shape := ⟨0, ![]⟩

class Facts : Prop where
  bcast_S_S1024x10 : S_.BroadcastsInDim S1024x10 (![] : Fin 0 → Fin S1024x10.rank)
  reducesTo_S1024x10_S_d0_1 : S1024x10.ReducesTo [0, 1] S_
  h_S_ : 0 < S_.numel
  bcast_S_S1024x750 : S_.BroadcastsInDim S1024x750 (![] : Fin 0 → Fin S1024x750.rank)
  reducesTo_S1024x750_S_d0_1 : S1024x750.ReducesTo [0, 1] S_
  bcast_S_S1024x30 : S_.BroadcastsInDim S1024x30 (![] : Fin 0 → Fin S1024x30.rank)
  reducesTo_S1024x30_S_d0_1 : S1024x30.ReducesTo [0, 1] S_
  bcast_S_S10331x10 : S_.BroadcastsInDim S10331x10 (![] : Fin 0 → Fin S10331x10.rank)
  reducesTo_S10331x10_S_d0_1 : S10331x10.ReducesTo [0, 1] S_
  bcast_S_S10331x11541 : S_.BroadcastsInDim S10331x11541 (![] : Fin 0 → Fin S10331x11541.rank)
  reducesTo_S10331x11541_S_d0_1 : S10331x11541.ReducesTo [0, 1] S_
  bcast_S_S10331 : S_.BroadcastsInDim S10331 (![] : Fin 0 → Fin S10331.rank)
  reducesTo_S10331_S_d0 : S10331.ReducesTo [0] S_

variable [Facts]

def fn_part2 {F : FTy → Type} [FloatOps F] (main_v28 : IVec S_ 1) (main_v33 : IVec S1024x30 1) : IVec S_ 1 :=
  let main_c_12 : IVec S_ 1 := constantI S_ 1 1#1
  let main_v34 : IVec S_ 1 := (fun x v => Host.reduce IntOp.andi x v reducesTo_S1024x30_S_d0_1 h_S_) main_v33 main_c_12
  let main_v35 : IVec S_ 1 := andi main_v28 main_v34
  main_v35

def fn_part1 {F : FTy → Type} [FloatOps F] (main_arg1 : IVec S1024x30 32) (main_arg5 : FVec F S10331x11541 .f32) (main_arg6 : FVec F S10331 .f32) (main_v13 : IVec S_ 1) (main_v16 : IVec S10331x10 1) : IVec S_ 1 :=
  let main_c_5 : IVec S_ 1 := constantI S_ 1 1#1
  let main_v17 : IVec S_ 1 := (fun x v => Host.reduce IntOp.andi x v reducesTo_S10331x10_S_d0_1 h_S_) main_v16 main_c_5
  let main_v18 : IVec S_ 1 := andi main_v13 main_v17
  let main_v19 : FVec F S10331x11541 .f32 := Host.absf main_arg5
  let main_cst_6 : FVec F S_ .f32 := constant S_ .f32 0x7F800000#32
  let main_v20 : FVec F S10331x11541 .f32 := broadcastInDim S10331x11541 ![] bcast_S_S10331x11541 main_cst_6
  let main_v21 : IVec S10331x11541 1 := cmpf .olt main_v19 main_v20
  let main_c_7 : IVec S_ 1 := constantI S_ 1 1#1
  let main_v22 : IVec S_ 1 := (fun x v => Host.reduce IntOp.andi x v reducesTo_S10331x11541_S_d0_1 h_S_) main_v21 main_c_7
  let main_v23 : IVec S_ 1 := andi main_v18 main_v22
  let main_v24 : FVec F S10331 .f32 := Host.absf main_arg6
  let main_cst_8 : FVec F S_ .f32 := constant S_ .f32 0x7F800000#32
  let main_v25 : FVec F S10331 .f32 := broadcastInDim S10331 ![] bcast_S_S10331 main_cst_8
  let main_v26 : IVec S10331 1 := cmpf .olt main_v24 main_v25
  let main_c_9 : IVec S_ 1 := constantI S_ 1 1#1
  let main_v27 : IVec S_ 1 := (fun x v => Host.reduce IntOp.andi x v reducesTo_S10331_S_d0 h_S_) main_v26 main_c_9
  let main_v28 : IVec S_ 1 := andi main_v23 main_v27
  let main_c_10 : IVec S_ 32 := constantI S_ 32 0#32
  let main_v29 : IVec S1024x30 32 := broadcastInDim S1024x30 ![] bcast_S_S1024x30 main_c_10
  let main_v30 : IVec S1024x30 1 := cmpi .sge main_arg1 main_v29
  let main_c_11 : IVec S_ 32 := constantI S_ 32 10331#32
  let main_v31 : IVec S1024x30 32 := broadcastInDim S1024x30 ![] bcast_S_S1024x30 main_c_11
  let main_v32 : IVec S1024x30 1 := cmpi .slt main_arg1 main_v31
  let main_v33 : IVec S1024x30 1 := andi main_v30 main_v32
  fn_part2 (F := F) main_v28 main_v33

def fn {F : FTy → Type} [FloatOps F] (main_arg0 : FVec F S1024x10 .f32) (main_arg1 : IVec S1024x30 32) (main_arg2 : FVec F S1024x750 .f32) (main_arg3 : FVec F S1024x30 .f32) (main_arg4 : FVec F S10331x10 .f32) (main_arg5 : FVec F S10331x11541 .f32) (main_arg6 : FVec F S10331 .f32) : IVec S_ 1 :=
  let main_v0 : FVec F S1024x10 .f32 := Host.absf main_arg0
  let main_cst : FVec F S_ .f32 := constant S_ .f32 0x7F800000#32
  let main_v1 : FVec F S1024x10 .f32 := broadcastInDim S1024x10 ![] bcast_S_S1024x10 main_cst
  let main_v2 : IVec S1024x10 1 := cmpf .olt main_v0 main_v1
  let main_c : IVec S_ 1 := constantI S_ 1 1#1
  let main_v3 : IVec S_ 1 := (fun x v => Host.reduce IntOp.andi x v reducesTo_S1024x10_S_d0_1 h_S_) main_v2 main_c
  let main_v4 : FVec F S1024x750 .f32 := Host.absf main_arg2
  let main_cst_0 : FVec F S_ .f32 := constant S_ .f32 0x7F800000#32
  let main_v5 : FVec F S1024x750 .f32 := broadcastInDim S1024x750 ![] bcast_S_S1024x750 main_cst_0
  let main_v6 : IVec S1024x750 1 := cmpf .olt main_v4 main_v5
  let main_c_1 : IVec S_ 1 := constantI S_ 1 1#1
  let main_v7 : IVec S_ 1 := (fun x v => Host.reduce IntOp.andi x v reducesTo_S1024x750_S_d0_1 h_S_) main_v6 main_c_1
  let main_v8 : IVec S_ 1 := andi main_v3 main_v7
  let main_v9 : FVec F S1024x30 .f32 := Host.absf main_arg3
  let main_cst_2 : FVec F S_ .f32 := constant S_ .f32 0x7F800000#32
  let main_v10 : FVec F S1024x30 .f32 := broadcastInDim S1024x30 ![] bcast_S_S1024x30 main_cst_2
  let main_v11 : IVec S1024x30 1 := cmpf .olt main_v9 main_v10
  let main_c_3 : IVec S_ 1 := constantI S_ 1 1#1
  let main_v12 : IVec S_ 1 := (fun x v => Host.reduce IntOp.andi x v reducesTo_S1024x30_S_d0_1 h_S_) main_v11 main_c_3
  let main_v13 : IVec S_ 1 := andi main_v8 main_v12
  let main_v14 : FVec F S10331x10 .f32 := Host.absf main_arg4
  let main_cst_4 : FVec F S_ .f32 := constant S_ .f32 0x7F800000#32
  let main_v15 : FVec F S10331x10 .f32 := broadcastInDim S10331x10 ![] bcast_S_S10331x10 main_cst_4
  let main_v16 : IVec S10331x10 1 := cmpf .olt main_v14 main_v15
  fn_part1 (F := F) main_arg1 main_arg5 main_arg6 main_v13 main_v16
-- ==== Kernel.lean ====
abbrev S1024x10 : Shape := ⟨2, ![1024, 10]⟩
abbrev S1024x30 : Shape := ⟨2, ![1024, 30]⟩
abbrev S1024x750 : Shape := ⟨2, ![1024, 750]⟩
abbrev S10331x10 : Shape := ⟨2, ![10331, 10]⟩
abbrev S10331x11541 : Shape := ⟨2, ![10331, 11541]⟩
abbrev S10331 : Shape := ⟨1, ![10331]⟩
abbrev S_ : Shape := ⟨0, ![]⟩
abbrev S1024x30x1 : Shape := ⟨3, ![1024, 30, 1]⟩
abbrev S1024x30x10 : Shape := ⟨3, ![1024, 30, 10]⟩
abbrev S1024x1x10 : Shape := ⟨3, ![1024, 1, 10]⟩
abbrev S1024x30x5 : Shape := ⟨3, ![1024, 30, 5]⟩
abbrev S1024x30x15 : Shape := ⟨3, ![1024, 30, 15]⟩
abbrev S1024x450 : Shape := ⟨2, ![1024, 450]⟩
abbrev S1024 : Shape := ⟨1, ![1024]⟩
abbrev S1024x1 : Shape := ⟨2, ![1024, 1]⟩
abbrev S1024x10331 : Shape := ⟨2, ![1024, 10331]⟩
abbrev S1024x30x2 : Shape := ⟨3, ![1024, 30, 2]⟩
abbrev S1024x107 : Shape := ⟨2, ![1024, 107]⟩
abbrev S1024x11648 : Shape := ⟨2, ![1024, 11648]⟩
abbrev S10752x11648 : Shape := ⟨2, ![10752, 11648]⟩
abbrev S10752 : Shape := ⟨1, ![10752]⟩
abbrev S1x10752 : Shape := ⟨2, ![1, 10752]⟩
abbrev S1024x10752 : Shape := ⟨2, ![1024, 10752]⟩
abbrev S768x1664 : Shape := ⟨2, ![768, 1664]⟩
abbrev S1x768 : Shape := ⟨2, ![1, 768]⟩
abbrev S1024x768 : Shape := ⟨2, ![1024, 768]⟩
abbrev S1024x1664 : Shape := ⟨2, ![1024, 1664]⟩
abbrev S1 : Shape := ⟨1, ![1]⟩
abbrev S1x1x1 : Shape := ⟨3, ![1, 1, 1]⟩

abbrev nBuf : Space → Nat
  | .hbm => 219
  | .vmem => 8
  | .smem => 0
  | _ => 0

abbrev hbmTy0_0 (i : Nat) : BufTy := match i % 128 with
  | 0 => ⟨S1024x10, .f32⟩
  | 1 => ⟨S1024x30, .i32⟩
  | 2 => ⟨S1024x750, .f32⟩
  | 3 => ⟨S1024x30, .f32⟩
  | 4 => ⟨S10331x10, .f32⟩
  | 5 => ⟨S10331x11541, .f32⟩
  | 6 => ⟨S10331, .f32⟩
  | 7 => ⟨S_, .i32⟩
  | 8 => ⟨S1024x30, .i32⟩
  | 9 => ⟨S1024x30, .i1⟩
  | 10 => ⟨S_, .i32⟩
  | 11 => ⟨S1024x30, .i32⟩
  | 12 => ⟨S1024x30, .i32⟩
  | 13 => ⟨S1024x30, .i32⟩
  | 14 => ⟨S1024x30x1, .i32⟩
  | 15 => ⟨S1024x30x10, .f32⟩
  | 16 => ⟨S1024x1x10, .f32⟩
  | 17 => ⟨S1024x30x10, .f32⟩
  | 18 => ⟨S1024x30x10, .f32⟩
  | 19 => ⟨S_, .f32⟩
  | 20 => ⟨S1024x30, .f32⟩
  | 21 => ⟨S_, .f32⟩
  | 22 => ⟨S_, .f32⟩
  | 23 => ⟨S_, .f32⟩
  | 24 => ⟨S1024x30, .f32⟩
  | 25 => ⟨S1024x30, .f32⟩
  | 26 => ⟨S_, .f32⟩
  | 27 => ⟨S1024x30, .f32⟩
  | 28 => ⟨S1024x30, .f32⟩
  | 29 => ⟨S1024x30x10, .f32⟩
  | 30 => ⟨S_, .f32⟩
  | 31 => ⟨S1024x30, .f32⟩
  | 32 => ⟨S_, .f32⟩
  | 33 => ⟨S_, .f32⟩
  | 34 => ⟨S_, .f32⟩
  | 35 => ⟨S1024x30, .f32⟩
  | 36 => ⟨S1024x30, .f32⟩
  | 37 => ⟨S_, .f32⟩
  | 38 => ⟨S1024x30, .f32⟩
  | 39 => ⟨S1024x30, .f32⟩
  | 40 => ⟨S1024x30x10, .f32⟩
  | 41 => ⟨S1024x30x10, .f32⟩
  | 42 => ⟨S_, .f32⟩
  | 43 => ⟨S1024x30, .f32⟩
  | 44 => ⟨S_, .f32⟩
  | 45 => ⟨S1024x30, .f32⟩
  | 46 => ⟨S1024x30, .f32⟩
  | 47 => ⟨S_, .f32⟩
  | 48 => ⟨S1024x30, .f32⟩
  | 49 => ⟨S1024x30, .f32⟩
  | 50 => ⟨S_, .f32⟩
  | 51 => ⟨S1024x30, .f32⟩
  | 52 => ⟨S1024x30, .f32⟩
  | 53 => ⟨S1024x30, .f32⟩
  | 54 => ⟨S1024x30, .f32⟩
  | 55 => ⟨S_, .f32⟩
  | 56 => ⟨S1024x30, .f32⟩
  | 57 => ⟨S1024x30, .f32⟩
  | 58 => ⟨S_, .f32⟩
  | 59 => ⟨S1024x30, .f32⟩
  | 60 => ⟨S1024x30, .f32⟩
  | 61 => ⟨S1024x30, .f32⟩
  | 62 => ⟨S_, .f32⟩
  | 63 => ⟨S1024x30, .f32⟩
  | 64 => ⟨S1024x30, .f32⟩
  | 65 => ⟨S1024x30, .f32⟩
  | 66 => ⟨S1024x30, .f32⟩
  | 67 => ⟨S1024x30, .f32⟩
  | 68 => ⟨S1024x30x10, .f32⟩
  | 69 => ⟨S_, .f32⟩
  | 70 => ⟨S1024x30, .f32⟩
  | 71 => ⟨S1024x30x10, .f32⟩
  | 72 => ⟨S_, .f32⟩
  | 73 => ⟨S1024x30, .f32⟩
  | 74 => ⟨S1024x30, .f32⟩
  | 75 => ⟨S1024x30x10, .f32⟩
  | 76 => ⟨S_, .f32⟩
  | 77 => ⟨S1024x30, .f32⟩
  | 78 => ⟨S1024x30, .f32⟩
  | 79 => ⟨S_, .f32⟩
  | 80 => ⟨S1024x30, .f32⟩
  | 81 => ⟨S1024x30, .f32⟩
  | 82 => ⟨S_, .f32⟩
  | 83 => ⟨S1024x30, .f32⟩
  | 84 => ⟨S1024x30, .f32⟩
  | 85 => ⟨S1024x30, .f32⟩
  | 86 => ⟨S1024x30, .f32⟩
  | 87 => ⟨S1024x30x10, .f32⟩
  | 88 => ⟨S_, .f32⟩
  | 89 => ⟨S1024x30x10, .f32⟩
  | 90 => ⟨S1024x30x10, .f32⟩
  | 91 => ⟨S1024x30x10, .f32⟩
  | 92 => ⟨S_, .f32⟩
  | 93 => ⟨S1024x30, .f32⟩
  | 94 => ⟨S1024x30, .f32⟩
  | 95 => ⟨S1024x30x10, .f32⟩
  | 96 => ⟨S_, .f32⟩
  | 97 => ⟨S1024x30, .f32⟩
  | 98 => ⟨S_, .f32⟩
  | 99 => ⟨S_, .f32⟩
  | 100 => ⟨S_, .f32⟩
  | 101 => ⟨S1024x30, .f32⟩
  | 102 => ⟨S1024x30, .f32⟩
  | 103 => ⟨S_, .f32⟩
  | 104 => ⟨S1024x30, .f32⟩
  | 105 => ⟨S1024x30, .f32⟩
  | 106 => ⟨S_, .f32⟩
  | 107 => ⟨S1024x30, .f32⟩
  | 108 => ⟨S1024x30, .f32⟩
  | 109 => ⟨S_, .f32⟩
  | 110 => ⟨S1024x30, .f32⟩
  | 111 => ⟨S1024x30, .f32⟩
  | 112 => ⟨S1024x30, .f32⟩
  | 113 => ⟨S_, .f32⟩
  | 114 => ⟨S1024x30, .f32⟩
  | 115 => ⟨S1024x30, .f32⟩
  | 116 => ⟨S_, .f32⟩
  | 117 => ⟨S1024x30, .f32⟩
  | 118 => ⟨S1024x30, .f32⟩
  | 119 => ⟨S1024x30, .f32⟩
  | 120 => ⟨S_, .f32⟩
  | 121 => ⟨S1024x30, .f32⟩
  | 122 => ⟨S1024x30, .f32⟩
  | 123 => ⟨S1024x30, .f32⟩
  | 124 => ⟨S1024x30, .f32⟩
  | 125 => ⟨S1024x30, .f32⟩
  | 126 => ⟨S1024x30x1, .f32⟩
  | 127 => ⟨S1024x30x1, .f32⟩
  | _ => ⟨S1024x10, .f32⟩

abbrev hbmTy0_1 (i : Nat) : BufTy := match i % 128 with
  | 0 => ⟨S1024x30x1, .f32⟩
  | 1 => ⟨S1024x30x1, .f32⟩
  | 2 => ⟨S1024x30x1, .f32⟩
  | 3 => ⟨S1024x30x5, .f32⟩
  | 4 => ⟨S1024x30x15, .f32⟩
  | 5 => ⟨S1024x450, .f32⟩
  | 6 => ⟨S1024, .i32⟩
  | 7 => ⟨S1024x1, .i32⟩
  | 8 => ⟨S_, .bf16⟩
  | 9 => ⟨S1024x10331, .bf16⟩
  | 10 => ⟨S_, .i32⟩
  | 11 => ⟨S1024x1, .i32⟩
  | 12 => ⟨S1024x1, .i1⟩
  | 13 => ⟨S_, .i32⟩
  | 14 => ⟨S1024x1, .i32⟩
  | 15 => ⟨S1024x1, .i32⟩
  | 16 => ⟨S1024x1, .i32⟩
  | 17 => ⟨S_, .i32⟩
  | 18 => ⟨S1024x30, .i32⟩
  | 19 => ⟨S1024x30, .i1⟩
  | 20 => ⟨S_, .i32⟩
  | 21 => ⟨S1024x30, .i32⟩
  | 22 => ⟨S1024x30, .i32⟩
  | 23 => ⟨S1024x30, .i32⟩
  | 24 => ⟨S1024x30, .i32⟩
  | 25 => ⟨S1024x30x1, .i32⟩
  | 26 => ⟨S1024x30x1, .i32⟩
  | 27 => ⟨S1024x30x2, .i32⟩
  | 28 => ⟨S_, .bf16⟩
  | 29 => ⟨S1024x30, .bf16⟩
  | 30 => ⟨S1024x10331, .bf16⟩
  | 31 => ⟨S1024x750, .bf16⟩
  | 32 => ⟨S1024x10, .bf16⟩
  | 33 => ⟨S1024x450, .bf16⟩
  | 34 => ⟨S_, .bf16⟩
  | 35 => ⟨S1024x107, .bf16⟩
  | 36 => ⟨S1024x11648, .bf16⟩
  | 37 => ⟨S10331x11541, .bf16⟩
  | 38 => ⟨S_, .i32⟩
  | 39 => ⟨S_, .bf16⟩
  | 40 => ⟨S10752x11648, .bf16⟩
  | 41 => ⟨S_, .i32⟩
  | 42 => ⟨S_, .f32⟩
  | 43 => ⟨S10752, .f32⟩
  | 44 => ⟨S1x10752, .f32⟩
  | 45 => ⟨S1024x10752, .f32⟩
  | 46 => ⟨S1024x10331, .f32⟩
  | 47 => ⟨S_, .i32⟩
  | 48 => ⟨S1024x30, .i32⟩
  | 49 => ⟨S1024x30, .i1⟩
  | 50 => ⟨S_, .i32⟩
  | 51 => ⟨S1024x30, .i32⟩
  | 52 => ⟨S1024x30, .i32⟩
  | 53 => ⟨S1024x30, .i32⟩
  | 54 => ⟨S1024x30x1, .i32⟩
  | 55 => ⟨S1, .i32⟩
  | 56 => ⟨S_, .i32⟩
  | 57 => ⟨S1024x30x1, .i32⟩
  | 58 => ⟨S1024x30x1, .i1⟩
  | 59 => ⟨S1x1x1, .i32⟩
  | 60 => ⟨S1024x30x1, .i32⟩
  | 61 => ⟨S1024x30x1, .i1⟩
  | 62 => ⟨S1024x30x1, .i1⟩
  | 63 => ⟨S_, .i1⟩
  | 64 => ⟨S1024x30, .i1⟩
  | 65 => ⟨S1024x30, .f32⟩
  | 66 => ⟨S_, .f32⟩
  | 67 => ⟨S1024x30, .f32⟩
  | 68 => ⟨S1024x30, .f32⟩
  | 69 => ⟨S1024x30, .f32⟩
  | 70 => ⟨S1024x30, .f32⟩
  | 71 => ⟨S_, .f32⟩
  | 72 => ⟨S1024x30, .f32⟩
  | 73 => ⟨S1024x30, .f32⟩
  | 74 => ⟨S_, .f32⟩
  | 75 => ⟨S1024x30, .f32⟩
  | 76 => ⟨S1024x30, .f32⟩
  | 77 => ⟨S_, .f32⟩
  | 78 => ⟨S1024x30, .f32⟩
  | 79 => ⟨S1024x30, .f32⟩
  | 80 => ⟨S1024x30, .f32⟩
  | 81 => ⟨S1024x30, .f32⟩
  | 82 => ⟨S1024x30, .f32⟩
  | 83 => ⟨S1024x30, .f32⟩
  | 84 => ⟨S1024x30, .f32⟩
  | 85 => ⟨S1024x30, .f32⟩
  | 86 => ⟨S1024x30, .f32⟩
  | 87 => ⟨S_, .f32⟩
  | 88 => ⟨S_, .f32⟩
  | 89 => ⟨S_, .f32⟩
  | 90 => ⟨S_, .f32⟩
  | _ => ⟨S1024x10, .f32⟩

abbrev hbmTy (i : Nat) : BufTy := match i / 128 with
  | 0 => hbmTy0_0 i
  | 1 => hbmTy0_1 i
  | _ => ⟨S1024x10, .f32⟩

abbrev bufTy : (tb : Table) → Fin (tcTables nBuf tb) → BufTy
  | .hbm, ⟨i, _⟩ => hbmTy i
  | .local _ .vmem, ⟨0, _⟩ => ⟨S1024x11648, .bf16⟩
  | .local _ .vmem, ⟨1, _⟩ => ⟨S768x1664, .bf16⟩
  | .local _ .vmem, ⟨2, _⟩ => ⟨S768x1664, .bf16⟩
  | .local _ .vmem, ⟨3, _⟩ => ⟨S1x768, .f32⟩
  | .local _ .vmem, ⟨4, _⟩ => ⟨S1x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | _, _ => ⟨S1024x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_6 : Ref sig .tc := ⟨.hbm, 42, rfl⟩
abbrev main_v17 : Ref sig .tc := ⟨.hbm, 43, rfl⟩
abbrev main_cst_7 : Ref sig .tc := ⟨.hbm, 44, rfl⟩
abbrev main_v18 : Ref sig .tc := ⟨.hbm, 45, rfl⟩
abbrev main_v19 : Ref sig .tc := ⟨.hbm, 46, rfl⟩
abbrev main_cst_8 : Ref sig .tc := ⟨.hbm, 47, rfl⟩
abbrev main_v20 : Ref sig .tc := ⟨.hbm, 48, rfl⟩
abbrev main_v21 : Ref sig .tc := ⟨.hbm, 49, rfl⟩
abbrev main_cst_9 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_10 : Ref sig .tc := ⟨.hbm, 55, rfl⟩
abbrev main_v26 : Ref sig .tc := ⟨.hbm, 56, rfl⟩
abbrev main_v27 : Ref sig .tc := ⟨.hbm, 57, rfl⟩
abbrev main_cst_11 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_12 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_13 : Ref sig .tc := ⟨.hbm, 69, rfl⟩
abbrev main_v37 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_v38 : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_cst_15 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_16 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_17 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_18 : Ref sig .tc := ⟨.hbm, 96, rfl⟩
abbrev main_v53 : Ref sig .tc := ⟨.hbm, 97, rfl⟩
abbrev main_cst_19 : Ref sig .tc := ⟨.hbm, 98, rfl⟩
abbrev main_cst_20 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v54 : Ref sig .tc := ⟨.hbm, 105, rfl⟩
abbrev main_cst_21 : Ref sig .tc := ⟨.hbm, 106, rfl⟩
abbrev main_v55 : Ref sig .tc := ⟨.hbm, 107, rfl⟩
abbrev main_v56 : Ref sig .tc := ⟨.hbm, 108, rfl⟩
abbrev main_cst_22 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_23 : Ref sig .tc := ⟨.hbm, 113, rfl⟩
abbrev main_v60 : Ref sig .tc := ⟨.hbm, 114, rfl⟩
abbrev main_v61 : Ref sig .tc := ⟨.hbm, 115, rfl⟩
abbrev main_cst_24 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_25 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_26 : Ref sig .tc := ⟨.hbm, 136, rfl⟩
abbrev main_v80 : Ref sig .tc := ⟨.hbm, 137, rfl⟩
abbrev main_c_27 : Ref sig .tc := ⟨.hbm, 138, rfl⟩
abbrev main_v81 : Ref sig .tc := ⟨.hbm, 139, rfl⟩
abbrev main_v82 : Ref sig .tc := ⟨.hbm, 140, rfl⟩
abbrev main_c_28 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_29 : Ref sig .tc := ⟨.hbm, 145, rfl⟩
abbrev main_v86 : Ref sig .tc := ⟨.hbm, 146, rfl⟩
abbrev main_v87 : Ref sig .tc := ⟨.hbm, 147, rfl⟩
abbrev main_c_30 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_cst_31 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_32 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_33 : Ref sig .tc := ⟨.hbm, 166, rfl⟩
abbrev main_call5_v0 : Ref sig .tc := ⟨.hbm, 167, rfl⟩
abbrev main_v103 : Ref sig .tc := ⟨.hbm, 168, rfl⟩
abbrev main_c_34 : Ref sig .tc := ⟨.hbm, 169, rfl⟩
abbrev main_call6_v0 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_call7_c : Ref sig .tc := ⟨.hbm, 175, rfl⟩
abbrev main_call7_v0 : Ref sig .tc := ⟨.hbm, 176, rfl⟩
abbrev main_call7_v1 : Ref sig .tc := ⟨.hbm, 177, rfl⟩
abbrev main_call7_c_0 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_c_1 : Ref sig .tc := ⟨.hbm, 183, rfl⟩
abbrev main_call7_c_2 : Ref sig .tc := ⟨.hbm, 184, rfl⟩
abbrev main_call7_v6 : Ref sig .tc := ⟨.hbm, 185, rfl⟩
abbrev main_call7_v7 : Ref sig .tc := ⟨.hbm, 186, rfl⟩
abbrev main_call7_v8 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_c_3 : Ref sig .tc := ⟨.hbm, 191, rfl⟩
abbrev main_call7_v12 : Ref sig .tc := ⟨.hbm, 192, rfl⟩
abbrev main_call7_v13 : Ref sig .tc := ⟨.hbm, 193, rfl⟩
abbrev main_call7_cst : Ref sig .tc := ⟨.hbm, 194, rfl⟩
abbrev main_call7_v14 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_cst_35 : Ref sig .tc := ⟨.hbm, 199, rfl⟩
abbrev main_v111 : Ref sig .tc := ⟨.hbm, 200, rfl⟩
abbrev main_v112 : Ref sig .tc := ⟨.hbm, 201, rfl⟩
abbrev main_cst_36 : Ref sig .tc := ⟨.hbm, 202, rfl⟩
abbrev main_v113 : Ref sig .tc := ⟨.hbm, 203, rfl⟩
abbrev main_v114 : Ref sig .tc := ⟨.hbm, 204, rfl⟩
abbrev main_cst_37 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_cst_38 : Ref sig .tc := ⟨.hbm, 215, rfl⟩
abbrev main_v124 : Ref sig .tc := ⟨.hbm, 216, rfl⟩
abbrev main_cst_39 : Ref sig .tc := ⟨.hbm, 217, rfl⟩
abbrev main_v125 : Ref sig .tc := ⟨.hbm, 218, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![14, 7], ![false, false]⟩

def k0_mult1 (i : grid0.Coords) : BitVec 32 :=
  let arg1 : BitVec 32 := BitVec.ofNat 32 (i 1).val
  let c1664_i32 : BitVec 32 := 1664#32
  let v3 : BitVec 32 := Scalar.muli arg1 c1664_i32
  v3
def k0_off1 (i : grid0.Coords) : Fin 2 → Nat :=
  let c0 : Index := 0#32
  let arg1 : BitVec 32 := BitVec.ofNat 32 (i 1).val
  let c1664_i32 : BitVec 32 := 1664#32
  let v3 : BitVec 32 := Scalar.muli arg1 c1664_i32
  let v4 : BitVec 32 := v3
  let v5 : Index := Scalar.indexCast v4
  ![0, v5.toNat]
def k0_cond2 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x11648 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1024x30 : S_.BroadcastsInDim S1024x30 (![] : Fin 0 → Fin S1024x30.rank)
  bcast_S1024x30_S1024x30x1_0_1 : S1024x30.BroadcastsInDim S1024x30x1 (![0, 1] : Fin 2 → Fin S1024x30x1.rank)
  bcast_S1024x10_S1024x1x10_0_2 : S1024x10.BroadcastsInDim S1024x1x10 (![0, 2] : Fin 2 → Fin S1024x1x10.rank)
  bcast_S1024x1x10_S1024x30x10_0_1_2 : S1024x1x10.BroadcastsInDim S1024x30x10 (![0, 1, 2] : Fin 3 → Fin S1024x30x10.rank)
  reducesTo_S1024x30x10_S1024x30_d2 : S1024x30x10.ReducesTo [2] S1024x30
  h_S_ : 0 < S_.numel
  bcast_S_S1024x30x10 : S_.BroadcastsInDim S1024x30x10 (![] : Fin 0 → Fin S1024x30x10.rank)
  concatenates_S1024x30x1_S1024x30x1_S1024x30x1_S1024x30x1_S1024x30x1_S1024x30x5_d2 : Shape.Concatenates [S1024x30x1, S1024x30x1, S1024x30x1, S1024x30x1, S1024x30x1] S1024x30x5 2
  concatenates_S1024x30x10_S1024x30x5_S1024x30x15_d2 : Shape.Concatenates [S1024x30x10, S1024x30x5] S1024x30x15 2
  shapeCasts_S1024x30x15_S1024x450 : S1024x30x15.ShapeCasts S1024x450
  bcast_S1024_S1024x1_0 : S1024.BroadcastsInDim S1024x1 (![0] : Fin 1 → Fin S1024x1.rank)
  bcast_S_S1024x10331 : S_.BroadcastsInDim S1024x10331 (![] : Fin 0 → Fin S1024x10331.rank)
  bcast_S_S1024x1 : S_.BroadcastsInDim S1024x1 (![] : Fin 0 → Fin S1024x1.rank)
  bcast_S1024x1_S1024x30_0_1 : S1024x1.BroadcastsInDim S1024x30 (![0, 1] : Fin 2 → Fin S1024x30.rank)
  concatenates_S1024x30x1_S1024x30x1_S1024x30x2_d2 : Shape.Concatenates [S1024x30x1, S1024x30x1] S1024x30x2 2
  bitsLt_bf16_f32 : FTy.bits .bf16 < FTy.bits .f32
  bcast_S_S1024x107 : S_.BroadcastsInDim S1024x107 (![] : Fin 0 → Fin S1024x107.rank)
  concatenates_S1024x750_S1024x10_S1024x450_S1024x10331_S1024x107_S1024x11648_d1 : Shape.Concatenates [S1024x750, S1024x10, S1024x450, S1024x10331, S1024x107] S1024x11648 1
  pads_S10331x11541_S10752x11648_04210_01070 : S10331x11541.Pads (![0, 0] : Fin 2 → Nat) ![421, 107] ![0, 0] S10752x11648
  pads_S10331_S10752_04210 : S10331.Pads (![0] : Fin 1 → Nat) ![421] ![0] S10752
  shapeCasts_S10752_S1x10752 : S10752.ShapeCasts S1x10752
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  h_S1024x1664 : 0 < S1024x1664.numel
  shapeCasts_S1024x1664_S1024x1664 : S1024x1664.ShapeCasts S1024x1664
  inb_S768x1664_S768x1664_0_0 : ∀ a, (![0, 0] : Fin 2 → Nat) a + S768x1664.size a ≤ S768x1664.size a
  h_S768x1664 : 0 < S768x1664.numel
  shapeCasts_S768x1664_S768x1664 : S768x1664.ShapeCasts S768x1664
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x10752_S1024x10331_0_0 : S1024x10752.Slices ![0, 0] S1024x10331
  shapeCasts_S1024x30_S1024x30x1 : S1024x30.ShapeCasts S1024x30x1
  bcast_S_S1024x30x1 : S_.BroadcastsInDim S1024x30x1 (![] : Fin 0 → Fin S1024x30x1.rank)
  bcast_S1_S1x1x1_2 : S1.BroadcastsInDim S1x1x1 (![2] : Fin 1 → Fin S1x1x1.rank)
  bcast_S1x1x1_S1024x30x1_0_1_2 : S1x1x1.BroadcastsInDim S1024x30x1 (![0, 1, 2] : Fin 3 → Fin S1024x30x1.rank)
  reducesTo_S1024x30x1_S1024x30_d2 : S1024x30x1.ReducesTo [2] S1024x30
  reducesTo_S1024x30_S_d0_1 : S1024x30.ReducesTo [0, 1] S_
  gather_S10331x10_S1024x30x1_S1024x30x10_2_0_n_n_0_2_110_wf : GatherDims.WF S10331x10 S1024x30x1 S1024x30x10 [2] [0] [] [0] [] 2 ![1, 10]
  scatter_S1024x10331_S1024x30x2_S1024x30_n_01_01_2_wf : ScatterDims.WF S1024x10331 S1024x30x2 S1024x30 [] [0, 1] [0, 1] 2
  dot_S1024x1664_S768x1664_S1024x768_1_1_0_0_n_n_wf : DotDims.WF S1024x1664 S768x1664 S1024x768 [1] [1] [0] [0] [] []
  gather_S1024x10331_S1024x30x1_S1024x30_n_1_0_0_1_2_11_wf : GatherDims.WF S1024x10331 S1024x30x1 S1024x30 [] [1] [0] [1] [0] 2 ![1, 1]
  hrank0 : 0 < grid0.rank
  k0_mult1_dvd : ∀ i : grid0.Coords, 128 ∣ (k0_mult1 i).toNat
  k0_off1_inb : ∀ i : grid0.Coords, ∀ a, (k0_off1 i) a + S1024x1664.size a ≤ S1024x11648.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x11648.size a ≤ S1024x11648.size a
  hwx0_0 : ∀ i : grid0.Coords, EltTy.bits .bf16 = 32 ∨ (Rect.block (s := S1024x11648) S1024x11648.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x1664.size a ≤ S10752x11648.size a
  hwx0_1 : ∀ i : grid0.Coords, EltTy.bits .bf16 = 32 ∨ (Rect.block (s := S10752x11648) S768x1664.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x10752.size a
  hwx0_2 : ∀ i : grid0.Coords, EltTy.bits .f32 = 32 ∨ (Rect.block (s := S1x10752) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S1024x10752.size a
  hwx0_3 : ∀ i : grid0.Coords, EltTy.bits .f32 = 32 ∨ (Rect.block (s := S1024x10752) S1024x768.size (cc0_transform_3 i) (hinb0_3 i)).WholeWords (EltTy.packing .f32)

variable [Facts₀]

def gather_S10331x10_S1024x30x1_S1024x30x10_2_0_n_n_0_2_110 : GatherDims S10331x10 S1024x30x1 S1024x30x10 where
  offsetDims := [2]
  collapsedSliceDims := [0]
  operandBatchingDims := []
  startIndicesBatchingDims := []
  startIndexMap := [0]
  indexVectorDim := 2
  sliceSizes := ![1, 10]
  wf := gather_S10331x10_S1024x30x1_S1024x30x10_2_0_n_n_0_2_110_wf
def scatter_S1024x10331_S1024x30x2_S1024x30_n_01_01_2 : ScatterDims S1024x10331 S1024x30x2 S1024x30 where
  updateWindowDims := []
  insertedWindowDims := [0, 1]
  scatterDimsToOperandDims := [0, 1]
  indexVectorDim := 2
  wf := scatter_S1024x10331_S1024x30x2_S1024x30_n_01_01_2_wf
def dot_S1024x1664_S768x1664_S1024x768_1_1_0_0_n_n : DotDims S1024x1664 S768x1664 S1024x768 where
  lhsContracting := [1]
  rhsContracting := [1]
  lhsNonContracting := [0]
  rhsNonContracting := [0]
  lhsBatch := []
  rhsBatch := []
  wf := dot_S1024x1664_S768x1664_S1024x768_1_1_0_0_n_n_wf
def gather_S1024x10331_S1024x30x1_S1024x30_n_1_0_0_1_2_11 : GatherDims S1024x10331 S1024x30x1 S1024x30 where
  offsetDims := []
  collapsedSliceDims := [1]
  operandBatchingDims := [0]
  startIndicesBatchingDims := [0]
  startIndexMap := [1]
  indexVectorDim := 2
  sliceSizes := ![1, 1]
  wf := gather_S1024x10331_S1024x30x1_S1024x30_n_1_0_0_1_2_11_wf

abbrev win0_0 : Pipeline.Window sig grid0 :=
  Pipeline.Window.ofSpec (Memref.whole main_v101) S1024x11648.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v103) S768x1664.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v105) S1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v106) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x10 : Shape := ⟨2, ![1024, 10]⟩
abbrev S1024x30 : Shape := ⟨2, ![1024, 30]⟩
abbrev S1024x750 : Shape := ⟨2, ![1024, 750]⟩
abbrev S10331x10 : Shape := ⟨2, ![10331, 10]⟩
abbrev S10331x11541 : Shape := ⟨2, ![10331, 11541]⟩
abbrev S10331 : Shape := ⟨1, ![10331]⟩
abbrev S_ : Shape := ⟨0, ![]⟩
abbrev S1024x30x1 : Shape := ⟨3, ![1024, 30, 1]⟩
abbrev S1024x30x10 : Shape := ⟨3, ![1024, 30, 10]⟩
abbrev S1024x1x10 : Shape := ⟨3, ![1024, 1, 10]⟩
abbrev S1024x30x5 : Shape := ⟨3, ![1024, 30, 5]⟩
abbrev S1024x30x15 : Shape := ⟨3, ![1024, 30, 15]⟩
abbrev S1024x450 : Shape := ⟨2, ![1024, 450]⟩
abbrev S1024x10331 : Shape := ⟨2, ![1024, 10331]⟩
abbrev S1024 : Shape := ⟨1, ![1024]⟩
abbrev S1024x1 : Shape := ⟨2, ![1024, 1]⟩
abbrev S1024x30x2 : Shape := ⟨3, ![1024, 30, 2]⟩
abbrev S1024x11541 : Shape := ⟨2, ![1024, 11541]⟩
abbrev S11541x10331 : Shape := ⟨2, ![11541, 10331]⟩
abbrev S1x10331 : Shape := ⟨2, ![1, 10331]⟩

abbrev nBuf : Space → Nat
  | .hbm => 227
  | .vmem => 0
  | .smem => 0
  | _ => 0

abbrev hbmTy0_0 (i : Nat) : BufTy := match i % 128 with
  | 0 => ⟨S1024x10, .f32⟩
  | 1 => ⟨S1024x30, .i32⟩
  | 2 => ⟨S1024x750, .f32⟩
  | 3 => ⟨S1024x30, .f32⟩
  | 4 => ⟨S10331x10, .f32⟩
  | 5 => ⟨S10331x11541, .f32⟩
  | 6 => ⟨S10331, .f32⟩
  | 7 => ⟨S_, .i32⟩
  | 8 => ⟨S1024x30, .i32⟩
  | 9 => ⟨S1024x30, .i1⟩
  | 10 => ⟨S_, .i32⟩
  | 11 => ⟨S1024x30, .i32⟩
  | 12 => ⟨S1024x30, .i32⟩
  | 13 => ⟨S1024x30, .i32⟩
  | 14 => ⟨S1024x30x1, .i32⟩
  | 15 => ⟨S1024x30x10, .f32⟩
  | 16 => ⟨S1024x1x10, .f32⟩
  | 17 => ⟨S1024x30x10, .f32⟩
  | 18 => ⟨S1024x30x10, .f32⟩
  | 19 => ⟨S_, .f32⟩
  | 20 => ⟨S1024x30, .f32⟩
  | 21 => ⟨S_, .f32⟩
  | 22 => ⟨S_, .f32⟩
  | 23 => ⟨S_, .f32⟩
  | 24 => ⟨S1024x30, .f32⟩
  | 25 => ⟨S1024x30, .f32⟩
  | 26 => ⟨S_, .f32⟩
  | 27 => ⟨S1024x30, .f32⟩
  | 28 => ⟨S1024x30, .f32⟩
  | 29 => ⟨S1024x30x10, .f32⟩
  | 30 => ⟨S_, .f32⟩
  | 31 => ⟨S1024x30, .f32⟩
  | 32 => ⟨S_, .f32⟩
  | 33 => ⟨S_, .f32⟩
  | 34 => ⟨S_, .f32⟩
  | 35 => ⟨S1024x30, .f32⟩
  | 36 => ⟨S1024x30, .f32⟩
  | 37 => ⟨S_, .f32⟩
  | 38 => ⟨S1024x30, .f32⟩
  | 39 => ⟨S1024x30, .f32⟩
  | 40 => ⟨S1024x30x10, .f32⟩
  | 41 => ⟨S1024x30x10, .f32⟩
  | 42 => ⟨S_, .f32⟩
  | 43 => ⟨S1024x30, .f32⟩
  | 44 => ⟨S_, .f32⟩
  | 45 => ⟨S1024x30, .f32⟩
  | 46 => ⟨S1024x30, .f32⟩
  | 47 => ⟨S_, .f32⟩
  | 48 => ⟨S1024x30, .f32⟩
  | 49 => ⟨S1024x30, .f32⟩
  | 50 => ⟨S_, .f32⟩
  | 51 => ⟨S1024x30, .f32⟩
  | 52 => ⟨S1024x30, .f32⟩
  | 53 => ⟨S1024x30, .f32⟩
  | 54 => ⟨S1024x30, .f32⟩
  | 55 => ⟨S_, .f32⟩
  | 56 => ⟨S1024x30, .f32⟩
  | 57 => ⟨S1024x30, .f32⟩
  | 58 => ⟨S_, .f32⟩
  | 59 => ⟨S1024x30, .f32⟩
  | 60 => ⟨S1024x30, .f32⟩
  | 61 => ⟨S1024x30, .f32⟩
  | 62 => ⟨S_, .f32⟩
  | 63 => ⟨S1024x30, .f32⟩
  | 64 => ⟨S1024x30, .f32⟩
  | 65 => ⟨S1024x30, .f32⟩
  | 66 => ⟨S1024x30, .f32⟩
  | 67 => ⟨S1024x30, .f32⟩
  | 68 => ⟨S1024x30x10, .f32⟩
  | 69 => ⟨S_, .f32⟩
  | 70 => ⟨S1024x30, .f32⟩
  | 71 => ⟨S1024x30x10, .f32⟩
  | 72 => ⟨S_, .f32⟩
  | 73 => ⟨S1024x30, .f32⟩
  | 74 => ⟨S1024x30, .f32⟩
  | 75 => ⟨S1024x30x10, .f32⟩
  | 76 => ⟨S_, .f32⟩
  | 77 => ⟨S1024x30, .f32⟩
  | 78 => ⟨S1024x30, .f32⟩
  | 79 => ⟨S_, .f32⟩
  | 80 => ⟨S1024x30, .f32⟩
  | 81 => ⟨S1024x30, .f32⟩
  | 82 => ⟨S_, .f32⟩
  | 83 => ⟨S1024x30, .f32⟩
  | 84 => ⟨S1024x30, .f32⟩
  | 85 => ⟨S1024x30, .f32⟩
  | 86 => ⟨S1024x30, .f32⟩
  | 87 => ⟨S1024x30x10, .f32⟩
  | 88 => ⟨S_, .f32⟩
  | 89 => ⟨S1024x30x10, .f32⟩
  | 90 => ⟨S1024x30x10, .f32⟩
  | 91 => ⟨S1024x30x10, .f32⟩
  | 92 => ⟨S_, .f32⟩
  | 93 => ⟨S1024x30, .f32⟩
  | 94 => ⟨S1024x30, .f32⟩
  | 95 => ⟨S1024x30x10, .f32⟩
  | 96 => ⟨S_, .f32⟩
  | 97 => ⟨S1024x30, .f32⟩
  | 98 => ⟨S_, .f32⟩
  | 99 => ⟨S_, .f32⟩
  | 100 => ⟨S_, .f32⟩
  | 101 => ⟨S1024x30, .f32⟩
  | 102 => ⟨S1024x30, .f32⟩
  | 103 => ⟨S_, .f32⟩
  | 104 => ⟨S1024x30, .f32⟩
  | 105 => ⟨S1024x30, .f32⟩
  | 106 => ⟨S_, .f32⟩
  | 107 => ⟨S1024x30, .f32⟩
  | 108 => ⟨S1024x30, .f32⟩
  | 109 => ⟨S_, .f32⟩
  | 110 => ⟨S1024x30, .f32⟩
  | 111 => ⟨S1024x30, .f32⟩
  | 112 => ⟨S1024x30, .f32⟩
  | 113 => ⟨S_, .f32⟩
  | 114 => ⟨S1024x30, .f32⟩
  | 115 => ⟨S1024x30, .f32⟩
  | 116 => ⟨S_, .f32⟩
  | 117 => ⟨S1024x30, .f32⟩
  | 118 => ⟨S1024x30, .f32⟩
  | 119 => ⟨S1024x30, .f32⟩
  | 120 => ⟨S_, .f32⟩
  | 121 => ⟨S1024x30, .f32⟩
  | 122 => ⟨S1024x30, .f32⟩
  | 123 => ⟨S1024x30, .f32⟩
  | 124 => ⟨S1024x30, .f32⟩
  | 125 => ⟨S1024x30, .f32⟩
  | 126 => ⟨S1024x30x1, .f32⟩
  | 127 => ⟨S1024x30x1, .f32⟩
  | _ => ⟨S1024x10, .f32⟩

abbrev hbmTy0_1 (i : Nat) : BufTy := match i % 128 with
  | 0 => ⟨S1024x30x1, .f32⟩
  | 1 => ⟨S1024x30x1, .f32⟩
  | 2 => ⟨S1024x30x1, .f32⟩
  | 3 => ⟨S1024x30x5, .f32⟩
  | 4 => ⟨S1024x30x15, .f32⟩
  | 5 => ⟨S1024x450, .f32⟩
  | 6 => ⟨S_, .f32⟩
  | 7 => ⟨S1024x10331, .f32⟩
  | 8 => ⟨S1024, .i32⟩
  | 9 => ⟨S1024x1, .i32⟩
  | 10 => ⟨S_, .i32⟩
  | 11 => ⟨S1024x1, .i32⟩
  | 12 => ⟨S1024x1, .i1⟩
  | 13 => ⟨S_, .i32⟩
  | 14 => ⟨S1024x1, .i32⟩
  | 15 => ⟨S1024x1, .i32⟩
  | 16 => ⟨S1024x1, .i32⟩
  | 17 => ⟨S_, .i32⟩
  | 18 => ⟨S1024x30, .i32⟩
  | 19 => ⟨S1024x30, .i1⟩
  | 20 => ⟨S_, .i32⟩
  | 21 => ⟨S1024x30, .i32⟩
  | 22 => ⟨S1024x30, .i32⟩
  | 23 => ⟨S1024x30, .i32⟩
  | 24 => ⟨S1024x30, .i32⟩
  | 25 => ⟨S1024x30x1, .i32⟩
  | 26 => ⟨S1024x30x1, .i32⟩
  | 27 => ⟨S1024x30x2, .i32⟩
  | 28 => ⟨S_, .f32⟩
  | 29 => ⟨S1024x30, .f32⟩
  | 30 => ⟨S1024x10331, .f32⟩
  | 31 => ⟨S1024x11541, .f32⟩
  | 32 => ⟨S11541x10331, .f32⟩
  | 33 => ⟨S1024x10331, .f32⟩
  | 34 => ⟨S1x10331, .f32⟩
  | 35 => ⟨S1024x10331, .f32⟩
  | 36 => ⟨S1024x10331, .f32⟩
  | 37 => ⟨S1024x10331, .f32⟩
  | 38 => ⟨S1024x10331, .f32⟩
  | 39 => ⟨S_, .f32⟩
  | 40 => ⟨S1024x10331, .f32⟩
  | 41 => ⟨S1024x10331, .f32⟩
  | 42 => ⟨S_, .f32⟩
  | 43 => ⟨S1024x10331, .f32⟩
  | 44 => ⟨S1024x10331, .f32⟩
  | 45 => ⟨S1024, .i32⟩
  | 46 => ⟨S1024x1, .i32⟩
  | 47 => ⟨S_, .i32⟩
  | 48 => ⟨S1024x1, .i32⟩
  | 49 => ⟨S1024x1, .i1⟩
  | 50 => ⟨S_, .i32⟩
  | 51 => ⟨S1024x1, .i32⟩
  | 52 => ⟨S1024x1, .i32⟩
  | 53 => ⟨S1024x1, .i32⟩
  | 54 => ⟨S_, .i32⟩
  | 55 => ⟨S1024x30, .i32⟩
  | 56 => ⟨S1024x30, .i1⟩
  | 57 => ⟨S_, .i32⟩
  | 58 => ⟨S1024x30, .i32⟩
  | 59 => ⟨S1024x30, .i32⟩
  | 60 => ⟨S1024x30, .i32⟩
  | 61 => ⟨S1024x30, .i32⟩
  | 62 => ⟨S1024x30x1, .i32⟩
  | 63 => ⟨S1024x30x1, .i32⟩
  | 64 => ⟨S1024x30x2, .i32⟩
  | 65 => ⟨S1024x30, .f32⟩
  | 66 => ⟨S_, .i32⟩
  | 67 => ⟨S1024x1, .i32⟩
  | 68 => ⟨S1024x1, .i1⟩
  | 69 => ⟨S_, .i32⟩
  | 70 => ⟨S1024x1, .i32⟩
  | 71 => ⟨S1024x1, .i32⟩
  | 72 => ⟨S1024x1, .i32⟩
  | 73 => ⟨S_, .i32⟩
  | 74 => ⟨S1024x30, .i32⟩
  | 75 => ⟨S1024x30, .i1⟩
  | 76 => ⟨S_, .i32⟩
  | 77 => ⟨S1024x30, .i32⟩
  | 78 => ⟨S1024x30, .i32⟩
  | 79 => ⟨S1024x30, .i32⟩
  | 80 => ⟨S1024x30, .i32⟩
  | 81 => ⟨S1024x30x1, .i32⟩
  | 82 => ⟨S1024x30x1, .i32⟩
  | 83 => ⟨S1024x30x2, .i32⟩
  | 84 => ⟨S1024x30, .f32⟩
  | 85 => ⟨S_, .f32⟩
  | 86 => ⟨S1024x30, .f32⟩
  | 87 => ⟨S1024x30, .f32⟩
  | 88 => ⟨S1024x30, .f32⟩
  | 89 => ⟨S1024x30, .f32⟩
  | 90 => ⟨S1024x30, .f32⟩
  | 91 => ⟨S1024x30, .f32⟩
  | 92 => ⟨S1024x30, .f32⟩
  | 93 => ⟨S1024x30, .f32⟩
  | 94 => ⟨S1024x30, .f32⟩
  | 95 => ⟨S_, .f32⟩
  | 96 => ⟨S_, .f32⟩
  | 97 => ⟨S_, .f32⟩
  | 98 => ⟨S_, .f32⟩
  | _ => ⟨S1024x10, .f32⟩

abbrev hbmTy (i : Nat) : BufTy := match i / 128 with
  | 0 => hbmTy0_0 i
  | 1 => hbmTy0_1 i
  | _ => ⟨S1024x10, .f32⟩

abbrev bufTy : (tb : Table) → Fin (tcTables nBuf tb) → BufTy
  | .hbm, ⟨i, _⟩ => hbmTy i
  | _, _ => ⟨S1024x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_6 : Ref sig .tc := ⟨.hbm, 42, rfl⟩
abbrev main_v17 : Ref sig .tc := ⟨.hbm, 43, rfl⟩
abbrev main_cst_7 : Ref sig .tc := ⟨.hbm, 44, rfl⟩
abbrev main_v18 : Ref sig .tc := ⟨.hbm, 45, rfl⟩
abbrev main_v19 : Ref sig .tc := ⟨.hbm, 46, rfl⟩
abbrev main_cst_8 : Ref sig .tc := ⟨.hbm, 47, rfl⟩
abbrev main_v20 : Ref sig .tc := ⟨.hbm, 48, rfl⟩
abbrev main_v21 : Ref sig .tc := ⟨.hbm, 49, rfl⟩
abbrev main_cst_9 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_10 : Ref sig .tc := ⟨.hbm, 55, rfl⟩
abbrev main_v26 : Ref sig .tc := ⟨.hbm, 56, rfl⟩
abbrev main_v27 : Ref sig .tc := ⟨.hbm, 57, rfl⟩
abbrev main_cst_11 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_12 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_13 : Ref sig .tc := ⟨.hbm, 69, rfl⟩
abbrev main_v37 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_v38 : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_cst_15 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_16 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_17 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_18 : Ref sig .tc := ⟨.hbm, 96, rfl⟩
abbrev main_v53 : Ref sig .tc := ⟨.hbm, 97, rfl⟩
abbrev main_cst_19 : Ref sig .tc := ⟨.hbm, 98, rfl⟩
abbrev main_cst_20 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v54 : Ref sig .tc := ⟨.hbm, 105, rfl⟩
abbrev main_cst_21 : Ref sig .tc := ⟨.hbm, 106, rfl⟩
abbrev main_v55 : Ref sig .tc := ⟨.hbm, 107, rfl⟩
abbrev main_v56 : Ref sig .tc := ⟨.hbm, 108, rfl⟩
abbrev main_cst_22 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_23 : Ref sig .tc := ⟨.hbm, 113, rfl⟩
abbrev main_v60 : Ref sig .tc := ⟨.hbm, 114, rfl⟩
abbrev main_v61 : Ref sig .tc := ⟨.hbm, 115, rfl⟩
abbrev main_cst_24 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_25 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_26 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_c_27 : Ref sig .tc := ⟨.hbm, 138, rfl⟩
abbrev main_v81 : Ref sig .tc := ⟨.hbm, 139, rfl⟩
abbrev main_v82 : Ref sig .tc := ⟨.hbm, 140, rfl⟩
abbrev main_c_28 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_29 : Ref sig .tc := ⟨.hbm, 145, rfl⟩
abbrev main_v86 : Ref sig .tc := ⟨.hbm, 146, rfl⟩
abbrev main_v87 : Ref sig .tc := ⟨.hbm, 147, rfl⟩
abbrev main_c_30 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_cst_31 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_32 : Ref sig .tc := ⟨.hbm, 167, rfl⟩
abbrev main_v105 : Ref sig .tc := ⟨.hbm, 168, rfl⟩
abbrev main_v106 : Ref sig .tc := ⟨.hbm, 169, rfl⟩
abbrev main_cst_33 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_c_34 : Ref sig .tc := ⟨.hbm, 175, rfl⟩
abbrev main_v111 : Ref sig .tc := ⟨.hbm, 176, rfl⟩
abbrev main_v112 : Ref sig .tc := ⟨.hbm, 177, rfl⟩
abbrev main_c_35 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_c_36 : Ref sig .tc := ⟨.hbm, 182, rfl⟩
abbrev main_v116 : Ref sig .tc := ⟨.hbm, 183, rfl⟩
abbrev main_v117 : Ref sig .tc := ⟨.hbm, 184, rfl⟩
abbrev main_c_37 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_c_38 : Ref sig .tc := ⟨.hbm, 194, rfl⟩
abbrev main_v126 : Ref sig .tc := ⟨.hbm, 195, rfl⟩
abbrev main_v127 : Ref sig .tc := ⟨.hbm, 196, rfl⟩
abbrev main_c_39 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_c_40 : Ref sig .tc := ⟨.hbm, 201, rfl⟩
abbrev main_v131 : Ref sig .tc := ⟨.hbm, 202, rfl⟩
abbrev main_v132 : Ref sig .tc := ⟨.hbm, 203, rfl⟩
abbrev main_c_41 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_cst_42 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_43 : Ref sig .tc := ⟨.hbm, 223, rfl⟩
abbrev main_v150 : Ref sig .tc := ⟨.hbm, 224, rfl⟩
abbrev main_cst_44 : Ref sig .tc := ⟨.hbm, 225, rfl⟩
abbrev main_v151 : Ref sig .tc := ⟨.hbm, 226, rfl⟩

abbrev nD : Nat := 1
abbrev τ : Topo := Topo.v7x

variable {F : FTy → Type} [FloatOps F]

class Facts₀ : Prop where
  bcast_S_S1024x30 : S_.BroadcastsInDim S1024x30 (![] : Fin 0 → Fin S1024x30.rank)
  bcast_S1024x30_S1024x30x1_0_1 : S1024x30.BroadcastsInDim S1024x30x1 (![0, 1] : Fin 2 → Fin S1024x30x1.rank)
  bcast_S1024x10_S1024x1x10_0_2 : S1024x10.BroadcastsInDim S1024x1x10 (![0, 2] : Fin 2 → Fin S1024x1x10.rank)
  bcast_S1024x1x10_S1024x30x10_0_1_2 : S1024x1x10.BroadcastsInDim S1024x30x10 (![0, 1, 2] : Fin 3 → Fin S1024x30x10.rank)
  reducesTo_S1024x30x10_S1024x30_d2 : S1024x30x10.ReducesTo [2] S1024x30
  h_S_ : 0 < S_.numel
  bcast_S_S1024x30x10 : S_.BroadcastsInDim S1024x30x10 (![] : Fin 0 → Fin S1024x30x10.rank)
  concatenates_S1024x30x1_S1024x30x1_S1024x30x1_S1024x30x1_S1024x30x1_S1024x30x5_d2 : Shape.Concatenates [S1024x30x1, S1024x30x1, S1024x30x1, S1024x30x1, S1024x30x1] S1024x30x5 2
  concatenates_S1024x30x10_S1024x30x5_S1024x30x15_d2 : Shape.Concatenates [S1024x30x10, S1024x30x5] S1024x30x15 2
  shapeCasts_S1024x30x15_S1024x450 : S1024x30x15.ShapeCasts S1024x450
  bcast_S_S1024x10331 : S_.BroadcastsInDim S1024x10331 (![] : Fin 0 → Fin S1024x10331.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x30_0_1 : S1024x1.BroadcastsInDim S1024x30 (![0, 1] : Fin 2 → Fin S1024x30.rank)
  concatenates_S1024x30x1_S1024x30x1_S1024x30x2_d2 : Shape.Concatenates [S1024x30x1, S1024x30x1] S1024x30x2 2
  concatenates_S1024x750_S1024x10_S1024x450_S1024x10331_S1024x11541_d1 : Shape.Concatenates [S1024x750, S1024x10, S1024x450, S1024x10331] S1024x11541 1
  transposes_S10331x11541_S11541x10331_1_0 : S10331x11541.Transposes [1, 0] S11541x10331
  bcast_S10331_S1x10331_1 : S10331.BroadcastsInDim S1x10331 (![1] : Fin 1 → Fin S1x10331.rank)
  bcast_S1x10331_S1024x10331_0_1 : S1x10331.BroadcastsInDim S1024x10331 (![0, 1] : Fin 2 → Fin S1024x10331.rank)
  reducesTo_S1024x30_S_d0_1 : S1024x30.ReducesTo [0, 1] S_
  gather_S10331x10_S1024x30x1_S1024x30x10_2_0_n_n_0_2_110_wf : GatherDims.WF S10331x10 S1024x30x1 S1024x30x10 [2] [0] [] [0] [] 2 ![1, 10]
  scatter_S1024x10331_S1024x30x2_S1024x30_n_01_01_2_wf : ScatterDims.WF S1024x10331 S1024x30x2 S1024x30 [] [0, 1] [0, 1] 2
  dot_S1024x11541_S11541x10331_S1024x10331_1_0_0_1_n_n_wf : DotDims.WF S1024x11541 S11541x10331 S1024x10331 [1] [0] [0] [1] [] []
  gather_S1024x10331_S1024x30x2_S1024x30_n_01_n_n_01_2_11_wf : GatherDims.WF S1024x10331 S1024x30x2 S1024x30 [] [0, 1] [] [0, 1] [] 2 ![1, 1]

variable [Facts₀]

def gather_S10331x10_S1024x30x1_S1024x30x10_2_0_n_n_0_2_110 : GatherDims S10331x10 S1024x30x1 S1024x30x10 where
  offsetDims := [2]
  collapsedSliceDims := [0]
  operandBatchingDims := []
  startIndicesBatchingDims := []
  startIndexMap := [0]
  indexVectorDim := 2
  sliceSizes := ![1, 10]
  wf := gather_S10331x10_S1024x30x1_S1024x30x10_2_0_n_n_0_2_110_wf
def scatter_S1024x10331_S1024x30x2_S1024x30_n_01_01_2 : ScatterDims S1024x10331 S1024x30x2 S1024x30 where
  updateWindowDims := []
  insertedWindowDims := [0, 1]
  scatterDimsToOperandDims := [0, 1]
  indexVectorDim := 2
  wf := scatter_S1024x10331_S1024x30x2_S1024x30_n_01_01_2_wf
def dot_S1024x11541_S11541x10331_S1024x10331_1_0_0_1_n_n : DotDims S1024x11541 S11541x10331 S1024x10331 where
  lhsContracting := [1]
  rhsContracting := [0]
  lhsNonContracting := [0]
  rhsNonContracting := [1]
  lhsBatch := []
  rhsBatch := []
  wf := dot_S1024x11541_S11541x10331_S1024x10331_1_0_0_1_n_n_wf
def gather_S1024x10331_S1024x30x2_S1024x30_n_01_n_n_01_2_11 : GatherDims S1024x10331 S1024x30x2 S1024x30 where
  offsetDims := []
  collapsedSliceDims := [0, 1]
  operandBatchingDims := []
  startIndicesBatchingDims := []
  startIndexMap := [0, 1]
  indexVectorDim := 2
  sliceSizes := ![1, 1]
  wf := gather_S1024x10331_S1024x30x2_S1024x30_n_01_n_n_01_2_11_wf

class Facts : Prop extends Facts₀ where

variable [Facts]
-- ==== Proof.KI.Kit.lean ====
/- The launch side of the frame of the program whose one region is the tiled linear layer: the
   contents every buffer has when the region is entered (after the host lines before it), the program
   as "host lines, the region, host lines", what the lines after the region may touch, the blocks the
   windows stage at each grid point, where the two conditions of the body hold on the 14 x 7 grid
   (the reduction step is the point's number modulo 7: first step, last step), and where the output
   window is idle. -/
import proofs.«424952_j75608604279323_3_alg».proof.Proof.Gen.KernelIdeal.Launch
import proofs.«424952_j75608604279323_3_alg».proof.Proof.Gen.KernelIdeal.Skeleton
import proofs.«424952_j75608604279323_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The stretches of host lines before the region, in order. -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13]
/-- The stretches of host lines after the region, in order. -/
abbrev postOps : List (List (HloOp τ sig (Elt F))) := [hostOps1, hostOps1_1, hostOps1_2]

/-- The contents of core `c`'s buffers when the region is entered, as a valuation: the launch contents after the host
    lines before the region. -/
abbrev V0 (c : Dev nD) : Valuation τ sig (Elt F) := StableHlo.after (List.flatten preOps) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (postOps.map StableHlo.seq)) :=
  Pipeline.hmain_around cfgs 0 defs₀ 𝒱₀ m main preOps postOps
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- The lines after the region touch only the pipeline's arrays and the buffers that bypass the region. -/
theorem sfx_sub : ∀ ops ∈ (postOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (postOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 1000000 in
/-- And none of them writes an array of the pipeline: each writes its own result buffer only. -/
theorem sfx_keeps : ∀ ops ∈ (postOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 2000000 in
/-- No host line before the region writes argument array 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- No host line before the region writes argument array 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- No host line before the region writes argument array 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- No host line before the region writes argument array 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- No host line before the region writes argument array 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- No host line before the region writes argument array 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- No host line before the region writes argument array 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument array 0 either: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) postOps c main_arg0 = m ((c : Thread nD τ).loc main_arg0) := by
  unfold Pipeline.afterTail₀
  rw [StableHlo.after_of_forall_not_mem (b := Proc.devRef .tc main_arg0) _ _ (List.forall_iff_forall_mem.mp (by
      simp only [postOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 1000000 in
/-- No host line after the region writes argument array 1 either: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) postOps c main_arg1 = m ((c : Thread nD τ).loc main_arg1) := by
  unfold Pipeline.afterTail₀
  rw [StableHlo.after_of_forall_not_mem (b := Proc.devRef .tc main_arg1) _ _ (List.forall_iff_forall_mem.mp (by
      simp only [postOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 1000000 in
/-- No host line after the region writes argument array 2 either: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) postOps c main_arg2 = m ((c : Thread nD τ).loc main_arg2) := by
  unfold Pipeline.afterTail₀
  rw [StableHlo.after_of_forall_not_mem (b := Proc.devRef .tc main_arg2) _ _ (List.forall_iff_forall_mem.mp (by
      simp only [postOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 1000000 in
/-- No host line after the region writes argument array 3 either: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) postOps c main_arg3 = m ((c : Thread nD τ).loc main_arg3) := by
  unfold Pipeline.afterTail₀
  rw [StableHlo.after_of_forall_not_mem (b := Proc.devRef .tc main_arg3) _ _ (List.forall_iff_forall_mem.mp (by
      simp only [postOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 1000000 in
/-- No host line after the region writes argument array 4 either: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) postOps c main_arg4 = m ((c : Thread nD τ).loc main_arg4) := by
  unfold Pipeline.afterTail₀
  rw [StableHlo.after_of_forall_not_mem (b := Proc.devRef .tc main_arg4) _ _ (List.forall_iff_forall_mem.mp (by
      simp only [postOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 1000000 in
/-- No host line after the region writes argument array 5 either: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) postOps c main_arg5 = m ((c : Thread nD τ).loc main_arg5) := by
  unfold Pipeline.afterTail₀
  rw [StableHlo.after_of_forall_not_mem (b := Proc.devRef .tc main_arg5) _ _ (List.forall_iff_forall_mem.mp (by
      simp only [postOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 1000000 in
/-- No host line after the region writes argument array 6 either: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) postOps c main_arg6 = m ((c : Thread nD τ).loc main_arg6) := by
  unfold Pipeline.afterTail₀
  rw [StableHlo.after_of_forall_not_mem (b := Proc.devRef .tc main_arg6) _ _ (List.forall_iff_forall_mem.mp (by
      simp only [postOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose proof data's arrays are the region-entry contents: no argument array is staged by a window,
    so each is read by the post's clause on the bypassing buffers, after the lines that follow the region, none of
    which writes it, and before them none did either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) postOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's two conditions on the grid -/

/-- The body's first condition ("this is the first reduction step"), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 7). -/
theorem hcond0_0 : ∀ t : Fin cfg0.N, cond0_0 (grid0.coords t) ↔ t.val % 7 = 0 :=
  (by decide +kernel : ∀ t : Fin grid0.N, cond0_0 (grid0.coords t) ↔ t.val % 7 = 0)

/-- The body's second condition ("this is the last reduction step"). -/
abbrev cond0_1 (i : grid0.Coords) : Prop := k0_cond2 i = 1#1
/-- It holds at the points ≡ 6 (mod 7). -/
theorem hcond0_1 : ∀ t : Fin cfg0.N, cond0_1 (grid0.coords t) ↔ t.val % 7 = 6 :=
  (by decide +kernel : ∀ t : Fin grid0.N, cond0_1 (grid0.coords t) ↔ t.val % 7 = 6)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first reduction step the output window is idle: nothing is stored into it, and it is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same at a middle step. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At a last reduction step the output window is live: the body stores its whole block. -/
theorem liveAt0_3_C : ∀ t : Fin cfg0.N, ¬cond0_0 (grid0.coords t) → cond0_1 (grid0.coords t) → cfg0.idle 3 (grid0.coords t) = false := by decide +kernel

/-! ## The memrefs the body is called on -/

/-- One staging buffer of the output window, through which its contents are stated. -/
abbrev VO0_3 : View sig .tc .vmem S1024x768 .f32 := (Memref.whole cc0_stg3_0 : Memref sig .tc .vmem S1024x768 .f32).view
abbrev ms0_0 (t : Fin cfg0.N) : Memref sig .tc .vmem S1024x11648 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1664 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x768 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1024x768 .f32 := Memref.whole cc0_scratch0
/-- The accumulator as a view: what it holds is stated through it. -/
abbrev VS0_0 : View sig .tc .vmem S1024x768 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/- The body of the tiled linear layer at a FIRST reduction step (the point's number is 0 modulo 7): it zeroes the
   accumulator, then adds this step's partial product to it; the output block's buffer is not touched. The run is
   stated as a triple over whole buffers, with the pieces each written buffer ends with as its witness. -/
import proofs.«424952_j75608604279323_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's buffer (none) and in the accumulator, at a point where the
    reduction index is 0 (first conditional taken, second not): on whole buffers, the three input windows at their
    contents, the output block's buffer at contents handed back untouched, the accumulator at anything, the body runs
    to a continuation holding the inputs and the output buffer as they were and the accumulator with its pieces
    written (the zero fill, then the first partial product added to it). -/
noncomputable def kernelRun0_A (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : cond0_0 i) (hc1 : ¬cond0_1 i)
    (x0 : Vec F S1024x11648 .bf16) (x1 : Vec F S768x1664 .bf16) (x2 : Vec F S1x768 .f32) :
    Σ' (L3 : List (View.Piece (Elt F) S1024x768 .f32)), { LS0 : List (View.Piece (Elt F) S1024x768 .f32) //
      ∀ (xi3 : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg2 harg2 arg3 harg3 arg4 harg4 arg5 harg5 arg6 harg6) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunB.lean ====
/- The body of the tiled linear layer at a MIDDLE reduction step (the point's number is 1 to 5 modulo 7): it adds this
   step's partial product to the accumulator, which holds what the step before left; the output block's buffer is not
   touched. The run is stated as a triple over whole buffers, with the pieces each written buffer ends with as its
   witness. -/
import proofs.«424952_j75608604279323_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's buffer (none) and in the accumulator, at a point where the
    reduction index is neither 0 nor 6 (neither conditional taken): on whole buffers, the three input windows at their
    contents, the output block's buffer at contents handed back untouched, the accumulator at what the point before
    left in it, the body runs to a continuation holding the inputs and the output buffer as they were and the
    accumulator with its piece written (this step's partial product added to what it held). -/
noncomputable def kernelRun0_B (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : ¬cond0_1 i)
    (x0 : Vec F S1024x11648 .bf16) (x1 : Vec F S768x1664 .bf16) (x2 : Vec F S1x768 .f32) (xs0 : Vec F S1024x768 .f32) :
    Σ' (L3 : List (View.Piece (Elt F) S1024x768 .f32)), { LS0 : List (View.Piece (Elt F) S1024x768 .f32) //
      ∀ (xi3 : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg2 harg2 arg3 harg3 arg4 harg4 arg5 harg5 arg6 harg6) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunC.lean ====
/- The body of the tiled linear layer at a LAST reduction step (the point's number is 6 modulo 7): it adds this step's
   partial product to the accumulator, then stores the accumulator plus the bias row, whole, into the output block's
   buffer. The run is stated as a triple over whole buffers, with the pieces each written buffer ends with as its
   witness. -/
import proofs.«424952_j75608604279323_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's buffer and in the accumulator, at a point where the
    reduction index is 6 (first conditional not taken, second taken): on whole buffers, the three input windows at
    their contents, the output block's buffer at anything, the accumulator at what the point before left in it, the
    body runs to a continuation holding the inputs as they were, the accumulator with its piece written (the last
    partial product added) and the output block's buffer with its piece written (the accumulator plus the bias row). -/
noncomputable def kernelRun0_C (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : cond0_1 i)
    (x0 : Vec F S1024x11648 .bf16) (x1 : Vec F S768x1664 .bf16) (x2 : Vec F S1x768 .f32) (xs0 : Vec F S1024x768 .f32) :
    Σ' (L3 : List (View.Piece (Elt F) S1024x768 .f32)), { LS0 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg2 harg2 arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Frame.lean ====
/- The frame of the program whose one region is the tiled linear layer: what the output block's buffer and the
   accumulator hold case by case (the pieces the runs find, and that they cover their buffers) and point by point
   (the accumulation along the 98 grid points, the reduction step being the point's number modulo 7), the pipeline's
   proof data, the body's obligation at every point, the run of the whole program, and the frame claim at any float
   family: the program terminates without fault and its seven argument arrays end unchanged. -/
import proofs.«424952_j75608604279323_3_alg».proof.Proof.KI.RunA
import proofs.«424952_j75608604279323_3_alg».proof.Proof.KI.RunB
import proofs.«424952_j75608604279323_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block's buffer and in the accumulator -/

/-- A first reduction step stores nothing into the output block's buffer (the window is idle there and not written
    back): no pieces, so this is a placeholder that nothing consults. -/
def out0_A_3 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : cond0_0 i) (hc1 : ¬cond0_1 i)
    (x0 : Vec F S1024x11648 .bf16) (x1 : Vec F S768x1664 .bf16) (x2 : Vec F S1x768 .f32) : Vec F S1024x768 .f32 :=
  VO0_3.read (Elt F) (VO0_3.writes (Elt F) VO0_3.junk (kernelRun0_A c i arg2 harg2 arg3 harg3 arg4 harg4 arg5 harg5 arg6 harg6 hc0 hc1 x0 x1 x2).1)

/-- At a first reduction step the pieces written into the accumulator cover it: two whole-buffer stores. -/
theorem scover0_A_0 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : cond0_0 i) (hc1 : ¬cond0_1 i)
    (x0 : Vec F S1024x11648 .bf16) (x1 : Vec F S768x1664 .bf16) (x2 : Vec F S1x768 .f32) (y : S1024x768.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x768.size (by sl_kernel_rfl) y

/-- What a first reduction step leaves in the accumulator: its pieces read back. -/
def sout0_A_0 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : cond0_0 i) (hc1 : ¬cond0_1 i)
    (x0 : Vec F S1024x11648 .bf16) (x1 : Vec F S768x1664 .bf16) (x2 : Vec F S1x768 .f32) : Vec F S1024x768 .f32 :=
  VS0_0.read (Elt F) (VS0_0.writes (Elt F) VS0_0.junk (kernelRun0_A c i arg2 harg2 arg3 harg3 arg4 harg4 arg5 harg5 arg6 harg6 hc0 hc1 x0 x1 x2).2.1)

/-- A middle step stores nothing into the output block's buffer either: a placeholder that nothing consults. -/
def out0_B_3 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : ¬cond0_1 i)
    (x0 : Vec F S1024x11648 .bf16) (x1 : Vec F S768x1664 .bf16) (x2 : Vec F S1x768 .f32) (xs0 : Vec F S1024x768 .f32) : Vec F S1024x768 .f32 :=
  VO0_3.read (Elt F) (VO0_3.writes (Elt F) VO0_3.junk (kernelRun0_B c i arg2 harg2 arg3 harg3 arg4 harg4 arg5 harg5 arg6 harg6 hc0 hc1 x0 x1 x2 xs0).1)

/-- At a middle step the piece written into the accumulator covers it: one whole-buffer store. -/
theorem scover0_B_0 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : ¬cond0_1 i)
    (x0 : Vec F S1024x11648 .bf16) (x1 : Vec F S768x1664 .bf16) (x2 : Vec F S1x768 .f32) (xs0 : Vec F S1024x768 .f32) (y : S1024x768.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x768.size (by sl_kernel_rfl) y

/-- What a middle step leaves in the accumulator: its piece read back. -/
def sout0_B_0 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : ¬cond0_1 i)
    (x0 : Vec F S1024x11648 .bf16) (x1 : Vec F S768x1664 .bf16) (x2 : Vec F S1x768 .f32) (xs0 : Vec F S1024x768 .f32) : Vec F S1024x768 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At a last reduction step the piece stored into the output block's buffer covers it: one whole-buffer store. -/
theorem cover0_C_3 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : cond0_1 i)
    (x0 : Vec F S1024x11648 .bf16) (x1 : Vec F S768x1664 .bf16) (x2 : Vec F S1x768 .f32) (xs0 : Vec F S1024x768 .f32) (y : S1024x768.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x768.size (by sl_kernel_rfl) y

/-- What a last reduction step leaves in the output block's buffer: its piece read back. -/
def out0_C_3 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : cond0_1 i)
    (x0 : Vec F S1024x11648 .bf16) (x1 : Vec F S768x1664 .bf16) (x2 : Vec F S1x768 .f32) (xs0 : Vec F S1024x768 .f32) : Vec F S1024x768 .f32 :=
  VO0_3.read (Elt F) (VO0_3.writes (Elt F) VO0_3.junk (kernelRun0_C c i arg2 harg2 arg3 harg3 arg4 harg4 arg5 harg5 arg6 harg6 hc0 hc1 x0 x1 x2 xs0).1)

/-- At a last reduction step the piece written into the accumulator covers it: one whole-buffer store. -/
theorem scover0_C_0 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : cond0_1 i)
    (x0 : Vec F S1024x11648 .bf16) (x1 : Vec F S768x1664 .bf16) (x2 : Vec F S1x768 .f32) (xs0 : Vec F S1024x768 .f32) (y : S1024x768.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x768.size (by sl_kernel_rfl) y

/-- What a last reduction step leaves in the accumulator: its piece read back. -/
def sout0_C_0 (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : cond0_1 i)
    (x0 : Vec F S1024x11648 .bf16) (x1 : Vec F S768x1664 .bf16) (x2 : Vec F S1x768 .f32) (xs0 : Vec F S1024x768 .f32) : Vec F S1024x768 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block's buffer and the accumulator hold after each point -/

/-- THE ACCUMULATION. What the output block's staging buffer and the accumulator hold after the body at position `n`
    (a pair: the output block's buffer, then the accumulator): the case the point's number modulo 7 selects, run at
    the point's memrefs and input blocks, over what the accumulator held after position `n - 1`. A point cannot be
    both a first and a last reduction step. -/
def outsAt0 (c : Dev nD) : (n : ℕ) → n < cfg0.N → Vec F S1024x768 .f32 × Vec F S1024x768 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 7 = 0 then
      if h1 : (n + 1) % 7 = 6 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 7 = 6 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at a first reduction step: that case's contents. -/
theorem outsAt0_A (c : Dev nD) (t : Fin cfg0.N) (h0 : t.val % 7 = 0) (h1 : ¬t.val % 7 = 6) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a middle step: that case's contents, over what the point before left in the accumulator. -/
theorem outsAt0_B (c : Dev nD) (t : Fin cfg0.N) (h0 : ¬t.val % 7 = 0) (h1 : ¬t.val % 7 = 6) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last reduction step: that case's contents, over what the point before left in the accumulator. -/
theorem outsAt0_C (c : Dev nD) (t : Fin cfg0.N) (h0 : ¬t.val % 7 = 0) (h1 : t.val % 7 = 6) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the launch's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them; after the body at point `t`
    each input window's buffer at its block and the output window's at `outsAt0`'s first component; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the input windows' memrefs hold their blocks; the point's number modulo 7 says which case
    it is in, and that case's run applies; the invariant hands the body the accumulator at what the point before left
    (at anything at the very first point) and the generator register at some state, and takes the accumulator back
    at this point's contents, its pieces covering it; at a first or middle step the output block's buffer is handed
    back untouched (the window is idle there), at a last step with its piece covering it; the core owes nothing
    throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 98 := lt_of_lt_of_eq t.isLt (show cfg0.N = 98 from N_0)
  by_cases h0 : t.val % 7 = 0
  · by_cases h1 : t.val % 7 = 6
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 7 = 6
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 98 := N_0; omega)

/-! ## The run and the frame -/

set_option backward.isDefEq.respectTransparency.types false in
/-- At the compiled mesh, for any values, from any memory with zero counters: every weakly fair execution of the
    program on the TensorCores terminates, and every final state has every array of the pipeline at what the proof
    data computes and every other unscoped buffer as the host lines after the region leave it. -/
theorem run_main : θ_run defs (onTc (τ := τ) (main (F := F))) (s₀ m ρ) (Pipeline.FramePost cfgs (dats m) 0 (Pipeline.afterTail₀ cfgs (dats m) 0 (V0 m) postOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hin := hin m) (hout := hout m)

/-- THE FRAME, at any float family: the program runs (terminates, no fault) and its seven argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.Ref.RunKit.lean ====
/- Two steps shared by every lemma that reads a buffer after a literal stretch of host operations, and the result
   lemma for an operation over five operand buffers (a concatenation of five pieces), which the library states for four. -/
import Idealize.ShloMosaic.Lib.StableHlo.Run

namespace Cert.RefVal

open Idealize.ShloMosaic Idealize.ShloMosaic.StableHlo

/-- An operation over a literal family of five operand buffers leaves, in its result buffer, its function of the five
    operands' contents, each read at its own buffer. -/
theorem nary5_result' {τ₀ : Topo} {σ : RefSig} {Val : EltTy → Type} {x a b c e y : Ref σ .tc}
    (f : ((k : Fin 5) → ((![x, a, b, c, e] : Fin 5 → Ref σ .tc) k).ty.Contents Val) → y.ty.Contents Val) (hxs hy)
    (G : Valuation τ₀ σ Val) :
    (nary (τ := τ₀) ![x, a, b, c, e] y f hxs hy).result G (no_index (Proc.devRef .tc y))
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) := by
  rw [nary_result]; congr 1; funext k; fin_cases k <;> rfl

/-- The contents of one buffer after a literal stretch of operations, in one pass: the operation that writes the buffer
    leaves its function of its operands' contents there, every other operation leaves the buffer as it was (two buffers
    are told apart by deciding the equality of their names). What remains mentions only the contents before the stretch. -/
macro "read_stretch" : tactic =>
  `(tactic| simp (disch := decide) only [after_cons, after_nil,
      nullary_result', unary_result', binary_result', ternary_result', quaternary_result', reshape_result', nary4_result',
      nary5_result', nary_result', unaryIndexed_result', binaryIndexed_result',
      nullary_result_ne', unary_result_ne', binary_result_ne', ternary_result_ne', quaternary_result_ne', reshape_result_ne',
      nary_result_ne', unaryIndexed_result_ne', binaryIndexed_result_ne'])

/-- The two sides are now the same composition of operations, up to the transport of a called function's values along
    equalities of types that hold by reflexivity. -/
macro "close_read" : tactic =>
  `(tactic| ((try simp only [TRef.ofBuf, TRef.toBuf, cast_eq]); (try rfl)))

end Cert.RefVal
-- ==== Proof.Ref.Run.lean ====
/-
  The reference program's run. The program is a straight line of 220 host operations on one TensorCore. Its buffers'
  contents after the line are the fold of the operations' results over the contents at launch; cut into fourteen consecutive stretches,
  the fold over the whole line is the fold over the last stretch from the contents the earlier ones leave, and what the
  last stretch leaves in the two result buffers are the stages the read-at-an-index lemmas speak of, as functions of the
  seven argument arrays, while no stretch writes an argument. No operation of the line allocates, so each determines its
  results, and the line touches TensorCore buffers only. Hence every weakly fair execution of the program terminates
  with the two results at those stages of the arguments and the arguments unchanged.
-/
import proofs.«424952_j75608604279323_3_alg».proof.Proof.Ref.Ops
import proofs.«424952_j75608604279323_3_alg».proof.Proof.Ref.Stretches
import Idealize.ShloMosaic.Lib.StableHlo.Run
import Idealize.ShloMosaic.Lib.Pipeline.Frame

set_option maxRecDepth 16384

noncomputable section

namespace Cert.RefVal

open Cert.ReferenceIdeal Cert.ReferenceIdeal.Gen Cert.ReferenceIdeal.Read Idealize.ShloMosaic
  Idealize.ShloMosaic.TcCoe Idealize.SL.Sem Idealize.ShloMosaic.StableHlo

variable {F : FTy → Type} [FloatOps F]

set_option maxHeartbeats 1000000 in
/-- The program's operation list is its fourteen stretches, one after the other. -/
theorem ops_split : (ops : List (HloOp τ sig (Elt F)))
    = opsC0 ++ (opsC1 ++ (opsC2 ++ (opsC3 ++ (opsC4 ++ (opsC5 ++ (opsC6 ++ (opsC7 ++ (opsC8 ++ (opsC9 ++ (opsC10 ++ (opsC11 ++ (opsC12 ++ (opsC13))))))))))))) := rfl

/-- The contents after the whole line are the contents after the last stretch. -/
theorem after_ops (m : (ℓ : Loc nD τ sig) → Buf (Elt F) ℓ) (c : Dev nD) :
    after (ops : List (HloOp τ sig (Elt F))) (launchContents m c) = W13 m c := by
  unfold W13 W12 W11 W10 W9 W8 W7 W6 W5 W4 W3 W2 W1 W0
  rw [ops_split, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]

/-- No operation of a stretch allocates: each determines its results. -/
theorem fresh_C0 : ∀ op ∈ (opsC0 : List (HloOp τ sig (Elt F))), op.fresh = ∅ := by intro _ h; (repeat (cases h with | head => rfl | tail _ h => ?_)); exact nomatch h
theorem fresh_C1 : ∀ op ∈ (opsC1 : List (HloOp τ sig (Elt F))), op.fresh = ∅ := by intro _ h; (repeat (cases h with | head => rfl | tail _ h => ?_)); exact nomatch h
theorem fresh_C2 : ∀ op ∈ (opsC2 : List (HloOp τ sig (Elt F))), op.fresh = ∅ := by intro _ h; (repeat (cases h with | head => rfl | tail _ h => ?_)); exact nomatch h
theorem fresh_C3 : ∀ op ∈ (opsC3 : List (HloOp τ sig (Elt F))), op.fresh = ∅ := by intro _ h; (repeat (cases h with | head => rfl | tail _ h => ?_)); exact nomatch h
theorem fresh_C4 : ∀ op ∈ (opsC4 : List (HloOp τ sig (Elt F))), op.fresh = ∅ := by intro _ h; (repeat (cases h with | head => rfl | tail _ h => ?_)); exact nomatch h
theorem fresh_C5 : ∀ op ∈ (opsC5 : List (HloOp τ sig (Elt F))), op.fresh = ∅ := by intro _ h; (repeat (cases h with | head => rfl | tail _ h => ?_)); exact nomatch h
theorem fresh_C6 : ∀ op ∈ (opsC6 : List (HloOp τ sig (Elt F))), op.fresh = ∅ := by intro _ h; (repeat (cases h with | head => rfl | tail _ h => ?_)); exact nomatch h
theorem fresh_C7 : ∀ op ∈ (opsC7 : List (HloOp τ sig (Elt F))), op.fresh = ∅ := by intro _ h; (repeat (cases h with | head => rfl | tail _ h => ?_)); exact nomatch h
theorem fresh_C8 : ∀ op ∈ (opsC8 : List (HloOp τ sig (Elt F))), op.fresh = ∅ := by intro _ h; (repeat (cases h with | head => rfl | tail _ h => ?_)); exact nomatch h
theorem fresh_C9 : ∀ op ∈ (opsC9 : List (HloOp τ sig (Elt F))), op.fresh = ∅ := by intro _ h; (repeat (cases h with | head => rfl | tail _ h => ?_)); exact nomatch h
theorem fresh_C10 : ∀ op ∈ (opsC10 : List (HloOp τ sig (Elt F))), op.fresh = ∅ := by intro _ h; (repeat (cases h with | head => rfl | tail _ h => ?_)); exact nomatch h
theorem fresh_C11 : ∀ op ∈ (opsC11 : List (HloOp τ sig (Elt F))), op.fresh = ∅ := by intro _ h; (repeat (cases h with | head => rfl | tail _ h => ?_)); exact nomatch h
theorem fresh_C12 : ∀ op ∈ (opsC12 : List (HloOp τ sig (Elt F))), op.fresh = ∅ := by intro _ h; (repeat (cases h with | head => rfl | tail _ h => ?_)); exact nomatch h
theorem fresh_C13 : ∀ op ∈ (opsC13 : List (HloOp τ sig (Elt F))), op.fresh = ∅ := by intro _ h; (repeat (cases h with | head => rfl | tail _ h => ?_)); exact nomatch h

/-- So no operation of the whole line does. -/
theorem fresh_ops : ∀ op ∈ (ops : List (HloOp τ sig (Elt F))), op.fresh = ∅ := by
  intro op h
  rw [ops_split] at h
  rcases List.mem_append.1 h with h | h
  · exact fresh_C0 op h
  rcases List.mem_append.1 h with h | h
  · exact fresh_C1 op h
  rcases List.mem_append.1 h with h | h
  · exact fresh_C2 op h
  rcases List.mem_append.1 h with h | h
  · exact fresh_C3 op h
  rcases List.mem_append.1 h with h | h
  · exact fresh_C4 op h
  rcases List.mem_append.1 h with h | h
  · exact fresh_C5 op h
  rcases List.mem_append.1 h with h | h
  · exact fresh_C6 op h
  rcases List.mem_append.1 h with h | h
  · exact fresh_C7 op h
  rcases List.mem_append.1 h with h | h
  · exact fresh_C8 op h
  rcases List.mem_append.1 h with h | h
  · exact fresh_C9 op h
  rcases List.mem_append.1 h with h | h
  · exact fresh_C10 op h
  rcases List.mem_append.1 h with h | h
  · exact fresh_C11 op h
  rcases List.mem_append.1 h with h | h
  · exact fresh_C12 op h
  exact fresh_C13 op h

/-- THE REFERENCE'S RUN: from any memory with zero counters, every weakly fair execution terminates with the two results
    at their stages of the arguments and the arguments unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140) = val_main_v140 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v151) = val_main_v151 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v140).trans ((congrFun (after_ops m c) _).trans (W13_v140 m c)),
      (h c main_v151).trans ((congrFun (after_ops m c) _).trans (W13_v151 m c)),
      (h c main_arg0).trans ((congrFun (after_ops m c) _).trans (W13_arg0 m c)),
      (h c main_arg1).trans ((congrFun (after_ops m c) _).trans (W13_arg1 m c)),
      (h c main_arg2).trans ((congrFun (after_ops m c) _).trans (W13_arg2 m c)),
      (h c main_arg3).trans ((congrFun (after_ops m c) _).trans (W13_arg3 m c)),
      (h c main_arg4).trans ((congrFun (after_ops m c) _).trans (W13_arg4 m c)),
      (h c main_arg5).trans ((congrFun (after_ops m c) _).trans (W13_arg5 m c)),
      (h c main_arg6).trans ((congrFun (after_ops m c) _).trans (W13_arg6 m c))⟩)
    (run_seq scopedRefs_eq scopedSems_eq defs main (fun _ => ops) main_eq (fun _ => ops_sub) m ρ (fun _ => fresh_ops))

end Cert.RefVal

end
-- ==== Proof.KI.Pieces.lean ====
/- What each case of the body leaves in the accumulator and in the output block's buffer, as the stored values applied
   to the blocks the body loaded. At a first reduction step the accumulator ends at the update of the ZERO block by this
   step's product; at a middle or last step at the update of what the step before left; and at a last step the output
   block's buffer ends at that updated accumulator plus the bias row. The product's left operand is the slice of the
   whole input that the step loads: its 1664 columns from column 1664 * (reduction index) on. -/
import proofs.«424952_j75608604279323_3_alg».proof.Proof.KI.Frame
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- The columns of the whole input that the step at grid coordinates `i` loads: 1664 of them, from the offset the body
    computes from the reduction index. -/
abbrev xslice (i : grid0.Coords) (x0 : Vec F S1024x11648 .bf16) : Vec F S1024x1664 .bf16 :=
  View.ld (Val := Elt F) (e' := .bf16) x0 (Rect.unit (s := S1024x11648) (k0_off1 i) S1024x1664.size (k0_off1_inb i))

/-- A first reduction step leaves in the accumulator the update of the zero block by this step's product. -/
theorem soutA_eq (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : cond0_0 i) (hc1 : ¬cond0_1 i)
    (x0 : Vec F S1024x11648 .bf16) (x1 : Vec F S768x1664 .bf16) (x2 : Vec F S1x768 .f32) :
    sout0_A_0 c i arg2 harg2 arg3 harg3 arg4 harg4 arg5 harg5 arg6 harg6 hc0 hc1 x0 x1 x2 = k0_pay2 (xslice i x0) x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x768) hz2, View.readCov_unit_zero (S := S1024x768) _ hz2]
  simp only [View.readAt_eq_ld, harg2.read_unread, harg3.read_unread, View.ld_unit_zero (S := S768x1664) hz2]
  rfl

/-- A middle reduction step leaves in the accumulator the update of what it held by this step's product. -/
theorem soutB_eq (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : ¬cond0_1 i)
    (x0 : Vec F S1024x11648 .bf16) (x1 : Vec F S768x1664 .bf16) (x2 : Vec F S1x768 .f32) (xs0 : Vec F S1024x768 .f32) :
    sout0_B_0 c i arg2 harg2 arg3 harg3 arg4 harg4 arg5 harg5 arg6 harg6 hc0 hc1 x0 x1 x2 xs0 = k0_pay2 (xslice i x0) x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread, View.ld_unit_zero (S := S768x1664) hz2, View.ld_unit_zero (S := S1024x768) hz2]
  rfl

/-- A last reduction step leaves the same in the accumulator. -/
theorem soutC_eq (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : cond0_1 i)
    (x0 : Vec F S1024x11648 .bf16) (x1 : Vec F S768x1664 .bf16) (x2 : Vec F S1x768 .f32) (xs0 : Vec F S1024x768 .f32) :
    sout0_C_0 c i arg2 harg2 arg3 harg3 arg4 harg4 arg5 harg5 arg6 harg6 hc0 hc1 x0 x1 x2 xs0 = k0_pay2 (xslice i x0) x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread, View.ld_unit_zero (S := S768x1664) hz2, View.ld_unit_zero (S := S1024x768) hz2]
  rfl

/-- And it leaves in the output block's buffer that updated accumulator plus the bias row. -/
theorem outC_eq (c : Dev nD) (i : grid0.Coords) (arg2 : Memref sig .tc .vmem S1024x11648 .bf16) (harg2 : arg2.IsWhole) (arg3 : Memref sig .tc .vmem S768x1664 .bf16) (harg3 : arg3.IsWhole) (arg4 : Memref sig .tc .vmem S1x768 .f32) (harg4 : arg4.IsWhole) (arg5 : Memref sig .tc .vmem S1024x768 .f32) (harg5 : arg5.IsWhole) (arg6 : Memref sig .tc .vmem S1024x768 .f32) (harg6 : arg6.IsWhole) (hc0 : ¬cond0_0 i) (hc1 : cond0_1 i)
    (x0 : Vec F S1024x11648 .bf16) (x1 : Vec F S768x1664 .bf16) (x2 : Vec F S1x768 .f32) (xs0 : Vec F S1024x768 .f32) :
    out0_C_3 c i arg2 harg2 arg3 harg3 arg4 harg4 arg5 harg5 arg6 harg6 hc0 hc1 x0 x1 x2 xs0 = k0_pay3 (k0_pay2 (xslice i x0) x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S1024x768) _ hz2]
  simp only [View.readAt_eq_ld, harg2.read_unread, harg3.read_unread, harg4.read_unread, harg6.read_unread, View.ld_unit_zero (S := S768x1664) hz2, View.ld_unit_zero (S := S1024x768) hz2, View.ld_unit_zero (S := S1x768) hz2]
  rfl

end Cert.KernelIdeal.Val

end
-- ==== Proof.KI.PayIdx.lean ====
/- The three values the tiled linear layer stores into a 1024 x 768 block, each read at an entry (r, q).
   The reset value is zero. The update is the accumulator's entry plus the product, over the 1664 columns of one
   column block, of row r of the loaded slice of the input with row q of the loaded weight block (the weight block
   is stored row-major by OUTPUT column, so the contraction runs along axis 1 of both operands). The last value is the
   accumulator's entry plus entry q of the one-row bias block, which is broadcast down the 1024 rows. -/
import proofs.«424952_j75608604279323_3_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.KernelIdeal.Val

open Idealize.ShloMosaic Idealize.ShloMosaic.ValueIdx Cert.KernelIdeal Cert.KernelIdeal.Gen

/-! ## The operand indices of the block product -/

/-- Axis 0 of the left operand is the output's row. -/
theorem lhs_mm_0 (i : S1024x768.Idx) (q : dot_S1024x1664_S768x1664_S1024x768_1_1_0_0_n_n.contr.Idx) :
    (dot_S1024x1664_S768x1664_S1024x768_1_1_0_0_n_n.lhsIdx i q 0).val = (i 0).val := by
  unfold DotDims.lhsIdx
  rw [dif_neg (show ¬(0 : Fin S1024x1664.rank) ∈ dot_S1024x1664_S768x1664_S1024x768_1_1_0_0_n_n.lhsBatch by decide), dif_pos (show (0 : Fin S1024x1664.rank) ∈ dot_S1024x1664_S768x1664_S1024x768_1_1_0_0_n_n.lhsNonContracting by decide)]
  rfl
/-- Axis 1 of the left operand is the contraction position. -/
theorem lhs_mm_1 (i : S1024x768.Idx) (q : dot_S1024x1664_S768x1664_S1024x768_1_1_0_0_n_n.contr.Idx) :
    (dot_S1024x1664_S768x1664_S1024x768_1_1_0_0_n_n.lhsIdx i q 1).val = (q ⟨0, by decide⟩).val :=
  dot_S1024x1664_S768x1664_S1024x768_1_1_0_0_n_n.lhsIdx_val_of_single rfl i q
/-- Axis 0 of the right operand is the output's column. -/
theorem rhs_mm_0 (i : S1024x768.Idx) (q : dot_S1024x1664_S768x1664_S1024x768_1_1_0_0_n_n.contr.Idx) :
    (dot_S1024x1664_S768x1664_S1024x768_1_1_0_0_n_n.rhsIdx i q 0).val = (i 1).val := by
  unfold DotDims.rhsIdx
  rw [dif_neg (show ¬(0 : Fin S768x1664.rank) ∈ dot_S1024x1664_S768x1664_S1024x768_1_1_0_0_n_n.rhsBatch by decide), dif_pos (show (0 : Fin S768x1664.rank) ∈ dot_S1024x1664_S768x1664_S1024x768_1_1_0_0_n_n.rhsNonContracting by decide)]
  rfl
/-- Axis 1 of the right operand is the contraction position. -/
theorem rhs_mm_1 (i : S1024x768.Idx) (q : dot_S1024x1664_S768x1664_S1024x768_1_1_0_0_n_n.contr.Idx) :
    (dot_S1024x1664_S768x1664_S1024x768_1_1_0_0_n_n.rhsIdx i q 1).val = (q ⟨0, by decide⟩).val :=
  dot_S1024x1664_S768x1664_S1024x768_1_1_0_0_n_n.rhsIdx_val_of_single rfl i q

/-- The block product into the zero block, at entry (r, q): the sum over the 1664 columns of the products of row r of
    the left operand with row q of the right operand. -/
theorem mm_apply (x : FVec Ideal S1024x1664 .bf16) (w : FVec Ideal S768x1664 .bf16) (r : Fin 1024) (q : Fin 768) :
    FloatOps.matmul dot_S1024x1664_S768x1664_S1024x768_1_1_0_0_n_n none x w (constant S1024x768 .f32 0x00000000#32) (ix2 r q)
      = ∑ k : Fin 1664, x (ix2 r k) * w (ix2 q k) := by
  rw [Ideal.matmul_constant_zero_apply, ← Equiv.sum_comp (ValueIdx.contrEquiv1 dot_S1024x1664_S768x1664_S1024x768_1_1_0_0_n_n 1664 rfl rfl).symm]
  refine Finset.sum_congr rfl fun k _ => ?_
  have hk := ValueIdx.contrEquiv1_symm_val dot_S1024x1664_S768x1664_S1024x768_1_1_0_0_n_n 1664 rfl rfl k
  have el : dot_S1024x1664_S768x1664_S1024x768_1_1_0_0_n_n.lhsIdx (ix2 r q) ((ValueIdx.contrEquiv1 dot_S1024x1664_S768x1664_S1024x768_1_1_0_0_n_n 1664 rfl rfl).symm k) = ix2 r k := funext fun a => Fin.ext (by
    match a with
    | ⟨0, _⟩ => exact lhs_mm_0 _ _
    | ⟨1, _⟩ => exact (lhs_mm_1 _ _).trans hk)
  have er : dot_S1024x1664_S768x1664_S1024x768_1_1_0_0_n_n.rhsIdx (ix2 r q) ((ValueIdx.contrEquiv1 dot_S1024x1664_S768x1664_S1024x768_1_1_0_0_n_n 1664 rfl rfl).symm k) = ix2 q k := funext fun a => Fin.ext (by
    match a with
    | ⟨0, _⟩ => exact rhs_mm_0 _ _
    | ⟨1, _⟩ => exact (rhs_mm_1 _ _).trans hk)
  rw [el, er]

/-! ## The three stored values at an entry -/

/-- The reset value is zero everywhere. -/
theorem pay1_apply (r : Fin 1024) (q : Fin 768) : (Gen.k0_pay1 (F := Ideal)) (ix2 r q) = 0 := by
  unfold Gen.k0_pay1
  refine (congrFun (shapeCast_self _ _) (ix2 r q)).trans ?_
  exact Ideal.ofBits_zero_f32

/-- The update: the accumulator's entry plus the block product's entry. -/
theorem pay2_apply (x : FVec Ideal S1024x1664 .bf16) (w : FVec Ideal S768x1664 .bf16) (acc : FVec Ideal S1024x768 .f32)
    (r : Fin 1024) (q : Fin 768) :
    Gen.k0_pay2 (F := Ideal) x w acc (ix2 r q) = acc (ix2 r q) + ∑ k : Fin 1664, x (ix2 r k) * w (ix2 q k) := by
  unfold Gen.k0_pay2
  refine (congrFun (shapeCast_self _ _) (ix2 r q)).trans ?_
  refine (addf_apply _ _ (ix2 r q)).trans ?_
  refine congrArg (acc (ix2 r q) + ·) ?_
  have e1 : shapeCast S1024x1664 x shapeCasts_S1024x1664_S1024x1664 = x := shapeCast_self _ _
  have e2 : shapeCast S768x1664 w shapeCasts_S768x1664_S768x1664 = w := shapeCast_self _ _
  show FloatOps.matmul dot_S1024x1664_S768x1664_S1024x768_1_1_0_0_n_n none (shapeCast S1024x1664 x shapeCasts_S1024x1664_S1024x1664)
      (shapeCast S768x1664 w shapeCasts_S768x1664_S768x1664) (constant S1024x768 .f32 0x00000000#32) (ix2 r q) = _
  rw [e1, e2]
  exact mm_apply x w r q

/-- The last value: the accumulator's entry plus the bias row's entry in that column. -/
theorem pay3_apply (acc : FVec Ideal S1024x768 .f32) (b : FVec Ideal S1x768 .f32) (r : Fin 1024) (q : Fin 768) :
    Gen.k0_pay3 (F := Ideal) acc b (ix2 r q) = acc (ix2 r q) + b (ix2 (0 : Fin 1) q) := by
  unfold Gen.k0_pay3
  refine (addf_apply _ _ (ix2 r q)).trans ?_
  refine congrArg (acc (ix2 r q) + ·) ?_
  refine (broadcastTo_1b_ab_apply _ broadcasts_S1x768_S1024x768 r q).trans ?_
  exact congrFun (shapeCast_self b shapeCasts_S1x768_S1x768) (ix2 (0 : Fin 1) q)

end Cert.KernelIdeal.Val

end
-- ==== Proof.Math.Spec.lean ====
/- The linear layer as one function of its three operand arrays, in the order in which the tiled
   computation forms it: the 11648 columns are cut into 7 consecutive blocks of 1664; the accumulator
   starts at zero, receives the block products one after the other, and the bias row is added last. -/
import Idealize.ShloMosaic.PureOps.Ideal
import Idealize.ShloMosaic.Lib.ValueIdx

noncomputable section

open scoped BigOperators

namespace Cert.Spec

open Idealize.ShloMosaic Idealize.ShloMosaic.ValueIdx

/-- Column `k * 1664 + q` of a row of 11648 entries (reduced modulo the row length, so that it is
    defined for every `k`; for `k < 7` nothing is reduced). -/
def col (k : ℕ) (q : Fin 1664) : Fin 11648 := ⟨(k * 1664 + q.val) % 11648, Nat.mod_lt _ (by decide)⟩

theorem col_val {k : ℕ} (hk : k < 7) (q : Fin 1664) : (col k q).val = k * 1664 + q.val := by
  have := q.isLt
  show (k * 1664 + q.val) % 11648 = _
  exact Nat.mod_eq_of_lt (by omega)

/-- The product of row `r` of `a` with row `t` of `w` over column block `k`. -/
def blockDot (a : (⟨2, ![1024, 11648]⟩ : Shape).Idx → EReal) (w : (⟨2, ![10752, 11648]⟩ : Shape).Idx → EReal)
    (r : Fin 1024) (t : Fin 10752) (k : ℕ) : EReal :=
  ∑ q : Fin 1664, a (ix2 r (col k q)) * w (ix2 t (col k q))

/-- A sum formed the way an accumulator forms it: zero plus the first term, then one term per step. -/
def runSum (S : ℕ → EReal) : ℕ → EReal
  | 0 => 0 + S 0
  | n + 1 => runSum S n + S (n + 1)

/-- The padded logits: the accumulator after the seventh block, plus the bias. -/
def kLogit (a : (⟨2, ![1024, 11648]⟩ : Shape).Idx → EReal) (w : (⟨2, ![10752, 11648]⟩ : Shape).Idx → EReal)
    (b : (⟨2, ![1, 10752]⟩ : Shape).Idx → EReal) : (⟨2, ![1024, 10752]⟩ : Shape).Idx → EReal :=
  fun i => runSum (blockDot a w (i 0) (i 1)) 6 + b (ix2 (0 : Fin 1) (i 1))

end Cert.Spec

end
-- ==== Proof.KI.AccMath.lean ====
/- The arithmetic of one reduction step of the tiled linear layer, free of the program's run.
   Column block j of the output takes rows j * 768 ... j * 768 + 767 of the padded weight; reduction step k takes columns
   k * 1664 ... k * 1664 + 1663 of both operands. Given that the loaded slice of the input is those columns of the input
   and that the loaded weight block is those rows and columns of the weight, the updated accumulator entry (r, q) is the
   old entry plus the block product of row r of the input with row j * 768 + q of the weight over column block k; a
   zeroed accumulator followed by steps 0 ... k holds the running sum of the block products. -/
import proofs.«424952_j75608604279323_3_alg».proof.Proof.KI.PayIdx
import proofs.«424952_j75608604279323_3_alg».proof.Proof.Math.Spec

noncomputable section

open scoped BigOperators

namespace Cert.KernelIdeal.Val

open Idealize.ShloMosaic Idealize.ShloMosaic.ValueIdx Cert.KernelIdeal Cert.KernelIdeal.Gen Cert.Spec

/-- Row `j * 768 + q` of the padded weight: the layer's output column `q` of column block `j` (reduced modulo the number
    of rows, so that it is defined for every `j`; for `j < 14` nothing is reduced). -/
def orow (j : ℕ) (q : Fin 768) : Fin 10752 := ⟨(j * 768 + q.val) % 10752, Nat.mod_lt _ (by decide)⟩

theorem orow_val {j : ℕ} (hj : j < 14) (q : Fin 768) : (orow j q).val = j * 768 + q.val := by
  have := q.isLt
  show (j * 768 + q.val) % 10752 = _
  exact Nat.mod_eq_of_lt (by omega)

/-- One update at entry (r, q): the old entry plus the block product over column block `k`, when row `r` of the loaded
    slice is columns `k * 1664 ...` of row `r` of the input and row `q` of the loaded weight block is those columns of
    row `t` of the weight. -/
theorem pay2_blockDot (A : FVec Ideal S1024x11648 .bf16) (W : FVec Ideal S10752x11648 .bf16)
    (x : FVec Ideal S1024x1664 .bf16) (w : FVec Ideal S768x1664 .bf16) (acc : FVec Ideal S1024x768 .f32)
    (k : ℕ) (r : Fin 1024) (q : Fin 768) (t : Fin 10752)
    (hx : ∀ p : Fin 1664, x (ix2 r p) = A (ix2 r (col k p)))
    (hw : ∀ p : Fin 1664, w (ix2 q p) = W (ix2 t (col k p))) :
    Gen.k0_pay2 (F := Ideal) x w acc (ix2 r q) = acc (ix2 r q) + blockDot A W r t k := by
  refine (pay2_apply x w acc r q).trans ?_
  unfold blockDot
  exact congrArg (acc (ix2 r q) + ·) (Finset.sum_congr rfl fun p _ => by rw [hx p, hw p])

/-- The first step of a running sum: a zero entry plus the first term. -/
theorem runSum_first (S : ℕ → EReal) (z s : EReal) (hz : z = 0) (hs : s = S 0) : z + s = runSum S 0 := by
  subst hz hs; rfl

/-- A later step of a running sum: what the steps before left plus the next term. -/
theorem runSum_next (S : ℕ → EReal) (n : ℕ) (a s : EReal) (ha : a = runSum S n) (hs : s = S (n + 1)) :
    a + s = runSum S (n + 1) := by
  subst ha hs; rfl

end Cert.KernelIdeal.Val

end
-- ==== Proof.KI.Blocks.lean ====
/- The blocks the three input windows of the tiled linear layer stage, as entries of the operand arrays. The grid
   has 14 x 7 points; point t has coordinates (t / 7, t % 7): output column block t / 7, reduction step t % 7.
   Window 0 stages the whole input at every point; window 1 stages rows (t / 7) * 768 ... and columns (t % 7) * 1664 ...
   of the padded weight; window 2 stages columns (t / 7) * 768 ... of the one-row bias. A block's coordinate on an axis
   is always (block index) * (block size) + (coordinate inside the block). -/
import proofs.«424952_j75608604279323_3_alg».proof.Proof.KI.Kit
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! ## The grid and the index maps, decided over the 98 points -/

/-- Point `t` has grid coordinates (t / 7, t % 7). -/
theorem coords_facts : ∀ t : Fin cfg0.N, (grid0.coords t 0).val = t.val / 7 ∧ (grid0.coords t 1).val = t.val % 7 :=
  (by decide +kernel : ∀ t : Fin grid0.N, (grid0.coords t 0).val = t.val / 7 ∧ (grid0.coords t 1).val = t.val % 7)

/-- The block index of each window at point `t`. -/
theorem idx_facts : ∀ t : Fin cfg0.N, win0_0.index t (0 : Fin 2) = 0 ∧ win0_0.index t (1 : Fin 2) = 0
    ∧ win0_1.index t (0 : Fin 2) = t.val / 7 ∧ win0_1.index t (1 : Fin 2) = t.val % 7
    ∧ win0_2.index t (0 : Fin 2) = 0 ∧ win0_2.index t (1 : Fin 2) = t.val / 7
    ∧ win0_3.index t (0 : Fin 2) = 0 ∧ win0_3.index t (1 : Fin 2) = t.val / 7 :=
  (by decide +kernel : ∀ t : Fin grid0.N, _)

section blocks

variable {F : FTy → Type} [FloatOps F]
variable (m : (ℓ : Loc nD τ sig) → Buf (Elt F) ℓ)

/-- The three operand arrays as the region finds them: the input, the padded weight, the padded bias row. -/
abbrev arrA (c : Dev nD) : Vec F S1024x11648 .bf16 := V m c main_v101
abbrev arrW (c : Dev nD) : Vec F S10752x11648 .bf16 := V m c main_v103
abbrev arrB (c : Dev nD) : Vec F S1x10752 .f32 := V m c main_v105
/-- The blocks the three input windows stage at point `t`. -/
abbrev xblk (c : Dev nD) (t : Fin cfg0.N) : Vec F S1024x11648 .bf16 := iblk m c 0 t
abbrev wblk (c : Dev nD) (t : Fin cfg0.N) : Vec F S768x1664 .bf16 := iblk m c 1 t
abbrev bblk (c : Dev nD) (t : Fin cfg0.N) : Vec F S1x768 .f32 := iblk m c 2 t

/-- Window 0's block is the whole input. -/
theorem xblk_apply (c : Dev nD) (t : Fin cfg0.N) (y : S1024x11648.Idx) : xblk m c t y = arrA m c y := by
  obtain ⟨e0, e1, -⟩ := idx_facts t
  unfold xblk iblk
  rw [View.read_apply]
  show V m c main_v101 _ = V m c main_v101 _
  congr 1
  funext a
  apply Fin.ext
  match a with
  | ⟨0, _⟩ => show win0_0.index t (0 : Fin 2) * 1024 + 1 * (y 0).val = (y 0).val; rw [e0]; omega
  | ⟨1, _⟩ => show win0_0.index t (1 : Fin 2) * 11648 + 1 * (y 1).val = (y 1).val; rw [e1]; omega

/-- Window 1's block at point `t`: rows (t / 7) * 768 ... and columns (t % 7) * 1664 ... of the padded weight. -/
theorem wblk_apply (c : Dev nD) (t : Fin cfg0.N) (q : Fin 768) (p : Fin 1664) (k : S10752x11648.Idx)
    (hk0 : (k 0).val = t.val / 7 * 768 + q.val) (hk1 : (k 1).val = t.val % 7 * 1664 + p.val) :
    wblk m c t (ix2 q p) = arrW m c k := by
  obtain ⟨-, -, e0, e1, -⟩ := idx_facts t
  unfold wblk iblk
  rw [View.read_apply]
  show V m c main_v103 _ = V m c main_v103 _
  congr 1
  funext a
  apply Fin.ext
  match a with
  | ⟨0, _⟩ => show win0_1.index t (0 : Fin 2) * 768 + 1 * q.val = (k 0).val; rw [e0, hk0]; omega
  | ⟨1, _⟩ => show win0_1.index t (1 : Fin 2) * 1664 + 1 * p.val = (k 1).val; rw [e1, hk1]; omega

/-- Window 2's block at point `t`: columns (t / 7) * 768 ... of the bias row. -/
theorem bblk_apply (c : Dev nD) (t : Fin cfg0.N) (q : Fin 768) (k : S1x10752.Idx)
    (hk0 : (k 0).val = 0) (hk1 : (k 1).val = t.val / 7 * 768 + q.val) :
    bblk m c t (ix2 (0 : Fin 1) q) = arrB m c k := by
  obtain ⟨-, -, -, -, e0, e1, -⟩ := idx_facts t
  unfold bblk iblk
  rw [View.read_apply]
  show V m c main_v105 _ = V m c main_v105 _
  congr 1
  funext a
  apply Fin.ext
  match a with
  | ⟨0, _⟩ => show win0_2.index t (0 : Fin 2) * 1 + 1 * (0 : Fin 1).val = (k 0).val; rw [e0, hk0]; rfl
  | ⟨1, _⟩ => show win0_2.index t (1 : Fin 2) * 768 + 1 * q.val = (k 1).val; rw [e1, hk1]; omega

end blocks

end Cert.KernelIdeal.Val

end
-- ==== Proof.KI.Accum.lean ====
/- The accumulator of the tiled linear layer, point by point. Point t of the 14 x 7 grid works on output column block
   t / 7 at reduction step t % 7. The body's own slice of the staged input takes columns (t % 7) * 1664 ... of it, and the
   staged weight block is rows (t / 7) * 768 ... and those same columns of the padded weight. Hence, by induction on the
   point inside a column block, the accumulator's entry (r, q) after point t is the running sum, over the reduction
   steps 0 ... t % 7, of the block products of row r of the input with row (t / 7) * 768 + q of the weight; and at the
   last step of a column block the output block's buffer ends at the complete running sum plus the bias entry. -/
import proofs.«424952_j75608604279323_3_alg».proof.Proof.KI.Pieces
import proofs.«424952_j75608604279323_3_alg».proof.Proof.KI.AccMath
import proofs.«424952_j75608604279323_3_alg».proof.Proof.KI.Blocks

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

section slice

variable {F : FTy → Type} [FloatOps F]
variable (m : (ℓ : Loc nD τ sig) → Buf (Elt F) ℓ)

/-- The body's slice of window 0's block at point `t`, at (r, p): the input at row r, column (t % 7) * 1664 + p. -/
theorem slice_apply (c : Dev nD) (t : Fin cfg0.N) (r : Fin 1024) (p : Fin 1664) (y : S1024x11648.Idx)
    (hy0 : (y 0).val = r.val) (hy1 : (y 1).val = t.val % 7 * 1664 + p.val) :
    xslice (grid0.coords t) (xblk m c t) (ix2 r p) = arrA m c y := by
  have hc := (coords_facts t).2
  have e0 : k0_off1 (grid0.coords t) (0 : Fin 2) = 0 := by rw [k0_off1_eq]; rfl
  have e1 : k0_off1 (grid0.coords t) (1 : Fin 2) = 1664 * (grid0.coords t 1).val := by rw [k0_off1_eq]; rfl
  refine (xblk_apply m c t _).trans (congrArg (arrA m c) (funext fun a => Fin.ext ?_))
  match a with
  | ⟨0, _⟩ => show k0_off1 (grid0.coords t) (0 : Fin 2) + 1 * r.val = (y 0).val; rw [e0, hy0]; omega
  | ⟨1, _⟩ => show k0_off1 (grid0.coords t) (1 : Fin 2) + 1 * p.val = (y 1).val; rw [e1, hy1, hc]; omega

end slice

/-! ## The accumulator after each point, at the extended reals -/

variable (m : (ℓ : Loc nD τ sig) → Buf (Elt Ideal) ℓ)

/-- The slice's row r is columns (t % 7) * 1664 ... of row r of the input. -/
theorem slice_col (c : Dev nD) (t : Fin cfg0.N) (r : Fin 1024) (p : Fin 1664) :
    xslice (grid0.coords t) (xblk m c t) (ix2 r p) = arrA m c (ix2 r (col (t.val % 7) p)) :=
  slice_apply m c t r p _ rfl (col_val (Nat.mod_lt _ (by decide)) p)

/-- The weight block's row q is those columns of row (t / 7) * 768 + q of the weight. -/
theorem wblk_col (c : Dev nD) (t : Fin cfg0.N) (q : Fin 768) (p : Fin 1664) :
    wblk m c t (ix2 q p) = arrW m c (ix2 (orow (t.val / 7) q) (col (t.val % 7) p)) := by
  have hN : t.val < 98 := lt_of_lt_of_eq t.isLt (show cfg0.N = 98 from N_0)
  exact wblk_apply m c t q p _ (orow_val (by omega) q) (col_val (Nat.mod_lt _ (by decide)) p)

/-- The bias block's entry q is entry (t / 7) * 768 + q of the bias row. -/
theorem bblk_col (c : Dev nD) (t : Fin cfg0.N) (q : Fin 768) :
    bblk m c t (ix2 (0 : Fin 1) q) = arrB m c (ix2 (0 : Fin 1) (orow (t.val / 7) q)) := by
  have hN : t.val < 98 := lt_of_lt_of_eq t.isLt (show cfg0.N = 98 from N_0)
  exact bblk_apply m c t q _ rfl (orow_val (by omega) q)

/-- After a first reduction step the accumulator holds the first term of the running sum. -/
theorem acc_first (c : Dev nD) (t : Fin cfg0.N) (h0 : t.val % 7 = 0) (r : Fin 1024) (q : Fin 768) :
    (outsAt0 m c t.val t.isLt).2 (ix2 r q)
      = runSum (blockDot (arrA m c) (arrW m c) r (orow (t.val / 7) q)) (t.val % 7) := by
  have h1 : ¬t.val % 7 = 6 := by omega
  rw [outsAt0_A m c t h0 h1]
  dsimp only
  refine (congrFun (soutA_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)) (ix2 r q)).trans ?_
  refine (pay2_blockDot (arrA m c) (arrW m c) (xslice (grid0.coords t) (xblk m c t)) (wblk m c t) (k0_pay1 (F := Ideal)) (t.val % 7) r q (orow (t.val / 7) q) (fun p => slice_col m c t r p) (fun p => wblk_col m c t q p)).trans ?_
  rw [h0]
  exact runSum_first _ _ _ (pay1_apply r q) rfl

/-- After a later reduction step it holds what the step before left plus this step's term. -/
theorem acc_later (c : Dev nD) (t : Fin cfg0.N) (h0 : ¬t.val % 7 = 0) (r : Fin 1024) (q : Fin 768)
    (ih : (outsAt0 m c (t.val - 1) (Nat.lt_of_le_of_lt (Nat.sub_le _ _) t.isLt)).2 (ix2 r q)
      = runSum (blockDot (arrA m c) (arrW m c) r (orow ((t.val - 1) / 7) q)) ((t.val - 1) % 7)) :
    (outsAt0 m c t.val t.isLt).2 (ix2 r q)
      = runSum (blockDot (arrA m c) (arrW m c) r (orow (t.val / 7) q)) (t.val % 7) := by
  have e7 : t.val % 7 = (t.val - 1) % 7 + 1 := by omega
  have ed : (t.val - 1) / 7 = t.val / 7 := by omega
  rw [ed] at ih
  by_cases h1 : t.val % 7 = 6
  · rw [outsAt0_C m c t h0 h1]
    dsimp only
    refine (congrFun (soutC_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 r q)).trans ?_
    refine (pay2_blockDot (arrA m c) (arrW m c) (xslice (grid0.coords t) (xblk m c t)) (wblk m c t) (outsAt0 m c (t.val - 1) (Nat.lt_of_le_of_lt (Nat.sub_le _ _) t.isLt)).2 (t.val % 7) r q (orow (t.val / 7) q) (fun p => slice_col m c t r p) (fun p => wblk_col m c t q p)).trans ?_
    rw [e7]
    exact runSum_next _ _ _ _ ih rfl
  · rw [outsAt0_B m c t h0 h1]
    dsimp only
    refine (congrFun (soutB_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2) (ix2 r q)).trans ?_
    refine (pay2_blockDot (arrA m c) (arrW m c) (xslice (grid0.coords t) (xblk m c t)) (wblk m c t) (outsAt0 m c (t.val - 1) (Nat.lt_of_le_of_lt (Nat.sub_le _ _) t.isLt)).2 (t.val % 7) r q (orow (t.val / 7) q) (fun p => slice_col m c t r p) (fun p => wblk_col m c t q p)).trans ?_
    rw [e7]
    exact runSum_next _ _ _ _ ih rfl

/-- THE INVARIANT: after point n the accumulator's entry (r, q) is the running sum, over the reduction steps 0 ... n % 7,
    of the block products of row r of the input with row (n / 7) * 768 + q of the weight. -/
theorem acc_inv (c : Dev nD) : ∀ (n : ℕ) (hn : n < cfg0.N) (r : Fin 1024) (q : Fin 768),
    (outsAt0 m c n hn).2 (ix2 r q) = runSum (blockDot (arrA m c) (arrW m c) r (orow (n / 7) q)) (n % 7)
  | 0, hn, r, q => acc_first m c ⟨0, hn⟩ (Nat.zero_mod 7) r q
  | n + 1, hn, r, q => by
    by_cases h0 : (n + 1) % 7 = 0
    · exact acc_first m c ⟨n + 1, hn⟩ h0 r q
    · exact acc_later m c ⟨n + 1, hn⟩ h0 r q (acc_inv c n (Nat.lt_of_succ_lt hn) r q)

/-- At a last reduction step the output block's buffer ends at the complete running sum plus the bias entry. -/
theorem out_last (c : Dev nD) (t : Fin cfg0.N) (h1 : t.val % 7 = 6) (r : Fin 1024) (q : Fin 768) :
    (outsAt0 m c t.val t.isLt).1 (ix2 r q)
      = runSum (blockDot (arrA m c) (arrW m c) r (orow (t.val / 7) q)) 6
        + arrB m c (ix2 (0 : Fin 1) (orow (t.val / 7) q)) := by
  have h0 : ¬t.val % 7 = 0 := by omega
  have hacc := acc_inv m c t.val t.isLt r q
  rw [h1] at hacc
  have hs : (outsAt0 m c t.val t.isLt).2
      = k0_pay2 (xslice (grid0.coords t) (xblk m c t)) (wblk m c t) (outsAt0 m c (t.val - 1) (Nat.lt_of_le_of_lt (Nat.sub_le _ _) t.isLt)).2 := by
    rw [outsAt0_C m c t h0 h1]
    dsimp only
    exact soutC_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2
  rw [outsAt0_C m c t h0 h1]
  dsimp only
  refine (congrFun (outC_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 r q)).trans ?_
  refine (pay3_apply (k0_pay2 (xslice (grid0.coords t) (xblk m c t)) (wblk m c t) (outsAt0 m c (t.val - 1) (Nat.lt_of_le_of_lt (Nat.sub_le _ _) t.isLt)).2) (bblk m c t) r q).trans ?_
  rw [← hs, hacc, bblk_col m c t q]

end Cert.KernelIdeal.Val

end
-- ==== Proof.KI.Final.lean ====
/- The padded logits array after the region. The output window's block (0, j) is written back once, at the last
   reduction step of column block j (point 7 j + 6), when the output block's buffer holds the complete running sum plus
   the bias entry: so what is written back is block (0, j) of the one function of the three operand arrays that the
   specification names, and the fourteen blocks cover the 1024 x 10752 array. -/
import proofs.«424952_j75608604279323_3_alg».proof.Proof.KI.Accum
import Idealize.ShloMosaic.Lib.Pipeline.Value

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The padded logits as one function of the three operand arrays the region finds. -/
abbrev logits (c : Dev nD) : Vec Ideal S1024x10752 .f32 := kLogit (arrA m c) (arrW m c) (arrB m c)

/-- Entry (r, q) of the output window's block at point `t` is entry (r, (t / 7) * 768 + q) of the array. -/
theorem oblk_emb (t : Fin cfg0.N) (r : Fin 1024) (q : Fin 768) :
    ((cfg0.win 3).blk t).view.emb (ix2 r q) = (ix2 r (orow (t.val / 7) q) : S1024x10752.Idx) := by
  have hN : t.val < 98 := lt_of_lt_of_eq t.isLt (show cfg0.N = 98 from N_0)
  obtain ⟨-, -, -, -, -, -, e0, e1⟩ := idx_facts t
  funext a
  apply Fin.ext
  match a with
  | ⟨0, _⟩ => show win0_3.index t (0 : Fin 2) * 1024 + 1 * r.val = r.val; rw [e0]; omega
  | ⟨1, _⟩ => show win0_3.index t (1 : Fin 2) * 768 + 1 * q.val = (orow (t.val / 7) q).val; rw [e1, orow_val (by omega)]; omega

/-- WHAT A WRITING POINT WRITES BACK is its block of the padded logits. -/
theorem flushed_eq (c : Dev nD) (t : Fin cfg0.N) (hf : (cfg0.win 3).flush t = true) :
    (dats m 0 c).flushed 3 t = ((cfg0.win 3).blk t).view.read (Elt Ideal) (logits m c) := by
  have h1 : t.val % 7 = 6 := (flush0_3 t).mp hf
  show (cfg0.win 3).cut (grid0.coords t) ((dats m 0 c).after 3 t) = _
  rw [after0_3]
  refine funext fun (j : S1024x768.Idx) => ?_
  obtain ⟨r, q, rfl⟩ : ∃ (r : Fin 1024) (q : Fin 768), j = ix2 r q := ⟨j 0, j 1, eq_ix2 j⟩
  show (outsAt0 m c t.val t.isLt).1 (ix2 r q) = logits m c (((cfg0.win 3).blk t).view.emb (ix2 r q))
  rw [oblk_emb t r q]
  exact out_last m c t h1 r q

/-- An index of the array is in point `t`'s block iff each coordinate is in the block's range on its axis. -/
theorem mem_blk3 (t : Fin cfg0.N) (i : S1024x10752.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v106).slice (win0_3.rect t)).set ↔ _
  rw [View.set_slice_whole, Rect.mem_set_unit]
  exact Iff.rfl

/-- Every index of the array is in the block some writing point writes back: column c is in column block c / 768, which
    is written back at point 7 (c / 768) + 6. -/
theorem cover3 (i : S1024x10752.Idx) :
    ∃ t : Fin cfg0.N, (cfg0.win 3).flush t = true ∧ i ∈ ((cfg0.win 3).blk t).view.set := by
  have h0 : (i 0).val < 1024 := (i 0).isLt
  have h1 : (i 1).val < 10752 := (i 1).isLt
  have hN : cfg0.N = 98 := N_0
  have hlt : (i 1).val / 768 * 7 + 6 < cfg0.N := by rw [hN]; omega
  obtain ⟨-, -, -, -, -, -, e0, e1⟩ := idx_facts ⟨(i 1).val / 768 * 7 + 6, hlt⟩
  refine ⟨⟨(i 1).val / 768 * 7 + 6, hlt⟩, (flush0_3 _).mpr (by show ((i 1).val / 768 * 7 + 6) % 7 = 6; omega), ?_⟩
  rw [mem_blk3]
  intro a
  match a with
  | ⟨0, _⟩ =>
    show win0_3.index ⟨(i 1).val / 768 * 7 + 6, hlt⟩ (0 : Fin 2) * 1024 ≤ (i 0).val ∧ (i 0).val < win0_3.index ⟨(i 1).val / 768 * 7 + 6, hlt⟩ (0 : Fin 2) * 1024 + 1024
    rw [e0]; omega
  | ⟨1, _⟩ =>
    show win0_3.index ⟨(i 1).val / 768 * 7 + 6, hlt⟩ (1 : Fin 2) * 768 ≤ (i 1).val ∧ (i 1).val < win0_3.index ⟨(i 1).val / 768 * 7 + 6, hlt⟩ (1 : Fin 2) * 768 + 768
    rw [e1]
    show ((i 1).val / 768 * 7 + 6) / 7 * 768 ≤ (i 1).val ∧ (i 1).val < ((i 1).val / 768 * 7 + 6) / 7 * 768 + 768
    omega

/-- THE PADDED LOGITS ARRAY after the region: the specification's function of the three operand arrays. -/
theorem final3 (c : Dev nD) :
    (Fr.dats (F := Ideal) m 0 c).arrAt 3 cfg0.N
      = Cert.Spec.kLogit (Fr.V m c main_v101) (Fr.V m c main_v103) (Fr.V m c main_v105) :=
  (dats m 0 c).arrAt_eq_of_cover 3 (logits m c) (flushed_eq m c) (fun i => cover3 i)

end Cert.KernelIdeal.Val

end
-- ==== Proof.KI.Tail.lean ====
/- The host lines after the region: the padded columns are cut off the region's output, one entry
   per (row, neighbour) is taken along the class axis at the neighbour's wrapped index (an index
   outside the axis reads as the quiet NaN), the logistic function gives the distribution, and the
   loss is the mean over all 1024 x 30 entries of  max(x, 0) - x * label + log1p(exp(-|x|)). -/
import proofs.«424952_j75608604279323_3_alg».proof.Proof.KI.Kit

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]

/-- The neighbour index wrapped into the class axis (a negative index counts from the end, 10331 is
    added to it), as a column of one-entry index vectors. -/
def tailIdx (a1 : (⟨S1024x30, .i32⟩ : BufTy).Contents (Elt F)) : (⟨S1024x30x1, .i32⟩ : BufTy).Contents (Elt F) :=
  shapeCast S1024x30x1
    (select (cmpi .slt a1 (broadcastInDim S1024x30 ![] bcast_S_S1024x30 (constantI S_ 32 0#32)))
      (addi a1 (broadcastInDim S1024x30 ![] bcast_S_S1024x30 (constantI S_ 32 10331#32))) a1)
    shapeCasts_S1024x30_S1024x30x1

/-- The logits at the neighbours: the first 10331 columns of the region's output, taken along the
    class axis at the wrapped neighbour index; where that index is not in [0, 10330] the entry is
    the quiet NaN. -/
def tailLN (L : (⟨S1024x10752, .f32⟩ : BufTy).Contents (Elt F)) (a1 : (⟨S1024x30, .i32⟩ : BufTy).Contents (Elt F)) : (⟨S1024x30, .f32⟩ : BufTy).Contents (Elt F) :=
  select
    (Host.reduce IntOp.andi
      (andi
        (cmpi .sge (tailIdx (F := F) a1) (broadcastInDim S1024x30x1 ![] bcast_S_S1024x30x1 (constantI S_ 32 0#32)))
        (cmpi .sle (tailIdx (F := F) a1)
          (broadcastInDim S1024x30x1 ![0, 1, 2] bcast_S1x1x1_S1024x30x1_0_1_2
            (broadcastInDim S1x1x1 ![2] bcast_S1_S1x1x1_2 (constantI S1 32 10330#32)))))
      (constantI S_ 1 1#1) reducesTo_S1024x30x1_S1024x30_d2 h_S_)
    (Host.gather gather_S1024x10331_S1024x30x1_S1024x30_n_1_0_0_1_2_11
      (extractStridedSlice S1024x10331 ![0, 0] L slices_S1024x10752_S1024x10331_0_0) (tailIdx (F := F) a1))
    (broadcastInDim S1024x30 ![] bcast_S_S1024x30 (constant (F := F) S_ .f32 0x7FC00000#32))

/-- The logistic function, entry by entry: 1 / (1 + exp (-x)). -/
def tailSig (x : (⟨S1024x30, .f32⟩ : BufTy).Contents (Elt F)) : (⟨S1024x30, .f32⟩ : BufTy).Contents (Elt F) :=
  Host.divf (F := F) (broadcastInDim S1024x30 ![] bcast_S_S1024x30 (constant (F := F) S_ .f32 0x3F800000#32))
    (addf (F := F) (broadcastInDim S1024x30 ![] bcast_S_S1024x30 (constant (F := F) S_ .f32 0x3F800000#32))
      (Host.exp (F := F) (Host.negf (F := F) x)))

/-- The loss: the sum over all entries of  max(x, 0) - x * label + log1p(exp(-|x|)), divided by 30720. -/
def tailLoss (x : (⟨S1024x30, .f32⟩ : BufTy).Contents (Elt F)) (a3 : (⟨S1024x30, .f32⟩ : BufTy).Contents (Elt F)) : (⟨S_, .f32⟩ : BufTy).Contents (Elt F) :=
  Host.divf (F := F)
    (Host.reduceAdd (F := F)
      (addf (F := F)
        (subf (F := F)
          (maximumf (F := F) x (broadcastInDim S1024x30 ![] bcast_S_S1024x30 (constant (F := F) S_ .f32 0x00000000#32)))
          (mulf (F := F) x a3))
        (Host.log1p (F := F) (Host.exp (F := F) (Host.negf (F := F) (Host.absf (F := F) x)))))
      (constant (F := F) S_ .f32 0x00000000#32) reducesTo_S1024x30_S_d0_1 h_S_)
    (constant (F := F) S_ .f32 0x46F00000#32)

set_option maxHeartbeats 4000000 in
/-- The lines after the region, from any contents: the logits at the neighbours are a function of the
    region's output array and the neighbour indices. -/
theorem after_post_v108 (W : Valuation τ sig (Elt F)) :
    StableHlo.after (List.flatten (Fr.postOps (F := F))) W (Proc.devRef .tc main_v108)
      = tailLN (W (Proc.devRef .tc main_v106)) (W (Proc.devRef .tc main_arg1)) := by
  simp only [Fr.postOps, hostOps1, hostOps1_1, hostOps1_2, List.flatten_cons, List.flatten_nil, List.append_nil,
    List.cons_append, List.nil_append]
  after_results_simp
  simp only [TRef.ofBuf, TRef.toBuf, cast_eq]
  unfold tailLN tailIdx
  rfl

set_option maxHeartbeats 4000000 in
/-- The same for the distribution: the logistic function of those logits. -/
theorem after_post_v114 (W : Valuation τ sig (Elt F)) :
    StableHlo.after (List.flatten (Fr.postOps (F := F))) W (Proc.devRef .tc main_v114)
      = tailSig (tailLN (W (Proc.devRef .tc main_v106)) (W (Proc.devRef .tc main_arg1))) := by
  simp only [Fr.postOps, hostOps1, hostOps1_1, hostOps1_2, List.flatten_cons, List.flatten_nil, List.append_nil,
    List.cons_append, List.nil_append]
  after_results_simp
  simp only [TRef.ofBuf, TRef.toBuf, cast_eq]
  unfold tailSig tailLN tailIdx
  rfl

set_option maxHeartbeats 4000000 in
/-- The same for the loss, which also reads the labels. -/
theorem after_post_v125 (W : Valuation τ sig (Elt F)) :
    StableHlo.after (List.flatten (Fr.postOps (F := F))) W (Proc.devRef .tc main_v125)
      = tailLoss (tailLN (W (Proc.devRef .tc main_v106)) (W (Proc.devRef .tc main_arg1))) (W (Proc.devRef .tc main_arg3)) := by
  simp only [Fr.postOps, hostOps1, hostOps1_1, hostOps1_2, List.flatten_cons, List.flatten_nil, List.append_nil,
    List.cons_append, List.nil_append]
  after_results_simp
  simp only [TRef.ofBuf, TRef.toBuf, cast_eq]
  unfold tailLoss tailLN tailIdx
  rfl

variable (m : (ℓ : Loc nD τ sig) → Buf (Elt F) ℓ)

/-- After the region the output array holds what the region left in it. -/
theorem tail_out (dats : (p : Fin 1) → (c : Dev nD) → Dat τ (Elt F) Unit ℕ (UR sig nD τ) ℕ (cfgs p) c) (c : Dev nD) :
    Pipeline.withArrays (cfgs 0).spec c (Fr.V0 m c) (fun w => (dats 0 c).arrAt w (cfgs 0).N) (Proc.devRef .tc main_v106)
      = (dats 0 c).arrAt 3 cfg0.N :=
  Pipeline.withArrays_arr spec0 launch0.win.arr_inj c _ _ 3

/-- The neighbour indices are no array of the region and no host line before it writes them. -/
theorem tail_arg1 (dats : (p : Fin 1) → (c : Dev nD) → Dat τ (Elt F) Unit ℕ (UR sig nD τ) ℕ (cfgs p) c) (c : Dev nD) :
    Pipeline.withArrays (cfgs 0).spec c (Fr.V0 m c) (fun w => (dats 0 c).arrAt w (cfgs 0).N) (Proc.devRef .tc main_arg1)
      = m ((c : Thread nD τ).loc main_arg1) :=
  (Pipeline.withArrays_of_ne _ c (Fr.V0 m c) _ main_arg1 (by exact (by decide : ∀ w, Pipeline.arrRef spec0 w ≠ main_arg1))).trans
    (Fr.V_main_arg1 m c)

/-- Nor the labels. -/
theorem tail_arg3 (dats : (p : Fin 1) → (c : Dev nD) → Dat τ (Elt F) Unit ℕ (UR sig nD τ) ℕ (cfgs p) c) (c : Dev nD) :
    Pipeline.withArrays (cfgs 0).spec c (Fr.V0 m c) (fun w => (dats 0 c).arrAt w (cfgs 0).N) (Proc.devRef .tc main_arg3)
      = m ((c : Thread nD τ).loc main_arg3) :=
  (Pipeline.withArrays_of_ne _ c (Fr.V0 m c) _ main_arg3 (by exact (by decide : ∀ w, Pipeline.arrRef spec0 w ≠ main_arg3))).trans
    (Fr.V_main_arg3 m c)

/-- The distribution the program returns: the logistic function of the logits at the neighbours, read
    off the array the region leaves. -/
theorem tail_v114 (dats : (p : Fin 1) → (c : Dev nD) → Dat τ (Elt F) Unit ℕ (UR sig nD τ) ℕ (cfgs p) c) (c : Dev nD) :
    Pipeline.afterTail₀ cfgs dats 0 (Fr.V0 m) Fr.postOps c main_v114
      = tailSig (tailLN ((dats 0 c).arrAt 3 cfg0.N) (m ((c : Thread nD τ).loc main_arg1))) := by
  unfold Pipeline.afterTail₀
  rw [after_post_v114, tail_out m dats c, tail_arg1 m dats c]

/-- The loss the program returns. -/
theorem tail_v125 (dats : (p : Fin 1) → (c : Dev nD) → Dat τ (Elt F) Unit ℕ (UR sig nD τ) ℕ (cfgs p) c) (c : Dev nD) :
    Pipeline.afterTail₀ cfgs dats 0 (Fr.V0 m) Fr.postOps c main_v125
      = tailLoss (tailLN ((dats 0 c).arrAt 3 cfg0.N) (m ((c : Thread nD τ).loc main_arg1))) (m ((c : Thread nD τ).loc main_arg3)) := by
  unfold Pipeline.afterTail₀
  rw [after_post_v125, tail_out m dats c, tail_arg1 m dats c, tail_arg3 m dats c]

end Cert.KernelIdeal.Host

end
-- ==== Proof.Bridge.Mask.lean ====
/-
  The word arithmetic of the index normalisation both programs share, and what it makes of the masks built on it.
  An index w that may be negative is normalised against an axis of extent n as `select (w < 0) (w + n) w`, compares signed.
  Under the precondition every neighbour index w has 0 ≤ w < 10331 as a signed value; then
    * w < 0 is false, so the normalisation leaves w alone;
    * (w ≥ 0) ∧ (w ≤ 10330) is true, so the "fill" mask of an indexed read along the last axis (the conjunction of those
      two bits, reduced by `and` over the unit index-vector axis) is all ones and the read is never replaced by the fill
      value;
    * a row number r < 1024 written as a word is non-negative, so the normalised row index of row r is r itself.
  The word facts are stated for one word; the vector facts read a printed vector operation at one index, for vectors of
  any shape whose constant operands are given by their value at every index.
-/
import Idealize.ShloMosaic.Lib.ReduceAll
import Idealize.ShloMosaic.Lib.ValueIdx
import Idealize.ShloMosaic.Lib.Pipeline.Value

namespace Cert.Bridge

open Idealize.ShloMosaic Idealize.ShloMosaic.ValueIdx

/-! ## One word -/

/-- A word whose signed value is in [0, 10331) reads the same unsigned, and is below 10331 there. -/
theorem toNat_of_range (w : BitVec 32) (h0 : 0 ≤ w.toInt) (h1 : w.toInt < 10331) :
    w.toNat < 10331 ∧ w.toInt = (w.toNat : Int) := by
  have h32 := w.isLt
  rw [BitVec.toInt_eq_toNat_cond] at h0 h1 ⊢
  split at h0 <;> rename_i hc
  · rw [if_pos hc] at h1 ⊢
    exact ⟨by omega, rfl⟩
  · rw [if_neg hc] at h1
    omega

/-- The signed value of the zero word, and of the two bounds. -/
theorem toInt_zero32 : (0#32 : BitVec 32).toInt = 0 := by decide
theorem toInt_10330 : (10330#32 : BitVec 32).toInt = 10330 := by decide
theorem toInt_10331 : (10331#32 : BitVec 32).toInt = 10331 := by decide

/-- A non-negative word is not below zero: the bit "w < 0" is 0. -/
theorem slt_zero_of_nonneg (w : BitVec 32) (h0 : 0 ≤ w.toInt) : IntOp.cmpi .slt w 0#32 = 0#1 := by
  unfold IntOp.cmpi
  simp only [BitVec.slt, toInt_zero32]
  rw [decide_eq_false (by omega)]
  rfl

/-- A non-negative word passes "w ≥ 0". -/
theorem sge_zero_of_nonneg (w : BitVec 32) (h0 : 0 ≤ w.toInt) : IntOp.cmpi .sge w 0#32 = 1#1 := by
  unfold IntOp.cmpi
  simp only [BitVec.sle, toInt_zero32]
  rw [decide_eq_true h0]
  rfl

/-- A word below 10331 passes "w ≤ 10330". -/
theorem sle_10330_of_lt (w : BitVec 32) (h1 : w.toInt < 10331) : IntOp.cmpi .sle w 10330#32 = 1#1 := by
  unfold IntOp.cmpi
  simp only [BitVec.sle, toInt_10330]
  rw [decide_eq_true (by omega)]
  rfl

/-- THE NORMALISATION IS THE IDENTITY on a non-negative word, whatever is added in the other branch. -/
theorem norm_word (w n : BitVec 32) (h0 : 0 ≤ w.toInt) :
    Scalar.select (IntOp.cmpi .slt w 0#32) (IntOp.addi w n) w = w := by
  rw [slt_zero_of_nonneg w h0]
  exact select_zero _ _

/-- THE IN-RANGE BIT of a word in [0, 10331): (w ≥ 0) ∧ (w ≤ 10330) is 1. -/
theorem inrange_word (w : BitVec 32) (h0 : 0 ≤ w.toInt) (h1 : w.toInt < 10331) :
    IntOp.andi (IntOp.cmpi .sge w 0#32) (IntOp.cmpi .sle w 10330#32) = 1#1 := by
  rw [sge_zero_of_nonneg w h0, sle_10330_of_lt w h1]
  decide

/-- A row number below 2³¹ written as a 32-bit word has that number as its signed value. -/
theorem toInt_ofNat_row (r : Nat) (hr : r < 2 ^ 31) : (BitVec.ofNat 32 r).toInt = (r : Int) := by
  have hm : (BitVec.ofNat 32 r).toNat = r := by
    rw [BitVec.toNat_ofNat]; exact Nat.mod_eq_of_lt (by omega)
  rw [BitVec.toInt_eq_toNat_cond, hm, if_pos (by omega)]

/-- THE NORMALISED ROW INDEX of row r is r: the word of a row number is non-negative. -/
theorem norm_row (r : Nat) (hr : r < 2 ^ 31) (n : BitVec 32) :
    Scalar.select (IntOp.cmpi .slt (BitVec.ofNat 32 r) 0#32) (IntOp.addi (BitVec.ofNat 32 r) n) (BitVec.ofNat 32 r)
      = BitVec.ofNat 32 r :=
  norm_word _ n (by rw [toInt_ofNat_row r hr]; omega)

/-! ## Vectors, read at an index -/

section Vec
variable {s t u : Shape} {axes : List (Fin s.rank)}

/-- The normalised index vector is the index vector: `select (x < 0) (x + n) x = x` when every entry of `x` is
    non-negative and `z` is the zero vector. -/
theorem norm_vec (x z n : IVec s 32) (hz : ∀ i, z i = 0#32) (hx : ∀ i, 0 ≤ (x i).toInt) :
    select (cmpi .slt x z) (addi x n) x = x := by
  funext i
  show Scalar.select (IntOp.cmpi .slt (x i) (z i)) (IntOp.addi (x i) (n i)) (x i) = x i
  rw [hz i]
  exact norm_word _ _ (hx i)

/-- A left fold of `and` over one-bit words that are all 1, from 1, is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_all_one f hf l

/-- A reduction by `and`, from 1, of an array of ones is 1 at every result index. -/
theorem reduce_andi_of_all_one (x : s.Idx → BitVec 1) (init : u.Idx → BitVec 1) (h : s.ReducesTo axes t) (hu : 0 < u.numel)
    (hi : init (Shape.Idx.first hu) = 1#1) (hx : ∀ i, x i = 1#1) (j : t.Idx) :
    Host.reduce IntOp.andi x init h hu j = 1#1 := by
  rw [Host.reduce_eq_foldl, hi]
  exact foldl_andi_all_one x hx _

/-- THE FILL MASK IS ALL ONES: the reduction by `and` of (x ≥ 0) ∧ (x ≤ 10330) over any axes, when every entry of `x`
    is in [0, 10331) (`z` the zero vector, `c` the vector of 10330s, `init` the constant 1). -/
theorem fill_mask_one (x z c : IVec s 32) (init : u.Idx → BitVec 1) (h : s.ReducesTo axes t) (hu : 0 < u.numel)
    (hz : ∀ i, z i = 0#32) (hc : ∀ i, c i = 10330#32) (hi : init (Shape.Idx.first hu) = 1#1)
    (hx : ∀ i, 0 ≤ (x i).toInt ∧ (x i).toInt < 10331) (j : t.Idx) :
    Host.reduce IntOp.andi (andi (cmpi .sge x z) (cmpi .sle x c)) init h hu j = 1#1 := by
  refine reduce_andi_of_all_one _ init h hu hi (fun i => ?_) j
  show IntOp.andi (IntOp.cmpi .sge (x i) (z i)) (IntOp.cmpi .sle (x i) (c i)) = 1#1
  rw [hz i, hc i]
  exact inrange_word _ (hx i).1 (hx i).2

/-- A select under a mask of ones is its first operand. -/
theorem select_all_one {α : Type} (m : IVec s 1) (a b : s.Idx → α) (hm : ∀ i, m i = 1#1) : select m a b = a := by
  funext i
  show Scalar.select (m i) (a i) (b i) = a i
  rw [hm i]
  exact select_one _ _

end Vec

/-! ## The [1024 × 30] index array as a [1024 × 30 × 1] column of start indices -/

/-- A reshape of a [1024 × 30] array to [1024 × 30 × 1] reads, at (r, k, 0), the array at (r, k). -/
theorem reshape_col_apply {α : Type} (v : (⟨2, ![1024, 30]⟩ : Shape).Idx → α)
    (h : (⟨2, ![1024, 30]⟩ : Shape).ShapeCasts ⟨3, ![1024, 30, 1]⟩) (r : Fin 1024) (k : Fin 30) (o : Fin 1) :
    shapeCast ⟨3, ![1024, 30, 1]⟩ v h (ix3 r k o) = v (ix2 r k) := by
  refine shapeCast_apply v h (ix3 r k o) (ix2 r k) ?_
  rw [Shape.rowMajor_val_two, Shape.rowMajor_val_three]
  have ho : o.val = 0 := by omega
  show r.val * 30 + k.val = (r.val * 30 + k.val) * 1 + o.val
  omega

end Cert.Bridge
-- ==== Proof.Bridge.Gathers.lean ====
/-
  The three indexed reads of the two programs, each read at one result index.
  A gather reads its operand at an operand index assembled, axis by axis, from a start index (a component of the index
  vector the start-indices array holds at the result's batch position, read signed and clamped so the slice fits), a
  batching coordinate (the result's own coordinate, on an operand batching axis) and an offset coordinate (zero on a
  collapsed axis). Here:
    * the reference reads logits[row, col] with a two-component index vector (row, col), both axes collapsed: the
      operand index is (clamp row, clamp col);
    * the kernel reads along the last axis with the first axis a batching axis: the operand index is (r, clamp col) at
      result row r;
    * both programs read the type-embedding table with one and the same record.
  When the column word is in [0, 10331) the clamp does nothing, and when the row word is the row number both reads are
  the operand at (r, col).
-/
import proofs.«424952_j75608604279323_3_alg».proof.KernelIdeal
import proofs.«424952_j75608604279323_3_alg».proof.ReferenceIdeal
import Idealize.ShloMosaic.Lib.ValueIdx

namespace Cert.Bridge

open Idealize.ShloMosaic Idealize.ShloMosaic.ValueIdx

/-- The clamp of a signed value in [0, 10331) into [0, 10330] is the word's unsigned value. -/
theorem clamp_col (c : BitVec 32) (h0 : 0 ≤ c.toInt) (h1 : c.toInt < 10331) :
    min c.toInt.toNat 10330 = c.toNat ∧ c.toNat < 10331 := by
  have h32 := c.isLt
  rw [BitVec.toInt_eq_toNat_cond] at h0 h1 ⊢
  split at h0 <;> rename_i hc
  · rw [if_pos hc] at h1 ⊢
    have : ((c.toNat : Int)).toNat = c.toNat := Int.toNat_natCast _
    rw [this]
    omega
  · rw [if_neg hc] at h1
    omega

/-- The clamp of the word of a row number r < 1024 into [0, 1023] is r. -/
theorem clamp_row (r : Fin 1024) : min (BitVec.ofNat 32 r.val).toInt.toNat 1023 = r.val := by
  have hr := r.isLt
  have hm : (BitVec.ofNat 32 r.val).toNat = r.val := by
    rw [BitVec.toNat_ofNat]; exact Nat.mod_eq_of_lt (by omega)
  rw [BitVec.toInt_eq_toNat_cond, hm, if_pos (by omega), Int.toNat_natCast]
  omega

/-! ## The kernel's read along the last axis -/

section Kernel
variable [Cert.KernelIdeal.Facts₀] {α : Type} {w : Nat}

/-- The kernel's read along the last axis at result (r, k): row r of the operand, at the column the start-indices array
    holds at (r, k, 0), read signed and clamped into [0, 10330]. -/
theorem gather_along_apply (x : Cert.KernelIdeal.S1024x10331.Idx → α) (i1 : IVec Cert.KernelIdeal.S1024x30x1 w)
    (r : Fin 1024) (k : Fin 30) :
    Host.gather Cert.KernelIdeal.gather_S1024x10331_S1024x30x1_S1024x30_n_1_0_0_1_2_11 x i1 (ix2 r k)
      = x (ix2 r ⟨min (i1 (ix3 r k 0)).toInt.toNat 10330, by omega⟩) := by
  unfold Host.gather
  refine congrArg x (funext fun a => Fin.ext ?_)
  match a with
  | ⟨0, _⟩ =>
    show Cert.KernelIdeal.gather_S1024x10331_S1024x30x1_S1024x30_n_1_0_0_1_2_11.start (ix2 r k) i1 0
        + Cert.KernelIdeal.gather_S1024x10331_S1024x30x1_S1024x30_n_1_0_0_1_2_11.batchCoord (ix2 r k) 0
        + Cert.KernelIdeal.gather_S1024x10331_S1024x30x1_S1024x30_n_1_0_0_1_2_11.offCoord (ix2 r k) 0 = r.val
    have hb : (0 : Fin 2) ∈ Cert.KernelIdeal.gather_S1024x10331_S1024x30x1_S1024x30_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show Cert.KernelIdeal.gather_S1024x10331_S1024x30x1_S1024x30_n_1_0_0_1_2_11.start (ix2 r k) i1 1
        + Cert.KernelIdeal.gather_S1024x10331_S1024x30x1_S1024x30_n_1_0_0_1_2_11.batchCoord (ix2 r k) 1
        + Cert.KernelIdeal.gather_S1024x10331_S1024x30x1_S1024x30_n_1_0_0_1_2_11.offCoord (ix2 r k) 1
        = min (i1 (ix3 r k 0)).toInt.toNat 10330
    have hnb : (1 : Fin 2) ∉ Cert.KernelIdeal.gather_S1024x10331_S1024x30x1_S1024x30_n_1_0_0_1_2_11.operandBatchingDims :=
      fun h => absurd (List.mem_singleton.mp h) (by decide)
    have hc : (1 : Fin 2) ∈ Cert.KernelIdeal.gather_S1024x10331_S1024x30x1_S1024x30_n_1_0_0_1_2_11.collapsedSliceDims :=
      List.mem_singleton.mpr rfl
    have hm : (1 : Fin 2) ∈ Cert.KernelIdeal.gather_S1024x10331_S1024x30x1_S1024x30_n_1_0_0_1_2_11.startIndexMap :=
      List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : Cert.KernelIdeal.gather_S1024x10331_S1024x30x1_S1024x30_n_1_0_0_1_2_11.siIdx (ix2 r k)
        ⟨List.idxOf (1 : Fin 2) Cert.KernelIdeal.gather_S1024x10331_S1024x30x1_S1024x30_n_1_0_0_1_2_11.startIndexMap,
          List.idxOf_lt_length_iff.2 hm⟩ = ix3 r k 0 := by
      funext b; refine Fin.ext ?_
      match b with
      | ⟨0, _⟩ => rfl
      | ⟨1, _⟩ => rfl
      | ⟨2, _⟩ => rfl
    rw [hsi]
    rfl

/-- In range, the clamp does nothing: when the start index at (r, k, 0) is the word c with 0 ≤ c < 10331 (signed), the
    kernel's read at (r, k) is the operand at (r, c). -/
theorem gather_along_inrange (x : Cert.KernelIdeal.S1024x10331.Idx → α) (i1 : IVec Cert.KernelIdeal.S1024x30x1 32)
    (r : Fin 1024) (k : Fin 30) (c : BitVec 32) (hc : i1 (ix3 r k 0) = c) (h0 : 0 ≤ c.toInt) (h1 : c.toInt < 10331) :
    Host.gather Cert.KernelIdeal.gather_S1024x10331_S1024x30x1_S1024x30_n_1_0_0_1_2_11 x i1 (ix2 r k)
      = x (ix2 r ⟨c.toNat, (clamp_col c h0 h1).2⟩) := by
  rw [gather_along_apply]
  refine congrArg x (congrArg (ix2 r) (Fin.ext ?_))
  show min (i1 (ix3 r k 0)).toInt.toNat 10330 = c.toNat
  rw [hc]
  exact (clamp_col c h0 h1).1

end Kernel

/-! ## The reference's read at (row, column) pairs -/

section Reference
variable [Cert.ReferenceIdeal.Facts₀] {α : Type} {w : Nat}

/-- The reference's read at result (r, k): the operand at the (row, column) pair the start-indices array holds at
    (r, k, 0) and (r, k, 1), each read signed and clamped into its axis. -/
theorem gather_pair_apply (x : Cert.ReferenceIdeal.S1024x10331.Idx → α) (ij : IVec Cert.ReferenceIdeal.S1024x30x2 w)
    (r : Fin 1024) (k : Fin 30) :
    Host.gather Cert.ReferenceIdeal.gather_S1024x10331_S1024x30x2_S1024x30_n_01_n_n_01_2_11 x ij (ix2 r k)
      = x (ix2 ⟨min (ij (ix3 r k 0)).toInt.toNat 1023, by omega⟩ ⟨min (ij (ix3 r k 1)).toInt.toNat 10330, by omega⟩) := by
  unfold Host.gather
  refine congrArg x (funext fun a => Fin.ext ?_)
  have hnb : ∀ a : Fin 2, a ∉ Cert.ReferenceIdeal.gather_S1024x10331_S1024x30x2_S1024x30_n_01_n_n_01_2_11.operandBatchingDims :=
    fun a => List.not_mem_nil
  match a with
  | ⟨0, _⟩ =>
    show Cert.ReferenceIdeal.gather_S1024x10331_S1024x30x2_S1024x30_n_01_n_n_01_2_11.start (ix2 r k) ij 0
        + Cert.ReferenceIdeal.gather_S1024x10331_S1024x30x2_S1024x30_n_01_n_n_01_2_11.batchCoord (ix2 r k) 0
        + Cert.ReferenceIdeal.gather_S1024x10331_S1024x30x2_S1024x30_n_01_n_n_01_2_11.offCoord (ix2 r k) 0
        = min (ij (ix3 r k 0)).toInt.toNat 1023
    have hc : (0 : Fin 2) ∈ Cert.ReferenceIdeal.gather_S1024x10331_S1024x30x2_S1024x30_n_01_n_n_01_2_11.collapsedSliceDims :=
      List.mem_cons_self
    have hm : (0 : Fin 2) ∈ Cert.ReferenceIdeal.gather_S1024x10331_S1024x30x2_S1024x30_n_01_n_n_01_2_11.startIndexMap :=
      List.mem_cons_self
    rw [GatherDims.batchCoord_eq_zero _ _ _ (hnb 0),
      GatherDims.offCoord_eq_zero _ _ _ (fun h => ((GatherDims.mem_sKept _ _).mp h).1 hc)]
    simp only [Nat.add_zero]
    unfold GatherDims.start
    rw [dif_pos hm]
    have hsi : Cert.ReferenceIdeal.gather_S1024x10331_S1024x30x2_S1024x30_n_01_n_n_01_2_11.siIdx (ix2 r k)
        ⟨List.idxOf (0 : Fin 2) Cert.ReferenceIdeal.gather_S1024x10331_S1024x30x2_S1024x30_n_01_n_n_01_2_11.startIndexMap,
          List.idxOf_lt_length_iff.2 hm⟩ = ix3 r k 0 := by
      funext b; refine Fin.ext ?_
      match b with
      | ⟨0, _⟩ => rfl
      | ⟨1, _⟩ => rfl
      | ⟨2, _⟩ => rfl
    rw [hsi]
    rfl
  | ⟨1, _⟩ =>
    show Cert.ReferenceIdeal.gather_S1024x10331_S1024x30x2_S1024x30_n_01_n_n_01_2_11.start (ix2 r k) ij 1
        + Cert.ReferenceIdeal.gather_S1024x10331_S1024x30x2_S1024x30_n_01_n_n_01_2_11.batchCoord (ix2 r k) 1
        + Cert.ReferenceIdeal.gather_S1024x10331_S1024x30x2_S1024x30_n_01_n_n_01_2_11.offCoord (ix2 r k) 1
        = min (ij (ix3 r k 1)).toInt.toNat 10330
    have hc : (1 : Fin 2) ∈ Cert.ReferenceIdeal.gather_S1024x10331_S1024x30x2_S1024x30_n_01_n_n_01_2_11.collapsedSliceDims :=
      List.mem_cons_of_mem _ List.mem_cons_self
    have hm : (1 : Fin 2) ∈ Cert.ReferenceIdeal.gather_S1024x10331_S1024x30x2_S1024x30_n_01_n_n_01_2_11.startIndexMap :=
      List.mem_cons_of_mem _ List.mem_cons_self
    rw [GatherDims.batchCoord_eq_zero _ _ _ (hnb 1),
      GatherDims.offCoord_eq_zero _ _ _ (fun h => ((GatherDims.mem_sKept _ _).mp h).1 hc)]
    simp only [Nat.add_zero]
    unfold GatherDims.start
    rw [dif_pos hm]
    have hsi : Cert.ReferenceIdeal.gather_S1024x10331_S1024x30x2_S1024x30_n_01_n_n_01_2_11.siIdx (ix2 r k)
        ⟨List.idxOf (1 : Fin 2) Cert.ReferenceIdeal.gather_S1024x10331_S1024x30x2_S1024x30_n_01_n_n_01_2_11.startIndexMap,
          List.idxOf_lt_length_iff.2 hm⟩ = ix3 r k 1 := by
      funext b; refine Fin.ext ?_
      match b with
      | ⟨0, _⟩ => rfl
      | ⟨1, _⟩ => rfl
      | ⟨2, _⟩ => rfl
    rw [hsi]
    rfl

/-- When the row component at (r, k) is the word of r and the column component is the word c with 0 ≤ c < 10331
    (signed), the reference's read at (r, k) is the operand at (r, c). -/
theorem gather_pair_inrange (x : Cert.ReferenceIdeal.S1024x10331.Idx → α) (ij : IVec Cert.ReferenceIdeal.S1024x30x2 32)
    (r : Fin 1024) (k : Fin 30) (c : BitVec 32) (hrow : ij (ix3 r k 0) = BitVec.ofNat 32 r.val)
    (hc : ij (ix3 r k 1) = c) (h0 : 0 ≤ c.toInt) (h1 : c.toInt < 10331) :
    Host.gather Cert.ReferenceIdeal.gather_S1024x10331_S1024x30x2_S1024x30_n_01_n_n_01_2_11 x ij (ix2 r k)
      = x (ix2 r ⟨c.toNat, (clamp_col c h0 h1).2⟩) := by
  rw [gather_pair_apply]
  refine congrArg x ?_
  funext a
  refine Fin.ext ?_
  match a with
  | ⟨0, _⟩ =>
    show min (ij (ix3 r k 0)).toInt.toNat 1023 = r.val
    rw [hrow]
    exact clamp_row r
  | ⟨1, _⟩ =>
    show min (ij (ix3 r k 1)).toInt.toNat 10330 = c.toNat
    rw [hc]
    exact (clamp_col c h0 h1).1

end Reference

/-! ## The type-embedding read: one record in both programs -/

/-- Both programs read the [10331 × 10] type-embedding table at the [1024 × 30 × 1] index column with the same
    dimension numbers: the two printed records are one. -/
theorem gather_emb_eq [Cert.KernelIdeal.Facts₀] [Cert.ReferenceIdeal.Facts₀] :
    Cert.KernelIdeal.gather_S10331x10_S1024x30x1_S1024x30x10_2_0_n_n_0_2_110
      = Cert.ReferenceIdeal.gather_S10331x10_S1024x30x1_S1024x30x10_2_0_n_n_0_2_110 := rfl

end Cert.Bridge
-- ==== Proof.Bridge.KTail.lean ====
/-
  The kernel's host tail, entry by entry: the [1024 × 10752] padded logits cut back to their first 10331 columns and read
  along the last axis at the neighbour indices.
  The read normalises each index (a negative one moved up by 10331), lays the indices out as a [1024 × 30 × 1] column of
  start indices, reads row r of the matrix at the clamped start index of (r, k), and replaces the entry by a fill value
  wherever the normalised index falls outside [0, 10330]. Under the precondition every index is in [0, 10331): the
  normalisation is the identity, the in-range mask is all ones, so no entry is replaced, and the clamp does nothing. The
  entry at (r, k) is the matrix at row r, column idx[r, k]; the cut to 10331 columns keeps that column where it was.
-/
import proofs.«424952_j75608604279323_3_alg».proof.Proof.KI.Tail
import proofs.«424952_j75608604279323_3_alg».proof.Proof.Bridge.Mask
import proofs.«424952_j75608604279323_3_alg».proof.Proof.Bridge.Gathers

namespace Cert.Bridge

open Idealize.ShloMosaic Idealize.ShloMosaic.ValueIdx

section Core
variable [Cert.KernelIdeal.Facts₀] {α : Type}

/-- The range of every entry of the index array, from the range at every (r, k). -/
theorem range_all (a1 : IVec Cert.KernelIdeal.S1024x30 32)
    (hr : ∀ (r : Fin 1024) (k : Fin 30), 0 ≤ (a1 (ix2 r k)).toInt ∧ (a1 (ix2 r k)).toInt < 10331)
    (i : Cert.KernelIdeal.S1024x30.Idx) : 0 ≤ (a1 i).toInt ∧ (a1 i).toInt < 10331 := by
  have e : a1 i = a1 (ix2 (i 0) (i 1)) := congrArg a1 (eq_ix2 i)
  rw [e]
  exact hr (i 0) (i 1)

/-- THE READ ALONG THE LAST AXIS at (r, k), over any spelling of its constant operands (`z2`, `z3` zero vectors, `n2` the
    extent added to a negative index, `c3` the vector of 10330s, `init` the constant 1): the matrix at (r, idx[r, k]). -/
theorem take_along_core (X : Cert.KernelIdeal.S1024x10331.Idx → α) (a1 : IVec Cert.KernelIdeal.S1024x30 32)
    (z2 n2 : IVec Cert.KernelIdeal.S1024x30 32) (z3 c3 : IVec Cert.KernelIdeal.S1024x30x1 32)
    {u : Shape} (init : u.Idx → BitVec 1) (fill : Cert.KernelIdeal.S1024x30.Idx → α)
    (hsc : Cert.KernelIdeal.S1024x30.ShapeCasts Cert.KernelIdeal.S1024x30x1)
    (hred : Cert.KernelIdeal.S1024x30x1.ReducesTo [2] Cert.KernelIdeal.S1024x30) (hu : 0 < u.numel)
    (hz2 : ∀ i, z2 i = 0#32) (hz3 : ∀ i, z3 i = 0#32) (hc3 : ∀ i, c3 i = 10330#32)
    (hinit : init (Shape.Idx.first hu) = 1#1)
    (hr : ∀ (r : Fin 1024) (k : Fin 30), 0 ≤ (a1 (ix2 r k)).toInt ∧ (a1 (ix2 r k)).toInt < 10331)
    (r : Fin 1024) (k : Fin 30) :
    select
        (Host.reduce IntOp.andi
          (andi (cmpi .sge (shapeCast Cert.KernelIdeal.S1024x30x1 (select (cmpi .slt a1 z2) (addi a1 n2) a1) hsc) z3)
            (cmpi .sle (shapeCast Cert.KernelIdeal.S1024x30x1 (select (cmpi .slt a1 z2) (addi a1 n2) a1) hsc) c3))
          init hred hu)
        (Host.gather Cert.KernelIdeal.gather_S1024x10331_S1024x30x1_S1024x30_n_1_0_0_1_2_11 X
          (shapeCast Cert.KernelIdeal.S1024x30x1 (select (cmpi .slt a1 z2) (addi a1 n2) a1) hsc))
        fill (ix2 r k)
      = X (ix2 r ⟨(a1 (ix2 r k)).toNat, (clamp_col (a1 (ix2 r k)) (hr r k).1 (hr r k).2).2⟩) := by
  have hall := range_all a1 hr
  -- the normalisation is the identity
  have hv4 : select (cmpi .slt a1 z2) (addi a1 n2) a1 = a1 := norm_vec a1 z2 n2 hz2 (fun i => (hall i).1)
  rw [hv4]
  -- the column of start indices holds idx[r, k] at (r, k, 0)
  have hv5 : ∀ (r : Fin 1024) (k : Fin 30) (o : Fin 1),
      shapeCast Cert.KernelIdeal.S1024x30x1 a1 hsc (ix3 r k o) = a1 (ix2 r k) := fun r k o => reshape_col_apply a1 hsc r k o
  have hv5all : ∀ i : Cert.KernelIdeal.S1024x30x1.Idx,
      0 ≤ (shapeCast Cert.KernelIdeal.S1024x30x1 a1 hsc i).toInt ∧ (shapeCast Cert.KernelIdeal.S1024x30x1 a1 hsc i).toInt < 10331 := by
    intro i
    have e : shapeCast Cert.KernelIdeal.S1024x30x1 a1 hsc i = a1 (ix2 (i 0) (i 1)) :=
      (congrArg (shapeCast Cert.KernelIdeal.S1024x30x1 a1 hsc) (eq_ix3 i)).trans (hv5 (i 0) (i 1) (i 2))
    rw [e]
    exact hr (i 0) (i 1)
  -- the mask is all ones, so the select keeps the read
  have hm : Host.reduce IntOp.andi
      (andi (cmpi .sge (shapeCast Cert.KernelIdeal.S1024x30x1 a1 hsc) z3) (cmpi .sle (shapeCast Cert.KernelIdeal.S1024x30x1 a1 hsc) c3))
      init hred hu (ix2 r k) = 1#1 :=
    fill_mask_one _ z3 c3 init hred hu hz3 hc3 hinit hv5all (ix2 r k)
  show Scalar.select _ _ _ = _
  rw [hm, select_one]
  exact gather_along_inrange X _ r k (a1 (ix2 r k)) (hv5 r k 0) (hr r k).1 (hr r k).2

/-- The cut of a [1024 × 10752] matrix to its first 10331 columns reads, at (r, c), the matrix at (r, c). -/
theorem slice_cols_apply (L : Cert.KernelIdeal.S1024x10752.Idx → α)
    (h : Cert.KernelIdeal.S1024x10752.Slices ![0, 0] Cert.KernelIdeal.S1024x10331) (r : Fin 1024) (c : Fin 10331) :
    extractStridedSlice Cert.KernelIdeal.S1024x10331 ![0, 0] L h (ix2 r c) = L (ix2 r ⟨c.val, by have := c.isLt; omega⟩) := by
  refine extractStridedSlice_apply ![0, 0] L h (ix2 r c) (ix2 r ⟨c.val, by have := c.isLt; omega⟩) (fun a => ?_)
  match a with
  | ⟨0, _⟩ => show r.val = 0 + r.val; omega
  | ⟨1, _⟩ => show c.val = 0 + c.val; omega

end Core

/-! ## The kernel's tail -/

section Tail
variable {F : FTy → Type} [FloatOps F]

open Cert.KernelIdeal Cert.KernelIdeal.Gen in
/-- THE KERNEL'S LOGITS AT THE NEIGHBOURS, entry (r, k): under the index range, the region's [1024 × 10752] output at
    row r, column idx[r, k]. -/
theorem tailLN_apply (L : (⟨Cert.KernelIdeal.S1024x10752, .f32⟩ : BufTy).Contents (Elt F))
    (a1 : (⟨Cert.KernelIdeal.S1024x30, .i32⟩ : BufTy).Contents (Elt F))
    (hr : ∀ (r : Fin 1024) (k : Fin 30), 0 ≤ (a1 (ix2 r k)).toInt ∧ (a1 (ix2 r k)).toInt < 10331)
    (r : Fin 1024) (k : Fin 30) :
    Cert.KernelIdeal.Host.tailLN (F := F) L a1 (ix2 r k)
      = L (ix2 r ⟨(a1 (ix2 r k)).toNat, by
          have := (clamp_col (a1 (ix2 r k)) (hr r k).1 (hr r k).2).2; omega⟩) := by
  have key := take_along_core (u := S_)
    (extractStridedSlice S1024x10331 ![0, 0] L slices_S1024x10752_S1024x10331_0_0) a1
    (broadcastInDim S1024x30 ![] bcast_S_S1024x30 (constantI S_ 32 0#32))
    (broadcastInDim S1024x30 ![] bcast_S_S1024x30 (constantI S_ 32 10331#32))
    (broadcastInDim S1024x30x1 ![] bcast_S_S1024x30x1 (constantI S_ 32 0#32))
    (broadcastInDim S1024x30x1 ![0, 1, 2] bcast_S1x1x1_S1024x30x1_0_1_2
      (broadcastInDim S1x1x1 ![2] bcast_S1_S1x1x1_2 (constantI S1 32 10330#32)))
    (constantI S_ 1 1#1)
    (broadcastInDim S1024x30 ![] bcast_S_S1024x30 (constant (F := F) S_ .f32 0x7FC00000#32))
    shapeCasts_S1024x30_S1024x30x1 reducesTo_S1024x30x1_S1024x30_d2 h_S_
    (fun _ => rfl) (fun _ => rfl) (fun _ => rfl) rfl hr r k
  unfold Cert.KernelIdeal.Host.tailLN Cert.KernelIdeal.Host.tailIdx
  refine key.trans ?_
  exact slice_cols_apply L slices_S1024x10752_S1024x10331_0_0 r
    ⟨(a1 (ix2 r k)).toNat, (clamp_col (a1 (ix2 r k)) (hr r k).1 (hr r k).2).2⟩

end Tail

end Cert.Bridge
-- ==== Proof.Ref.Join.lean ====
/- Four arrays with 1024 rows each, of 750, 10, 450 and 10331 columns, laid side by side into one array of
   11541 columns. A column of the joined array lies in exactly one of the four spans
   [0, 750), [750, 760), [760, 1210), [1210, 11541), and the entry there is the entry of that span's array at the
   same row and at the column less the span's first column. -/
import Idealize.ShloMosaic.Lib.Pipeline.Value
import Idealize.ShloMosaic.Lib.ValueIdx

namespace Cert.RefVal

open Idealize.ShloMosaic Idealize.ShloMosaic.ValueIdx

variable {α : Type}

/-- The joined array of 11541 columns. -/
abbrev SJoin : Shape := ⟨2, ![1024, 11541]⟩
/-- The first piece: 750 columns. -/
abbrev SPc0 : Shape := ⟨2, ![1024, 750]⟩
/-- The second piece: 10 columns. -/
abbrev SPc1 : Shape := ⟨2, ![1024, 10]⟩
/-- The third piece: 450 columns. -/
abbrev SPc2 : Shape := ⟨2, ![1024, 450]⟩
/-- The fourth piece: 10331 columns. -/
abbrev SPc3 : Shape := ⟨2, ![1024, 10331]⟩

/-- A column below 750 reads the first piece at that column. -/
theorem join4_first (x0 : SPc0.Idx → α) (x1 : SPc1.Idx → α) (x2 : SPc2.Idx → α) (x3 : SPc3.Idx → α)
    (h : Shape.Concatenates [SPc0, SPc1, SPc2, SPc3] SJoin 1) (r : Fin 1024) (i : Fin 11541) (p : Fin 750)
    (hp : p.val = i.val) :
    concatenate SJoin 1 [⟨SPc0, x0⟩, ⟨SPc1, x1⟩, ⟨SPc2, x2⟩, ⟨SPc3, x3⟩] h (ix2 r i) = x0 (ix2 r p) :=
  concatenate_apply_piece 1 [⟨SPc0, x0⟩, ⟨SPc1, x1⟩, ⟨SPc2, x2⟩, ⟨SPc3, x3⟩] h (ix2 r i) 0 (by show (0 : Nat) < 4; omega) SPc0 x0 rfl rfl 0 rfl
    (ix2 r p)
    (fun b hb => by
      match b with
      | ⟨0, _⟩ => rfl
      | ⟨1, _⟩ => exact absurd rfl hb)
    (by show 0 + p.val = i.val; omega)

/-- A column from 750 and below 760 reads the second piece at the column less 750. -/
theorem join4_second (x0 : SPc0.Idx → α) (x1 : SPc1.Idx → α) (x2 : SPc2.Idx → α) (x3 : SPc3.Idx → α)
    (h : Shape.Concatenates [SPc0, SPc1, SPc2, SPc3] SJoin 1) (r : Fin 1024) (i : Fin 11541) (p : Fin 10)
    (hp : 750 + p.val = i.val) :
    concatenate SJoin 1 [⟨SPc0, x0⟩, ⟨SPc1, x1⟩, ⟨SPc2, x2⟩, ⟨SPc3, x3⟩] h (ix2 r i) = x1 (ix2 r p) :=
  concatenate_apply_piece 1 [⟨SPc0, x0⟩, ⟨SPc1, x1⟩, ⟨SPc2, x2⟩, ⟨SPc3, x3⟩] h (ix2 r i) 1 (by show (1 : Nat) < 4; omega) SPc1 x1 rfl rfl 750 rfl
    (ix2 r p)
    (fun b hb => by
      match b with
      | ⟨0, _⟩ => rfl
      | ⟨1, _⟩ => exact absurd rfl hb)
    (by show 750 + p.val = i.val; omega)

/-- A column from 760 and below 1210 reads the third piece at the column less 760. -/
theorem join4_third (x0 : SPc0.Idx → α) (x1 : SPc1.Idx → α) (x2 : SPc2.Idx → α) (x3 : SPc3.Idx → α)
    (h : Shape.Concatenates [SPc0, SPc1, SPc2, SPc3] SJoin 1) (r : Fin 1024) (i : Fin 11541) (p : Fin 450)
    (hp : 760 + p.val = i.val) :
    concatenate SJoin 1 [⟨SPc0, x0⟩, ⟨SPc1, x1⟩, ⟨SPc2, x2⟩, ⟨SPc3, x3⟩] h (ix2 r i) = x2 (ix2 r p) :=
  concatenate_apply_piece 1 [⟨SPc0, x0⟩, ⟨SPc1, x1⟩, ⟨SPc2, x2⟩, ⟨SPc3, x3⟩] h (ix2 r i) 2 (by show (2 : Nat) < 4; omega) SPc2 x2 rfl rfl 760 rfl
    (ix2 r p)
    (fun b hb => by
      match b with
      | ⟨0, _⟩ => rfl
      | ⟨1, _⟩ => exact absurd rfl hb)
    (by show 760 + p.val = i.val; omega)

/-- A column from 1210 on reads the fourth piece at the column less 1210. -/
theorem join4_fourth (x0 : SPc0.Idx → α) (x1 : SPc1.Idx → α) (x2 : SPc2.Idx → α) (x3 : SPc3.Idx → α)
    (h : Shape.Concatenates [SPc0, SPc1, SPc2, SPc3] SJoin 1) (r : Fin 1024) (i : Fin 11541) (p : Fin 10331)
    (hp : 1210 + p.val = i.val) :
    concatenate SJoin 1 [⟨SPc0, x0⟩, ⟨SPc1, x1⟩, ⟨SPc2, x2⟩, ⟨SPc3, x3⟩] h (ix2 r i) = x3 (ix2 r p) :=
  concatenate_apply_piece 1 [⟨SPc0, x0⟩, ⟨SPc1, x1⟩, ⟨SPc2, x2⟩, ⟨SPc3, x3⟩] h (ix2 r i) 3 (by show (3 : Nat) < 4; omega) SPc3 x3 rfl rfl 1210 rfl
    (ix2 r p)
    (fun b hb => by
      match b with
      | ⟨0, _⟩ => rfl
      | ⟨1, _⟩ => exact absurd rfl hb)
    (by show 1210 + p.val = i.val; omega)

/-- The joined row as one function of the four pieces: the entry at row `r`, column `i`. -/
def joinRow (x0 : SPc0.Idx → α) (x1 : SPc1.Idx → α) (x2 : SPc2.Idx → α) (x3 : SPc3.Idx → α) (r : Fin 1024)
    (i : Fin 11541) : α :=
  if h0 : i.val < 750 then x0 (ix2 r ⟨i.val, h0⟩)
  else if h1 : i.val < 760 then x1 (ix2 r ⟨i.val - 750, by omega⟩)
  else if h2 : i.val < 1210 then x2 (ix2 r ⟨i.val - 760, by omega⟩)
  else x3 (ix2 r ⟨i.val - 1210, by have := i.isLt; omega⟩)

/-- The concatenation of the four pieces is `joinRow`, entry by entry. -/
theorem join4_apply (x0 : SPc0.Idx → α) (x1 : SPc1.Idx → α) (x2 : SPc2.Idx → α) (x3 : SPc3.Idx → α)
    (h : Shape.Concatenates [SPc0, SPc1, SPc2, SPc3] SJoin 1) (r : Fin 1024) (i : Fin 11541) :
    concatenate SJoin 1 [⟨SPc0, x0⟩, ⟨SPc1, x1⟩, ⟨SPc2, x2⟩, ⟨SPc3, x3⟩] h (ix2 r i) = joinRow x0 x1 x2 x3 r i := by
  unfold joinRow
  by_cases h0 : i.val < 750
  · rw [dif_pos h0]
    exact join4_first x0 x1 x2 x3 h r i ⟨i.val, h0⟩ rfl
  · rw [dif_neg h0]
    by_cases h1 : i.val < 760
    · rw [dif_pos h1]
      exact join4_second x0 x1 x2 x3 h r i ⟨i.val - 750, by omega⟩ (by show 750 + (i.val - 750) = i.val; omega)
    · rw [dif_neg h1]
      by_cases h2 : i.val < 1210
      · rw [dif_pos h2]
        exact join4_third x0 x1 x2 x3 h r i ⟨i.val - 760, by omega⟩ (by show 760 + (i.val - 760) = i.val; omega)
      · rw [dif_neg h2]
        exact join4_fourth x0 x1 x2 x3 h r i ⟨i.val - 1210, by have := i.isLt; omega⟩
          (by show 1210 + (i.val - 1210) = i.val; omega)

end Cert.RefVal
-- ==== Proof.Ref.Result.lean ====
/- The reference's two results, stage by stage, as functions of the seven argument arrays.
   (1) The logits: entry (r, t) is the product of row r of the joined input with row t of the weights, summed over the
       11541 columns, plus the bias at t.
   (2) The joined input: its row r is the features (750 columns), the predicted embedding (10), the neighbour
       representation (450) and the one-hot row (10331), side by side.
   (3) The two results depend on the arguments only through the logits, the neighbour indices and the neighbour labels:
       the first is the logistic function 1 / (1 + exp (-x)) of the logits, read at the neighbour indices; the second is
       the mean over the 1024 x 30 neighbour entries of max (x, 0) - x * y + log (1 + exp (-|x|)), x the logit read at
       the neighbour index and y the label. -/
import proofs.«424952_j75608604279323_3_alg».proof.Proof.Ref.Read
import proofs.«424952_j75608604279323_3_alg».proof.Proof.Ref.Join

noncomputable section

open scoped BigOperators

namespace Cert.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable {F : FTy → Type} [FloatOps F]

/-! ## The joined input at an index -/

/-- Row `r`, column `i` of the joined input, as one function of the four pieces. -/
theorem inp_apply (x0 : (⟨S1024x10, .f32⟩ : BufTy).Contents (Elt F)) (x1 : (⟨S1024x30, .i32⟩ : BufTy).Contents (Elt F)) (x2 : (⟨S1024x750, .f32⟩ : BufTy).Contents (Elt F)) (x4 : (⟨S10331x10, .f32⟩ : BufTy).Contents (Elt F)) (r : Fin 1024) (i : Fin 11541) :
    val_main_v97 (F := F) x0 x1 x2 x4 (ix2 r i)
      = joinRow x2 x0 (val_main_v77 (F := F) x0 x1 x4) (val_main_v96 (F := F) x1) r i := by
  unfold val_main_v97
  exact join4_apply x2 x0 (val_main_v77 (F := F) x0 x1 x4) (val_main_v96 (F := F) x1) _ r i

/-- A column below 750 is a feature. -/
theorem inp_apply_features (x0 : (⟨S1024x10, .f32⟩ : BufTy).Contents (Elt F)) (x1 : (⟨S1024x30, .i32⟩ : BufTy).Contents (Elt F)) (x2 : (⟨S1024x750, .f32⟩ : BufTy).Contents (Elt F)) (x4 : (⟨S10331x10, .f32⟩ : BufTy).Contents (Elt F)) (r : Fin 1024) (i : Fin 11541) (p : Fin 750)
    (hp : p.val = i.val) :
    val_main_v97 (F := F) x0 x1 x2 x4 (ix2 r i) = x2 (ix2 r p) := by
  unfold val_main_v97
  exact join4_first x2 x0 (val_main_v77 (F := F) x0 x1 x4) (val_main_v96 (F := F) x1) _ r i p hp

/-- A column from 750 and below 760 is a coordinate of the predicted embedding. -/
theorem inp_apply_embed (x0 : (⟨S1024x10, .f32⟩ : BufTy).Contents (Elt F)) (x1 : (⟨S1024x30, .i32⟩ : BufTy).Contents (Elt F)) (x2 : (⟨S1024x750, .f32⟩ : BufTy).Contents (Elt F)) (x4 : (⟨S10331x10, .f32⟩ : BufTy).Contents (Elt F)) (r : Fin 1024) (i : Fin 11541) (p : Fin 10)
    (hp : 750 + p.val = i.val) :
    val_main_v97 (F := F) x0 x1 x2 x4 (ix2 r i) = x0 (ix2 r p) := by
  unfold val_main_v97
  exact join4_second x2 x0 (val_main_v77 (F := F) x0 x1 x4) (val_main_v96 (F := F) x1) _ r i p hp

/-- A column from 760 and below 1210 is an entry of the neighbour representation. -/
theorem inp_apply_neighbors (x0 : (⟨S1024x10, .f32⟩ : BufTy).Contents (Elt F)) (x1 : (⟨S1024x30, .i32⟩ : BufTy).Contents (Elt F)) (x2 : (⟨S1024x750, .f32⟩ : BufTy).Contents (Elt F)) (x4 : (⟨S10331x10, .f32⟩ : BufTy).Contents (Elt F)) (r : Fin 1024) (i : Fin 11541) (p : Fin 450)
    (hp : 760 + p.val = i.val) :
    val_main_v97 (F := F) x0 x1 x2 x4 (ix2 r i) = val_main_v77 (F := F) x0 x1 x4 (ix2 r p) := by
  unfold val_main_v97
  exact join4_third x2 x0 (val_main_v77 (F := F) x0 x1 x4) (val_main_v96 (F := F) x1) _ r i p hp

/-- A column from 1210 on is an entry of the one-hot row. -/
theorem inp_apply_onehot (x0 : (⟨S1024x10, .f32⟩ : BufTy).Contents (Elt F)) (x1 : (⟨S1024x30, .i32⟩ : BufTy).Contents (Elt F)) (x2 : (⟨S1024x750, .f32⟩ : BufTy).Contents (Elt F)) (x4 : (⟨S10331x10, .f32⟩ : BufTy).Contents (Elt F)) (r : Fin 1024) (i : Fin 11541) (p : Fin 10331)
    (hp : 1210 + p.val = i.val) :
    val_main_v97 (F := F) x0 x1 x2 x4 (ix2 r i) = val_main_v96 (F := F) x1 (ix2 r p) := by
  unfold val_main_v97
  exact join4_fourth x2 x0 (val_main_v77 (F := F) x0 x1 x4) (val_main_v96 (F := F) x1) _ r i p hp

/-! ## The logits at an index -/

/-- The left operand of the product is read at row `r`, column `k`. -/
theorem lidx_eq (r : Fin 1024) (t : Fin 10331) (k : Fin 11541) : lidx_main_v99 (ix2 r t) k = ix2 r k :=
  funext fun a => Fin.ext (by
    match a with
    | ⟨0, _⟩ => rfl
    | ⟨1, _⟩ => rfl)

/-- The right operand of the product, the transposed weights at (k, t), is the weights at row `t`, column `k`. -/
theorem ridx_eq (r : Fin 1024) (t : Fin 10331) (k : Fin 11541) :
    idx_main_v98 (ridx_main_v99 (ix2 r t) k) = ix2 t k :=
  funext fun a => Fin.ext (by
    match a with
    | ⟨0, _⟩ => rfl
    | ⟨1, _⟩ => rfl)

/-- The bias, spread over the rows, is read at `t`. -/
theorem bidx_eq (r : Fin 1024) (t : Fin 10331) : idx_main_v100 (idx_main_v101 (ix2 r t)) = ix1 t :=
  funext fun a => Fin.ext (by
    match a with
    | ⟨0, _⟩ => rfl)

/-- Entry (r, t) of the logits: row `r` of the joined input against row `t` of the weights, plus the bias at `t`. -/
theorem logits_apply (x0 : (⟨S1024x10, .f32⟩ : BufTy).Contents (Elt Ideal)) (x1 : (⟨S1024x30, .i32⟩ : BufTy).Contents (Elt Ideal)) (x2 : (⟨S1024x750, .f32⟩ : BufTy).Contents (Elt Ideal)) (x4 : (⟨S10331x10, .f32⟩ : BufTy).Contents (Elt Ideal)) (x5 : (⟨S10331x11541, .f32⟩ : BufTy).Contents (Elt Ideal)) (x6 : (⟨S10331, .f32⟩ : BufTy).Contents (Elt Ideal)) (r : Fin 1024) (t : Fin 10331) :
    val_main_v102 (F := Ideal) x0 x1 x2 x4 x5 x6 (ix2 r t)
      = (∑ i : Fin 11541, val_main_v97 (F := Ideal) x0 x1 x2 x4 (ix2 r i) * x5 (ix2 t i)) + x6 (ix1 t) := by
  rw [val_main_v102_apply, val_main_v99_apply, val_main_v101_apply, val_main_v100_apply, bidx_eq]
  simp only [val_main_v98_apply, lidx_eq, ridx_eq]
  rfl

/-! ## The two results as functions of the logits -/

/-- The logistic function of every entry of the logit matrix: 1 / (1 + exp (-x)). -/
def refSig (L : (⟨S1024x10331, .f32⟩ : BufTy).Contents (Elt F)) : (⟨S1024x10331, .f32⟩ : BufTy).Contents (Elt F) :=
  Host.divf (val_main_v107 (F := F)) (addf (val_main_v105 (F := F)) (Host.exp (Host.negf L)))

/-- A 1024 x 10331 matrix `D` read at (row, neighbour index of that row): the index pairs are formed from the row
    numbers and the neighbour indices `a1`, a negative one moved up by the extent of its axis. -/
def refGather (D : (⟨S1024x10331, .f32⟩ : BufTy).Contents (Elt F)) (a1 : (⟨S1024x30, .i32⟩ : BufTy).Contents (Elt F)) :
    (⟨S1024x30, .f32⟩ : BufTy).Contents (Elt F) :=
  Host.gather gather_S1024x10331_S1024x30x2_S1024x30_n_01_n_n_01_2_11 D (val_main_v124 (F := F) a1)

/-- The mean, over the 1024 x 30 entries, of max (x, 0) - x * y + log (1 + exp (-|x|)), `x` an entry of the first
    array and `y` the entry of `a3` at the same place. -/
def refLoss (x : (⟨S1024x30, .f32⟩ : BufTy).Contents (Elt F)) (a3 : (⟨S1024x30, .f32⟩ : BufTy).Contents (Elt F)) : (⟨S_, .f32⟩ : BufTy).Contents (Elt F) :=
  Host.divf
    (Host.reduceAdd
      (addf (subf (maximumf x (val_main_v141 (F := F))) (mulf x a3)) (Host.log1p (Host.exp (Host.negf (Host.absf x)))))
      (val_main_cst_43 (F := F)) reducesTo_S1024x30_S_d0_1 h_S_)
    (val_main_cst_44 (F := F))

/-- The index pairs are formed twice, by the same operations on the same neighbour indices: the two arrays are equal. -/
theorem index_pairs_eq (a1 : (⟨S1024x30, .i32⟩ : BufTy).Contents (Elt F)) : val_main_v139 (F := F) a1 = val_main_v124 (F := F) a1 := rfl

/-- The first result's stage: the logistic function of the logits, read at the neighbour indices. -/
theorem dist_stage (x0 : (⟨S1024x10, .f32⟩ : BufTy).Contents (Elt F)) (x1 : (⟨S1024x30, .i32⟩ : BufTy).Contents (Elt F)) (x2 : (⟨S1024x750, .f32⟩ : BufTy).Contents (Elt F)) (x4 : (⟨S10331x10, .f32⟩ : BufTy).Contents (Elt F)) (x5 : (⟨S10331x11541, .f32⟩ : BufTy).Contents (Elt F)) (x6 : (⟨S10331, .f32⟩ : BufTy).Contents (Elt F)) :
    val_main_v140 (F := F) x0 x1 x2 x4 x5 x6 = refGather (refSig (val_main_v102 (F := F) x0 x1 x2 x4 x5 x6)) x1 := by
  unfold refGather refSig val_main_v140 val_main_v108 val_main_v106 val_main_v104 val_main_v103
  rw [index_pairs_eq]

/-- The second result's stage: the mean loss of the logits read at the neighbour indices. -/
theorem loss_stage (x0 : (⟨S1024x10, .f32⟩ : BufTy).Contents (Elt F)) (x1 : (⟨S1024x30, .i32⟩ : BufTy).Contents (Elt F)) (x2 : (⟨S1024x750, .f32⟩ : BufTy).Contents (Elt F)) (x3 : (⟨S1024x30, .f32⟩ : BufTy).Contents (Elt F)) (x4 : (⟨S10331x10, .f32⟩ : BufTy).Contents (Elt F)) (x5 : (⟨S10331x11541, .f32⟩ : BufTy).Contents (Elt F)) (x6 : (⟨S10331, .f32⟩ : BufTy).Contents (Elt F)) :
    val_main_v151 (F := F) x0 x1 x2 x3 x4 x5 x6
      = refLoss (refGather (val_main_v102 (F := F) x0 x1 x2 x4 x5 x6) x1) x3 := by
  unfold refLoss refGather val_main_v151 val_main_v150 val_main_v149 val_main_v148 val_main_v147 val_main_v146
    val_main_v145 val_main_v144 val_main_v143 val_main_v142 val_main_v125
  rfl

/-! ## The logistic function entry by entry -/

/-- Entry `i` of `refSig L` is 1 / (1 + exp (-(L i))), the two ones the same float word. -/
theorem refSig_apply (L : (⟨S1024x10331, .f32⟩ : BufTy).Contents (Elt F)) (i : S1024x10331.Idx) :
    refSig L i
      = FloatOps.hostDivf (FloatOps.ofBits .f32 0x3F800000#32)
          (FloatOps.addf (FloatOps.ofBits .f32 0x3F800000#32) (FloatOps.hostUnary .exp (FloatOps.hostNegf (L i)))) := by
  show FloatOps.hostDivf (val_main_v107 (F := F) i)
      (FloatOps.addf (val_main_v105 (F := F) i) (FloatOps.hostUnary .exp (FloatOps.hostNegf (L i)))) = _
  rw [val_main_v107_apply, val_main_cst_33_apply, val_main_v105_apply, val_main_cst_32_apply]

end Cert.RefVal

end
-- ==== Proof.Bridge.RTail.lean ====
/-
  The reference's read of a [1024 × 10331] matrix at (row, neighbour index of that row), entry by entry.
  The index pairs are built from the row numbers (an iota along the rows, normalised against the extent 1024) and the
  neighbour indices (normalised against the extent 10331), laid side by side along a last axis of size two. A row number
  is non-negative, so its normalisation is the row number; under the precondition a neighbour index is in [0, 10331), so
  its normalisation is the index itself. The pair at (r, k) is therefore (r, idx[r, k]), both inside their axes, the
  clamp of the read does nothing, and the entry read is the matrix at row r, column idx[r, k].
-/
import proofs.«424952_j75608604279323_3_alg».proof.Proof.Ref.Result
import proofs.«424952_j75608604279323_3_alg».proof.Proof.Bridge.Mask
import proofs.«424952_j75608604279323_3_alg».proof.Proof.Bridge.Gathers

namespace Cert.Bridge

open Cert.ReferenceIdeal Cert.ReferenceIdeal.Gen Cert.ReferenceIdeal.Read Cert.RefVal Idealize.ShloMosaic
  Idealize.ShloMosaic.ValueIdx

variable {F : FTy → Type} [FloatOps F]

/-- The row component of the index pair at (r, k) is the word of the row number r. -/
theorem pairs_row (a1 : (⟨S1024x30, .i32⟩ : BufTy).Contents (Elt F)) (r : Fin 1024) (k : Fin 30) :
    val_main_v124 (F := F) a1 (ix3 r k (0 : Fin 2)) = BitVec.ofNat 32 r.val := by
  unfold val_main_v124
  refine (concatenate_pair_apply_left 2 (val_main_v122 (F := F)) (val_main_v123 (F := F) a1)
    concatenates_S1024x30x1_S1024x30x1_S1024x30x2_d2 (ix3 r k (0 : Fin 2)) rfl (ix3 r k (0 : Fin 1)) ?_).trans ?_
  · intro b
    match b with
    | ⟨0, _⟩ => rfl
    | ⟨1, _⟩ => rfl
    | ⟨2, _⟩ => rfl
  · rw [val_main_v122_apply, val_main_v121_apply, val_main_v115_apply, val_main_v112_apply, val_main_v111_apply,
      val_main_c_34_apply, val_main_v114_apply, val_main_v110_apply, val_main_v109_apply]
    exact norm_row r.val (by have := r.isLt; omega) _

/-- The column component of the index pair at (r, k) is the neighbour index at (r, k), when that is non-negative. -/
theorem pairs_col (a1 : (⟨S1024x30, .i32⟩ : BufTy).Contents (Elt F)) (r : Fin 1024) (k : Fin 30)
    (h0 : 0 ≤ (a1 (ix2 r k)).toInt) :
    val_main_v124 (F := F) a1 (ix3 r k (1 : Fin 2)) = a1 (ix2 r k) := by
  unfold val_main_v124
  refine (concatenate_pair_apply_right 2 (val_main_v122 (F := F)) (val_main_v123 (F := F) a1)
    concatenates_S1024x30x1_S1024x30x1_S1024x30x2_d2 (ix3 r k (1 : Fin 2)) rfl rfl (ix3 r k (0 : Fin 1)) ?_ ?_).trans ?_
  · intro b hb
    match b with
    | ⟨0, _⟩ => rfl
    | ⟨1, _⟩ => rfl
    | ⟨2, _⟩ => exact absurd rfl hb
  · rfl
  · have hJ : idx_main_v123 (ix3 r k (0 : Fin 1)) = ix2 r k := funext fun a => by
      match a with
      | ⟨0, _⟩ => rfl
      | ⟨1, _⟩ => rfl
    rw [val_main_v123_apply, hJ, val_main_v120_apply, val_main_v117_apply, val_main_v116_apply, val_main_c_36_apply,
      val_main_v119_apply]
    exact norm_word _ _ h0

/-- THE REFERENCE'S READ at (r, k): under the index range, the matrix at row r, column idx[r, k]. -/
theorem refGather_apply (D : (⟨S1024x10331, .f32⟩ : BufTy).Contents (Elt F))
    (a1 : (⟨S1024x30, .i32⟩ : BufTy).Contents (Elt F))
    (hr : ∀ (r : Fin 1024) (k : Fin 30), 0 ≤ (a1 (ix2 r k)).toInt ∧ (a1 (ix2 r k)).toInt < 10331)
    (r : Fin 1024) (k : Fin 30) :
    refGather (F := F) D a1 (ix2 r k)
      = D (ix2 r ⟨(a1 (ix2 r k)).toNat, (clamp_col (a1 (ix2 r k)) (hr r k).1 (hr r k).2).2⟩) := by
  unfold refGather
  exact gather_pair_inrange D (val_main_v124 (F := F) a1) r k (a1 (ix2 r k)) (pairs_row a1 r k)
    (pairs_col a1 r k (hr r k).1) (hr r k).1 (hr r k).2

end Cert.Bridge
-- ==== Proof.Bridge.IdxRange.lean ====
/-
  The precondition's last conjunct, decoded. The printed predicate ends in the conjunction, over every row r and
  every neighbour slot k, of (idx[r, k] ≥ 0) ∧ (idx[r, k] < 10331), both compares signed, reduced by `and` over the
  whole [1024 × 30] array and joined by `and` to the finiteness conjuncts. If the predicate is all ones, every one of
  those bits is one; a signed compare against a small constant that came out true is the inequality between the words'
  signed values. So every neighbour index is a column number of the [1024 × 10331] logit matrix.
-/
import proofs.«424952_j75608604279323_3_alg».proof.Pre_finite_inputs
import Idealize.ShloMosaic.Lib.ReduceAll
import Idealize.ShloMosaic.Lib.ValueIdx

namespace Cert.Bridge

open Idealize.ShloMosaic Idealize.ShloMosaic.ValueIdx

/-- A one-bit word built from a Boolean is 1 exactly when the Boolean is true. -/
theorem ofBool_one_iff (b : Bool) : BitVec.ofBool b = 1#1 ↔ b = true := by cases b <;> decide

/-- A word that passed "≥ 0" and "< 10331", both signed, has its signed value in [0, 10331). -/
theorem toInt_range_of_cmp (w : BitVec 32) (h0 : IntOp.cmpi .sge w 0#32 = 1#1) (h1 : IntOp.cmpi .slt w 10331#32 = 1#1) :
    0 ≤ w.toInt ∧ w.toInt < 10331 := by
  unfold IntOp.cmpi at h0 h1
  rw [ofBool_one_iff] at h0 h1
  simp only [BitVec.sle, BitVec.slt, decide_eq_true_eq] at h0 h1
  have z : (0#32 : BitVec 32).toInt = 0 := by decide
  have t : (10331#32 : BitVec 32).toInt = 10331 := by decide
  rw [z] at h0
  rw [t] at h1
  exact ⟨h0, h1⟩

/-- THE INDEX RANGE. From "the printed precondition of the seven argument arrays is all ones": the neighbour index at
    row r, slot k is a column of the logit matrix, 0 ≤ idx[r, k] < 10331 (signed reading). -/
theorem idx_range {F : FTy → Type} [FloatOps F] [Cert.Pre_finite_inputs.Facts]
    (a0 : FVec F Cert.Pre_finite_inputs.S1024x10 .f32) (a1 : IVec Cert.Pre_finite_inputs.S1024x30 32)
    (a2 : FVec F Cert.Pre_finite_inputs.S1024x750 .f32) (a3 : FVec F Cert.Pre_finite_inputs.S1024x30 .f32)
    (a4 : FVec F Cert.Pre_finite_inputs.S10331x10 .f32) (a5 : FVec F Cert.Pre_finite_inputs.S10331x11541 .f32)
    (a6 : FVec F Cert.Pre_finite_inputs.S10331 .f32)
    (h : Cert.Pre_finite_inputs.fn (F := F) a0 a1 a2 a3 a4 a5 a6 = (fun _ => 1#1)) (r : Fin 1024) (k : Fin 30) :
    0 ≤ (a1 (ix2 r k)).toInt ∧ (a1 (ix2 r k)).toInt < 10331 := by
  haveI : Subsingleton Cert.Pre_finite_inputs.S_.Idx := ⟨fun a b => funext fun d => d.elim0⟩
  have e := congrFun h ix0
  dsimp only [Cert.Pre_finite_inputs.fn, Cert.Pre_finite_inputs.fn_part1, Cert.Pre_finite_inputs.fn_part2] at e
  -- the outermost `and` joins the finiteness conjuncts to the reduction of the index mask
  have e2 := (IntOp.andi_eq_one.1 e).2
  have e3 := Host.reduce_andi_all _ _ _ _ _ e2 (ix2 r k)
  obtain ⟨hge, hlt⟩ := IntOp.andi_eq_one.1 e3
  exact toInt_range_of_cmp _ hge hlt

end Cert.Bridge
-- ==== Proof.Math.BlockSum.lean ====
/- Pure algebra over the extended reals for the tiled linear layer: a sum formed one term at a time
   is the finite sum; seven consecutive blocks of 1664 columns exhaust a row of 11648 columns; a row
   whose entries vanish from column 11541 on sums to the sum of its first 11541 entries; a product
   with a zero factor is zero.  Only the commutative additive monoid structure and the two zero laws
   of the product are used: no distributivity. -/
import Mathlib.Data.EReal.Basic
import Mathlib.Data.Fintype.BigOperators
import Mathlib.Algebra.BigOperators.Fin
import Mathlib.Algebra.BigOperators.Group.Finset.Basic
import Idealize.ShloMosaic.PureOps.Ideal
import Idealize.ShloMosaic.Lib.ValueIdx
import proofs.«424952_j75608604279323_3_alg».proof.Proof.Math.Spec

noncomputable section

open scoped BigOperators

namespace Cert.Spec

open Idealize.ShloMosaic Idealize.ShloMosaic.ValueIdx

/-- A sum formed the way an accumulator forms it is the finite sum of its terms. -/
theorem runSum_eq (S : ℕ → EReal) (n : ℕ) : runSum S n = ∑ k ∈ Finset.range (n + 1), S k := by
  induction n with
  | zero =>
    show 0 + S 0 = _
    rw [zero_add, Finset.sum_range_one]
  | succ m ih =>
    show runSum S m + S (m + 1) = _
    rw [ih, Finset.sum_range_succ _ (m + 1)]

/-- The pairs (block, place inside the block) are the columns: column `k * 1664 + q` corresponds to
    the pair `(k, q)`, and a column `i` to `(i / 1664, i % 1664)`. -/
def blockEquiv : Fin 7 × Fin 1664 ≃ Fin 11648 where
  toFun p := ⟨p.1.val * 1664 + p.2.val, by have := p.1.isLt; have := p.2.isLt; omega⟩
  invFun i := (⟨i.val / 1664, by have := i.isLt; omega⟩, ⟨i.val % 1664, Nat.mod_lt _ (by decide)⟩)
  left_inv p := by
    have h1 := p.1.isLt
    have h2 := p.2.isLt
    apply Prod.ext
    · apply Fin.ext
      show (p.1.val * 1664 + p.2.val) / 1664 = p.1.val
      omega
    · apply Fin.ext
      show (p.1.val * 1664 + p.2.val) % 1664 = p.2.val
      omega
  right_inv i := by
    apply Fin.ext
    show i.val / 1664 * 1664 + i.val % 1664 = i.val
    omega

theorem blockEquiv_val (p : Fin 7 × Fin 1664) : (blockEquiv p).val = p.1.val * 1664 + p.2.val := rfl

/-- Summing block after block is summing over the whole row. -/
theorem blocks_eq (f : Fin 11648 → EReal) :
    ∑ k ∈ Finset.range 7, ∑ q : Fin 1664, f (col k q) = ∑ i : Fin 11648, f i := by
  calc ∑ k ∈ Finset.range 7, ∑ q : Fin 1664, f (col k q)
      = ∑ k : Fin 7, ∑ q : Fin 1664, f (col k.val q) :=
        (Fin.sum_univ_eq_sum_range (fun k => ∑ q : Fin 1664, f (col k q)) 7).symm
    _ = ∑ p : Fin 7 × Fin 1664, f (col p.1.val p.2) :=
        (Fintype.sum_prod_type' (fun (k : Fin 7) (q : Fin 1664) => f (col k.val q))).symm
    _ = ∑ i : Fin 11648, f i := by
        refine Fintype.sum_equiv blockEquiv _ _ (fun p => ?_)
        congr 1
        apply Fin.ext
        rw [col_val p.1.isLt, blockEquiv_val]

/-- The padded logit at row `r`, column `t`: the full product of the two rows, plus the bias. -/
theorem kLogit_apply (a : (⟨2, ![1024, 11648]⟩ : Shape).Idx → EReal)
    (w : (⟨2, ![10752, 11648]⟩ : Shape).Idx → EReal) (b : (⟨2, ![1, 10752]⟩ : Shape).Idx → EReal)
    (r : Fin 1024) (t : Fin 10752) :
    kLogit a w b (ix2 r t)
      = (∑ i : Fin 11648, a (ix2 r i) * w (ix2 t i)) + b (ix2 (0 : Fin 1) t) := by
  show runSum (blockDot a w r t) 6 + b (ix2 (0 : Fin 1) t) = _
  rw [runSum_eq]
  show (∑ k ∈ Finset.range 7, ∑ q : Fin 1664, a (ix2 r (col k q)) * w (ix2 t (col k q)))
      + b (ix2 (0 : Fin 1) t) = _
  rw [blocks_eq (fun i => a (ix2 r i) * w (ix2 t i))]

/-- A row that vanishes from column 11541 on sums to the sum of its first 11541 entries. -/
theorem sum_padded (f : Fin 11648 → EReal) (hz : ∀ i : Fin 11648, 11541 ≤ i.val → f i = 0) :
    ∑ i : Fin 11648, f i = ∑ i : Fin 11541, f (Fin.castLE (by decide) i) := by
  symm
  refine Fintype.sum_of_injective (Fin.castLE (by decide)) (Fin.castLE_injective _) _ _ ?_
    (fun _ => rfl)
  intro i hi
  apply hz
  by_contra hlt
  exact hi ⟨⟨i.val, by omega⟩, Fin.ext rfl⟩

/-- A product whose left factor is zero is zero. -/
theorem mul_eq_zero_of_left {x y : EReal} (hx : x = 0) : x * y = 0 := by
  rw [hx, zero_mul]

/-- A product whose right factor is zero is zero. -/
theorem mul_eq_zero_of_right {x y : EReal} (hy : y = 0) : x * y = 0 := by
  rw [hy, mul_zero]

/-- A product of two zeros is zero. -/
theorem mul_eq_zero_of_both {x y : EReal} (hx : x = 0) (_hy : y = 0) : x * y = 0 :=
  mul_eq_zero_of_left hx

/-- When row `r` of `a` vanishes from column 11541 on, the padded logit is the product over the first
    11541 columns, plus the bias. -/
theorem kLogit_padded (a : (⟨2, ![1024, 11648]⟩ : Shape).Idx → EReal)
    (w : (⟨2, ![10752, 11648]⟩ : Shape).Idx → EReal) (b : (⟨2, ![1, 10752]⟩ : Shape).Idx → EReal)
    (r : Fin 1024) (t : Fin 10752) (hz : ∀ i : Fin 11648, 11541 ≤ i.val → a (ix2 r i) = 0) :
    kLogit a w b (ix2 r t)
      = (∑ i : Fin 11541, a (ix2 r (Fin.castLE (by decide) i)) * w (ix2 t (Fin.castLE (by decide) i)))
        + b (ix2 (0 : Fin 1) t) := by
  rw [kLogit_apply a w b r t]
  exact congrArg (fun s : EReal => s + b (ix2 (0 : Fin 1) t))
    (sum_padded (fun i => a (ix2 r i) * w (ix2 t i)) (fun i hi => mul_eq_zero_of_left (hz i hi)))

end Cert.Spec

end
-- ==== Proof.Math.Agree.lean ====
/- The tiled linear layer against the plain one, over abstract operand arrays: padding the left
   operand with zero columns and the weights and bias with further rows changes no logit below
   column 10331. -/
import Mathlib.Data.EReal.Basic
import Mathlib.Algebra.BigOperators.Group.Finset.Basic
import Idealize.ShloMosaic.PureOps.Ideal
import Idealize.ShloMosaic.Lib.ValueIdx
import proofs.«424952_j75608604279323_3_alg».proof.Proof.Math.Spec
import proofs.«424952_j75608604279323_3_alg».proof.Proof.Math.BlockSum

noncomputable section

open scoped BigOperators

namespace Cert.Spec

open Idealize.ShloMosaic Idealize.ShloMosaic.ValueIdx

/-- The tiled logits against the plain ones.  When the left operand `A` is `X` on its first 11541
    columns and zero beyond them, the weight array `W` is `Wr` on its first 10331 rows and 11541
    columns, and the bias row `B` is `br` on its first 10331 entries, the padded logit at a column
    below 10331 is the product of the row of `X` with the row of `Wr`, plus the bias entry. -/
theorem kLogit_agree (A : (⟨2, ![1024, 11648]⟩ : Shape).Idx → EReal)
    (W : (⟨2, ![10752, 11648]⟩ : Shape).Idx → EReal) (B : (⟨2, ![1, 10752]⟩ : Shape).Idx → EReal)
    (X : (⟨2, ![1024, 11541]⟩ : Shape).Idx → EReal) (Wr : (⟨2, ![10331, 11541]⟩ : Shape).Idx → EReal)
    (br : (⟨1, ![10331]⟩ : Shape).Idx → EReal)
    (hA : ∀ (r : Fin 1024) (i : Fin 11541), A (ix2 r (Fin.castLE (by decide) i)) = X (ix2 r i))
    (hA0 : ∀ (r : Fin 1024) (i : Fin 11648), 11541 ≤ i.val → A (ix2 r i) = 0)
    (hW : ∀ (t : Fin 10331) (i : Fin 11541),
      W (ix2 (Fin.castLE (by decide) t) (Fin.castLE (by decide) i)) = Wr (ix2 t i))
    (hB : ∀ t : Fin 10331, B (ix2 (0 : Fin 1) (Fin.castLE (by decide) t)) = br (ix1 t))
    (r : Fin 1024) (t : Fin 10331) :
    kLogit A W B (ix2 r (Fin.castLE (by decide) t))
      = (∑ i : Fin 11541, X (ix2 r i) * Wr (ix2 t i)) + br (ix1 t) := by
  rw [kLogit_padded A W B r (Fin.castLE (by decide) t) (hA0 r), hB t]
  exact congrArg (fun s : EReal => s + br (ix1 t))
    (Finset.sum_congr rfl (fun i _ => by rw [hA r i, hW t i]))

end Cert.Spec

end
-- ==== Proof.KI.PrefixW.lean ====
/- The two short operand arrays of the tiled linear layer as the region finds them.  The weight array is the
   10331 x 11541 weights, rounded to the narrow format, padded below and to the right with zeros to
   10752 x 11648; the bias row is the 10331 biases padded with zeros to 10752 entries and viewed as one row.
   Read at a row below 10331 and a column below 11541 the padded weights are the weights (at the ideal
   instance the change of format is the identity), and the padded bias row at a column below 10331 is the
   bias. -/
import proofs.«424952_j75608604279323_3_alg».proof.Proof.KI.Kit
import Idealize.ShloMosaic.Lib.Pipeline.Value
import Idealize.ShloMosaic.Lib.KernelVsHost
import Idealize.ShloMosaic.Lib.ValueIdx
import Idealize.ShloMosaic.Lib.Tactic

set_option maxRecDepth 16384

noncomputable section

namespace Cert.KernelIdeal.Host

open Cert.KernelIdeal Cert.KernelIdeal.Gen Cert.KernelIdeal.Fr
open Idealize.ShloMosaic Idealize.ShloMosaic.TcCoe Idealize.ShloMosaic.Tactic Idealize.SL.Sem
open Idealize.ShloMosaic.ValueIdx

/-! ## The arrays as terms over the launch contents -/

section Terms

variable {F : FTy → Type} [FloatOps F]
variable (m : (ℓ : Loc nD τ sig) → Buf (Elt F) ℓ)

set_option maxHeartbeats 4000000 in
/-- The weight array the region reads: the weights in the narrow format, padded with the converted zero. -/
theorem V_main_v103 (c : Dev nD) :
    V m c main_v103 = pad S10752x11648 ![0, 0] ![421, 107] ![0, 0]
      (truncf .bf16 (m ((c : Thread nD τ).loc main_arg5)) bitsLt_bf16_f32)
      (sitofp .bf16 (constantI S_ 32 0#32)) pads_S10331x11541_S10752x11648_04210_01070 h_S_ := by
  dsimp only [Fr.V, Fr.V0]
  simp only [Fr.preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl

set_option maxHeartbeats 4000000 in
/-- The bias row the region reads: the biases padded with the converted zero, viewed as one row. -/
theorem V_main_v105 (c : Dev nD) :
    V m c main_v105 = shapeCast S1x10752 (pad S10752 ![0] ![421] ![0] (m ((c : Thread nD τ).loc main_arg6))
      (sitofp .f32 (constantI S_ 32 0#32)) pads_S10331_S10752_04210 h_S_) shapeCasts_S10752_S1x10752 := by
  dsimp only [Fr.V, Fr.V0]
  simp only [Fr.preOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl

end Terms

/-! ## Padding and the one-row view, read at an index -/

section Reads

variable {α : Type}

/-- A 10331 x 11541 array padded below and to the right, read inside the array, is the array there. -/
theorem padW_inside (x : S10331x11541.Idx → α) (v : S_.Idx → α)
    (h : S10331x11541.Pads ![0, 0] ![421, 107] ![0, 0] S10752x11648) (hu : 0 < S_.numel)
    (t : Fin 10331) (i : Fin 11541) :
    pad S10752x11648 ![0, 0] ![421, 107] ![0, 0] x v h hu
        (ix2 (Fin.castLE (by decide) t) (Fin.castLE (by decide) i)) = x (ix2 t i) :=
  pad_apply_of_inside _ _ _ x v h hu _ (ix2 t i) (fun a => by
    match a with
    | ⟨0, _⟩ => show t.val = 0 + t.val * (0 + 1); omega
    | ⟨1, _⟩ => show i.val = 0 + i.val * (0 + 1); omega)

/-- A vector of 10331 entries padded at its end, read at an entry below 10331, is the vector there. -/
theorem padB_inside (x : S10331.Idx → α) (v : S_.Idx → α)
    (h : S10331.Pads ![0] ![421] ![0] S10752) (hu : 0 < S_.numel) (t : Fin 10331) :
    pad S10752 ![0] ![421] ![0] x v h hu (ix1 (Fin.castLE (by decide) t)) = x (ix1 t) :=
  pad_apply_of_inside _ _ _ x v h hu _ (ix1 t) (fun a => by
    match a with
    | ⟨0, _⟩ => show t.val = 0 + t.val * (0 + 1); omega)

/-- A vector of 10752 entries viewed as one row: the row's entry `j` is the vector's entry `j`. -/
theorem rowView_apply (y : S10752.Idx → α) (h : S10752.ShapeCasts S1x10752) (j : Fin 10752) :
    shapeCast S1x10752 y h (ix2 (0 : Fin 1) j) = y (ix1 j) :=
  shapeCast_apply y h (ix2 (0 : Fin 1) j) (ix1 j) (by
    rw [Shape.rowMajor_val_two, Shape.rowMajor_val_one]
    show j.val = 0 * 10752 + j.val
    omega)

end Reads

/-! ## The two arrays at the ideal instance, read below the padding -/

section AtIdeal

variable (m : (ℓ : Loc nD τ sig) → Buf (Elt Ideal) ℓ)

/-- The padded weights at row `t < 10331`, column `i < 11541` are the weights there. -/
theorem V_main_v103_apply (c : Dev nD) (t : Fin 10331) (i : Fin 11541) :
    (V m c main_v103 : Vec Ideal S10752x11648 .bf16) (ix2 (Fin.castLE (by decide) t) (Fin.castLE (by decide) i))
      = (m ((c : Thread nD τ).loc main_arg5) : Vec Ideal S10331x11541 .f32) (ix2 t i) := by
  refine (congrFun (V_main_v103 (F := Ideal) m c) _).trans ?_
  refine (padW_inside _ _ _ _ t i).trans ?_
  rfl

/-- The padded bias row at column `t < 10331` is the bias there. -/
theorem V_main_v105_apply (c : Dev nD) (t : Fin 10331) :
    (V m c main_v105 : Vec Ideal S1x10752 .f32) (ix2 (0 : Fin 1) (Fin.castLE (by decide) t))
      = (m ((c : Thread nD τ).loc main_arg6) : Vec Ideal S10331 .f32) (ix1 t) := by
  refine (congrFun (V_main_v105 (F := Ideal) m c) _).trans ?_
  refine (rowView_apply _ _ _).trans ?_
  exact padB_inside _ _ _ _ t

end AtIdeal

end Cert.KernelIdeal.Host

end
-- ==== Proof.Math.Concat.lean ====
/- Rows laid side by side, read at an index.  Five arrays of 1024 rows and 750, 10, 450, 10331 and
   107 columns are concatenated along the column axis into one of 11648 columns; the first four alone
   into one of 11541 columns.  A column of the result lies in exactly one piece, at the column less
   the widths of the pieces before it; so below column 11541 the five-piece array agrees with the
   four-piece one, and from column 11541 on it is the fifth piece. -/
import Idealize.ShloMosaic.Lib.Pipeline.Value
import Idealize.ShloMosaic.Lib.ValueIdx

namespace Cert.Spec

open Idealize.ShloMosaic Idealize.ShloMosaic.ValueIdx

section Concat

local notation "S750" => (⟨2, ![1024, 750]⟩ : Shape)
local notation "S10" => (⟨2, ![1024, 10]⟩ : Shape)
local notation "S450" => (⟨2, ![1024, 450]⟩ : Shape)
local notation "S10331" => (⟨2, ![1024, 10331]⟩ : Shape)
local notation "S107" => (⟨2, ![1024, 107]⟩ : Shape)
local notation "T11648" => (⟨2, ![1024, 11648]⟩ : Shape)
local notation "T11541" => (⟨2, ![1024, 11541]⟩ : Shape)

variable {α : Type}
variable (p1 : Shape.Idx S750 → α) (p2 : Shape.Idx S10 → α) (p3 : Shape.Idx S450 → α)
  (p4 : Shape.Idx S10331 → α) (p5 : Shape.Idx S107 → α)

/-- Five pieces, a column below 750: the first piece at that column. -/
theorem concat5_p1 (h : Shape.Concatenates [S750, S10, S450, S10331, S107] T11648 1) (r : Fin 1024) (i : Fin 11648)
    (hhi : i.val < 750) :
    concatenate T11648 1 [⟨S750, p1⟩, ⟨S10, p2⟩, ⟨S450, p3⟩, ⟨S10331, p4⟩, ⟨S107, p5⟩] h (ix2 r i)
      = p1 (ix2 r ⟨i.val, hhi⟩) := by
  refine concatenate_apply_piece (t := T11648) (1 : Fin 2) [⟨S750, p1⟩, ⟨S10, p2⟩, ⟨S450, p3⟩, ⟨S10331, p4⟩, ⟨S107, p5⟩] h (ix2 r i) 0
    (show 0 < 5 by decide) S750 p1 rfl rfl 0 rfl _ (fun b hb => ?_) ?_
  · match b with
    | ⟨0, _⟩ => rfl
    | ⟨1, _⟩ => exact absurd rfl hb
  · show 0 + (i.val) = i.val
    omega

/-- Five pieces, a column from 750 and below 760: the second piece, 750 less. -/
theorem concat5_p2 (h : Shape.Concatenates [S750, S10, S450, S10331, S107] T11648 1) (r : Fin 1024) (i : Fin 11648)
    (hlo : 750 ≤ i.val) (hhi : i.val < 760) :
    concatenate T11648 1 [⟨S750, p1⟩, ⟨S10, p2⟩, ⟨S450, p3⟩, ⟨S10331, p4⟩, ⟨S107, p5⟩] h (ix2 r i)
      = p2 (ix2 r ⟨i.val - 750, by have := i.isLt; omega⟩) := by
  refine concatenate_apply_piece (t := T11648) (1 : Fin 2) [⟨S750, p1⟩, ⟨S10, p2⟩, ⟨S450, p3⟩, ⟨S10331, p4⟩, ⟨S107, p5⟩] h (ix2 r i) 1
    (show 1 < 5 by decide) S10 p2 rfl rfl 750 rfl _ (fun b hb => ?_) ?_
  · match b with
    | ⟨0, _⟩ => rfl
    | ⟨1, _⟩ => exact absurd rfl hb
  · show 750 + (i.val - 750) = i.val
    omega

/-- Five pieces, a column from 760 and below 1210: the third piece, 760 less. -/
theorem concat5_p3 (h : Shape.Concatenates [S750, S10, S450, S10331, S107] T11648 1) (r : Fin 1024) (i : Fin 11648)
    (hlo : 760 ≤ i.val) (hhi : i.val < 1210) :
    concatenate T11648 1 [⟨S750, p1⟩, ⟨S10, p2⟩, ⟨S450, p3⟩, ⟨S10331, p4⟩, ⟨S107, p5⟩] h (ix2 r i)
      = p3 (ix2 r ⟨i.val - 760, by have := i.isLt; omega⟩) := by
  refine concatenate_apply_piece (t := T11648) (1 : Fin 2) [⟨S750, p1⟩, ⟨S10, p2⟩, ⟨S450, p3⟩, ⟨S10331, p4⟩, ⟨S107, p5⟩] h (ix2 r i) 2
    (show 2 < 5 by decide) S450 p3 rfl rfl 760 rfl _ (fun b hb => ?_) ?_
  · match b with
    | ⟨0, _⟩ => rfl
    | ⟨1, _⟩ => exact absurd rfl hb
  · show 760 + (i.val - 760) = i.val
    omega

/-- Five pieces, a column from 1210 and below 11541: the fourth piece, 1210 less. -/
theorem concat5_p4 (h : Shape.Concatenates [S750, S10, S450, S10331, S107] T11648 1) (r : Fin 1024) (i : Fin 11648)
    (hlo : 1210 ≤ i.val) (hhi : i.val < 11541) :
    concatenate T11648 1 [⟨S750, p1⟩, ⟨S10, p2⟩, ⟨S450, p3⟩, ⟨S10331, p4⟩, ⟨S107, p5⟩] h (ix2 r i)
      = p4 (ix2 r ⟨i.val - 1210, by have := i.isLt; omega⟩) := by
  refine concatenate_apply_piece (t := T11648) (1 : Fin 2) [⟨S750, p1⟩, ⟨S10, p2⟩, ⟨S450, p3⟩, ⟨S10331, p4⟩, ⟨S107, p5⟩] h (ix2 r i) 3
    (show 3 < 5 by decide) S10331 p4 rfl rfl 1210 rfl _ (fun b hb => ?_) ?_
  · match b with
    | ⟨0, _⟩ => rfl
    | ⟨1, _⟩ => exact absurd rfl hb
  · show 1210 + (i.val - 1210) = i.val
    omega

/-- Five pieces, a column from 11541 on: the fifth piece, 11541 less. -/
theorem concat5_ge (h : Shape.Concatenates [S750, S10, S450, S10331, S107] T11648 1) (r : Fin 1024) (i : Fin 11648)
    (hlo : 11541 ≤ i.val) :
    concatenate T11648 1 [⟨S750, p1⟩, ⟨S10, p2⟩, ⟨S450, p3⟩, ⟨S10331, p4⟩, ⟨S107, p5⟩] h (ix2 r i)
      = p5 (ix2 r ⟨i.val - 11541, by have := i.isLt; omega⟩) := by
  refine concatenate_apply_piece (t := T11648) (1 : Fin 2) [⟨S750, p1⟩, ⟨S10, p2⟩, ⟨S450, p3⟩, ⟨S10331, p4⟩, ⟨S107, p5⟩] h (ix2 r i) 4
    (show 4 < 5 by decide) S107 p5 rfl rfl 11541
    (show (750 + (10 + (450 + (10331 + 0))) : Nat) = 11541 by decide) _ (fun b hb => ?_) ?_
  · match b with
    | ⟨0, _⟩ => rfl
    | ⟨1, _⟩ => exact absurd rfl hb
  · show 11541 + (i.val - 11541) = i.val
    omega

/-- Four pieces, a column below 750: the first piece at that column. -/
theorem concat4_p1 (h : Shape.Concatenates [S750, S10, S450, S10331] T11541 1) (r : Fin 1024) (i : Fin 11541)
    (hhi : i.val < 750) :
    concatenate T11541 1 [⟨S750, p1⟩, ⟨S10, p2⟩, ⟨S450, p3⟩, ⟨S10331, p4⟩] h (ix2 r i)
      = p1 (ix2 r ⟨i.val, hhi⟩) := by
  refine concatenate_apply_piece (t := T11541) (1 : Fin 2) [⟨S750, p1⟩, ⟨S10, p2⟩, ⟨S450, p3⟩, ⟨S10331, p4⟩] h (ix2 r i) 0
    (show 0 < 4 by decide) S750 p1 rfl rfl 0 rfl _ (fun b hb => ?_) ?_
  · match b with
    | ⟨0, _⟩ => rfl
    | ⟨1, _⟩ => exact absurd rfl hb
  · show 0 + (i.val) = i.val
    omega

/-- Four pieces, a column from 750 and below 760: the second piece, 750 less. -/
theorem concat4_p2 (h : Shape.Concatenates [S750, S10, S450, S10331] T11541 1) (r : Fin 1024) (i : Fin 11541)
    (hlo : 750 ≤ i.val) (hhi : i.val < 760) :
    concatenate T11541 1 [⟨S750, p1⟩, ⟨S10, p2⟩, ⟨S450, p3⟩, ⟨S10331, p4⟩] h (ix2 r i)
      = p2 (ix2 r ⟨i.val - 750, by have := i.isLt; omega⟩) := by
  refine concatenate_apply_piece (t := T11541) (1 : Fin 2) [⟨S750, p1⟩, ⟨S10, p2⟩, ⟨S450, p3⟩, ⟨S10331, p4⟩] h (ix2 r i) 1
    (show 1 < 4 by decide) S10 p2 rfl rfl 750 rfl _ (fun b hb => ?_) ?_
  · match b with
    | ⟨0, _⟩ => rfl
    | ⟨1, _⟩ => exact absurd rfl hb
  · show 750 + (i.val - 750) = i.val
    omega

/-- Four pieces, a column from 760 and below 1210: the third piece, 760 less. -/
theorem concat4_p3 (h : Shape.Concatenates [S750, S10, S450, S10331] T11541 1) (r : Fin 1024) (i : Fin 11541)
    (hlo : 760 ≤ i.val) (hhi : i.val < 1210) :
    concatenate T11541 1 [⟨S750, p1⟩, ⟨S10, p2⟩, ⟨S450, p3⟩, ⟨S10331, p4⟩] h (ix2 r i)
      = p3 (ix2 r ⟨i.val - 760, by have := i.isLt; omega⟩) := by
  refine concatenate_apply_piece (t := T11541) (1 : Fin 2) [⟨S750, p1⟩, ⟨S10, p2⟩, ⟨S450, p3⟩, ⟨S10331, p4⟩] h (ix2 r i) 2
    (show 2 < 4 by decide) S450 p3 rfl rfl 760 rfl _ (fun b hb => ?_) ?_
  · match b with
    | ⟨0, _⟩ => rfl
    | ⟨1, _⟩ => exact absurd rfl hb
  · show 760 + (i.val - 760) = i.val
    omega

/-- Four pieces, a column from 1210 on: the fourth piece, 1210 less. -/
theorem concat4_p4 (h : Shape.Concatenates [S750, S10, S450, S10331] T11541 1) (r : Fin 1024) (i : Fin 11541)
    (hlo : 1210 ≤ i.val) :
    concatenate T11541 1 [⟨S750, p1⟩, ⟨S10, p2⟩, ⟨S450, p3⟩, ⟨S10331, p4⟩] h (ix2 r i)
      = p4 (ix2 r ⟨i.val - 1210, by have := i.isLt; omega⟩) := by
  refine concatenate_apply_piece (t := T11541) (1 : Fin 2) [⟨S750, p1⟩, ⟨S10, p2⟩, ⟨S450, p3⟩, ⟨S10331, p4⟩] h (ix2 r i) 3
    (show 3 < 4 by decide) S10331 p4 rfl rfl 1210 rfl _ (fun b hb => ?_) ?_
  · match b with
    | ⟨0, _⟩ => rfl
    | ⟨1, _⟩ => exact absurd rfl hb
  · show 1210 + (i.val - 1210) = i.val
    omega

/-- Below column 11541 the five-piece array is the four-piece one. -/
theorem concat5_lt (h5 : Shape.Concatenates [S750, S10, S450, S10331, S107] T11648 1)
    (h4 : Shape.Concatenates [S750, S10, S450, S10331] T11541 1) (r : Fin 1024) (i : Fin 11541) :
    concatenate T11648 1 [⟨S750, p1⟩, ⟨S10, p2⟩, ⟨S450, p3⟩, ⟨S10331, p4⟩, ⟨S107, p5⟩] h5
        (ix2 r (Fin.castLE (by decide) i))
      = concatenate T11541 1 [⟨S750, p1⟩, ⟨S10, p2⟩, ⟨S450, p3⟩, ⟨S10331, p4⟩] h4 (ix2 r i) := by
  have hi := i.isLt
  by_cases c1 : i.val < 750
  · exact (concat5_p1 p1 p2 p3 p4 p5 h5 r (Fin.castLE (by decide) i) c1).trans
      (concat4_p1 p1 p2 p3 p4 h4 r i c1).symm
  · by_cases c2 : i.val < 760
    · exact (concat5_p2 p1 p2 p3 p4 p5 h5 r (Fin.castLE (by decide) i) (show 750 ≤ i.val by omega) c2).trans
        (concat4_p2 p1 p2 p3 p4 h4 r i (by omega) c2).symm
    · by_cases c3 : i.val < 1210
      · exact (concat5_p3 p1 p2 p3 p4 p5 h5 r (Fin.castLE (by decide) i) (show 760 ≤ i.val by omega) c3).trans
          (concat4_p3 p1 p2 p3 p4 h4 r i (by omega) c3).symm
      · exact (concat5_p4 p1 p2 p3 p4 p5 h5 r (Fin.castLE (by decide) i) (show 1210 ≤ i.val by omega) hi).trans
          (concat4_p4 p1 p2 p3 p4 h4 r i (by omega)).symm

end Concat

end Cert.Spec
-- ==== Proof.Bridge.JoinAgree.lean ====
/- Two joins of rows laid side by side, compared. A five-piece join of widths 750, 10, 450, 10331 and 107 whose first
   four pieces agree entry by entry with the four pieces of a join of width 11541 agrees with that join on its first
   11541 columns; and if its fifth piece is zero it is zero from column 11541 on. The pieces of the two joins need
   not be the same terms (one side may carry a change of number format that changes no value), only equal entry by
   entry. -/
import proofs.«424952_j75608604279323_3_alg».proof.Proof.Math.Concat

namespace Cert.Bridge

open Idealize.ShloMosaic Idealize.ShloMosaic.ValueIdx

section Join

local notation "S750" => (⟨2, ![1024, 750]⟩ : Shape)
local notation "S10" => (⟨2, ![1024, 10]⟩ : Shape)
local notation "S450" => (⟨2, ![1024, 450]⟩ : Shape)
local notation "S10331" => (⟨2, ![1024, 10331]⟩ : Shape)
local notation "S107" => (⟨2, ![1024, 107]⟩ : Shape)
local notation "T11648" => (⟨2, ![1024, 11648]⟩ : Shape)
local notation "T11541" => (⟨2, ![1024, 11541]⟩ : Shape)

variable {α : Type}
variable {p1 q1 : Shape.Idx S750 → α} {p2 q2 : Shape.Idx S10 → α} {p3 q3 : Shape.Idx S450 → α}
  {p4 q4 : Shape.Idx S10331 → α} {p5 : Shape.Idx S107 → α}

/-- Below column 11541 the five-piece join is the four-piece join of pieces that agree with its first four. -/
theorem join_agree_lt (h1 : ∀ j, p1 j = q1 j) (h2 : ∀ j, p2 j = q2 j) (h3 : ∀ j, p3 j = q3 j) (h4 : ∀ j, p4 j = q4 j)
    (hc5 : Shape.Concatenates [S750, S10, S450, S10331, S107] T11648 1)
    (hc4 : Shape.Concatenates [S750, S10, S450, S10331] T11541 1) (r : Fin 1024) (i : Fin 11541) :
    concatenate T11648 1 [⟨S750, p1⟩, ⟨S10, p2⟩, ⟨S450, p3⟩, ⟨S10331, p4⟩, ⟨S107, p5⟩] hc5
        (ix2 r (Fin.castLE (by decide) i))
      = concatenate T11541 1 [⟨S750, q1⟩, ⟨S10, q2⟩, ⟨S450, q3⟩, ⟨S10331, q4⟩] hc4 (ix2 r i) := by
  have e1 : p1 = q1 := funext h1
  have e2 : p2 = q2 := funext h2
  have e3 : p3 = q3 := funext h3
  have e4 : p4 = q4 := funext h4
  subst e1 e2 e3 e4
  exact Cert.Spec.concat5_lt p1 p2 p3 p4 p5 hc5 hc4 r i

/-- From column 11541 on the five-piece join is zero when its fifth piece is. -/
theorem join_agree_ge [Zero α] (h5 : ∀ j, p5 j = 0)
    (hc5 : Shape.Concatenates [S750, S10, S450, S10331, S107] T11648 1) (r : Fin 1024) (i : Fin 11648)
    (hi : 11541 ≤ i.val) :
    concatenate T11648 1 [⟨S750, p1⟩, ⟨S10, p2⟩, ⟨S450, p3⟩, ⟨S10331, p4⟩, ⟨S107, p5⟩] hc5 (ix2 r i) = 0 :=
  (Cert.Spec.concat5_ge p1 p2 p3 p4 p5 hc5 r i hi).trans (h5 _)

end Join

end Cert.Bridge
-- ==== Proof.Bridge.InpAgree.lean ====
/- The joined input of the tiled linear layer against the joined input of the plain one, at the extended reals. The
   tiled program joins five pieces side by side into 11648 columns: the 750 feature columns, the 10 embedding columns,
   the 450 neighbour columns, the 10331 one-hot columns, each after a change of number format that changes no value at
   the extended reals, and 107 zero columns. The plain program joins the same first four pieces, with no format change,
   into 11541 columns. So the tiled join agrees with the plain one on its first 11541 columns and is zero beyond them:
   the two hypotheses on the left operand under which padding changes no logit. -/
import proofs.«424952_j75608604279323_3_alg».proof.KernelIdeal
import proofs.«424952_j75608604279323_3_alg».proof.Proof.Ref.Read
import proofs.«424952_j75608604279323_3_alg».proof.Proof.Bridge.JoinAgree

set_option maxRecDepth 16384

noncomputable section

namespace Cert.Bridge

open Idealize.ShloMosaic Idealize.ShloMosaic.ValueIdx

/-- On its first 11541 columns the tiled program's joined input is the plain program's. -/
theorem inp_agree_lt (Vinp : Cert.KernelIdeal.S1024x11648.Idx → EReal)
    (x0 : (⟨Cert.ReferenceIdeal.S1024x10, .f32⟩ : BufTy).Contents (Elt Ideal)) (x2 : (⟨Cert.ReferenceIdeal.S1024x750, .f32⟩ : BufTy).Contents (Elt Ideal))
    (x1 : (⟨Cert.ReferenceIdeal.S1024x30, .i32⟩ : BufTy).Contents (Elt Ideal)) (x4 : (⟨Cert.ReferenceIdeal.S10331x10, .f32⟩ : BufTy).Contents (Elt Ideal))
    (k77 : FVec Ideal Cert.KernelIdeal.S1024x450 .f32) (k96 : FVec Ideal Cert.KernelIdeal.S1024x10331 .bf16) (z : FVec Ideal Cert.KernelIdeal.S1024x107 .bf16)
    (h : FTy.bits .bf16 < FTy.bits .f32)
    (hc : Shape.Concatenates [Cert.KernelIdeal.S1024x750, Cert.KernelIdeal.S1024x10, Cert.KernelIdeal.S1024x450, Cert.KernelIdeal.S1024x10331, Cert.KernelIdeal.S1024x107] Cert.KernelIdeal.S1024x11648 1)
    (hV : Vinp = concatenate Cert.KernelIdeal.S1024x11648 1 [⟨Cert.KernelIdeal.S1024x750, truncf (F := Ideal) (φ := .f32) .bf16 x2 h⟩, ⟨Cert.KernelIdeal.S1024x10, truncf (F := Ideal) (φ := .f32) .bf16 x0 h⟩, ⟨Cert.KernelIdeal.S1024x450, truncf (F := Ideal) (φ := .f32) .bf16 k77 h⟩, ⟨Cert.KernelIdeal.S1024x10331, k96⟩, ⟨Cert.KernelIdeal.S1024x107, z⟩] hc)
    (hk77 : k77 = Cert.ReferenceIdeal.Read.val_main_v77 (F := Ideal) x0 x1 x4) (hk96 : k96 = Cert.ReferenceIdeal.Read.val_main_v96 (F := Ideal) x1)
    (r : Fin 1024) (i : Fin 11541) :
    Vinp (ix2 r (Fin.castLE (by decide) i)) = Cert.ReferenceIdeal.Read.val_main_v97 (F := Ideal) x0 x1 x2 x4 (ix2 r i) := by
  subst hV
  unfold Cert.ReferenceIdeal.Read.val_main_v97
  refine join_agree_lt ?_ ?_ ?_ ?_ hc _ r i
  · intro j; rfl
  · intro j; rfl
  · intro j; exact congrFun hk77 j
  · intro j; exact congrFun hk96 j

/-- From column 11541 on it is zero. -/
theorem inp_agree_ge (Vinp : Cert.KernelIdeal.S1024x11648.Idx → EReal)
    (x0 : (⟨Cert.ReferenceIdeal.S1024x10, .f32⟩ : BufTy).Contents (Elt Ideal)) (x2 : (⟨Cert.ReferenceIdeal.S1024x750, .f32⟩ : BufTy).Contents (Elt Ideal))
    (k77 : FVec Ideal Cert.KernelIdeal.S1024x450 .f32) (k96 : FVec Ideal Cert.KernelIdeal.S1024x10331 .bf16) (z : FVec Ideal Cert.KernelIdeal.S1024x107 .bf16)
    (h : FTy.bits .bf16 < FTy.bits .f32)
    (hc : Shape.Concatenates [Cert.KernelIdeal.S1024x750, Cert.KernelIdeal.S1024x10, Cert.KernelIdeal.S1024x450, Cert.KernelIdeal.S1024x10331, Cert.KernelIdeal.S1024x107] Cert.KernelIdeal.S1024x11648 1)
    (hV : Vinp = concatenate Cert.KernelIdeal.S1024x11648 1 [⟨Cert.KernelIdeal.S1024x750, truncf (F := Ideal) (φ := .f32) .bf16 x2 h⟩, ⟨Cert.KernelIdeal.S1024x10, truncf (F := Ideal) (φ := .f32) .bf16 x0 h⟩, ⟨Cert.KernelIdeal.S1024x450, truncf (F := Ideal) (φ := .f32) .bf16 k77 h⟩, ⟨Cert.KernelIdeal.S1024x10331, k96⟩, ⟨Cert.KernelIdeal.S1024x107, z⟩] hc)
    (hz : ∀ j, z j = 0) (r : Fin 1024) (i : Fin 11648) (hi : 11541 ≤ i.val) :
    Vinp (ix2 r i) = 0 := by
  subst hV
  exact join_agree_ge hz hc r i hi

end Cert.Bridge

end
-- ==== Proof.Bridge.Consts.lean ====
/-
  The float words the two programs' host lines use, read at the ideal instance, where a float of any format is an
  extended real and a bit pattern is the extended real it denotes. The kernel writes its one-hot rows in the 16-bit
  format (ones scattered into zeros) and pads with the 16-bit zero; the reference uses the 32-bit format. The patterns
  denote the same numbers: both zeros are 0, both ones are 1. So the constant vectors, and the scalars broadcast to any
  shape, are the same functions into the extended reals.
-/
import Idealize.ShloMosaic.Lib.IdealHost

namespace Cert.Bridge

open Idealize.ShloMosaic Idealize.ShloMosaic.ValueIdx

/-! ## The words -/

/-- The 16-bit zero is 0. -/
theorem zero_bf16 : Ideal.ofBits .bf16 0x0000#16 = 0 := Ideal.ofBits_zero_bf16
/-- The 32-bit zero is 0. -/
theorem zero_f32 : Ideal.ofBits .f32 0x00000000#32 = 0 := Ideal.ofBits_zero_f32
/-- The 16-bit one is 1. -/
theorem one_bf16 : Ideal.ofBits .bf16 0x3F80#16 = 1 := Ideal.ofBits_one_bf16
/-- The 32-bit one is 1. -/
theorem one_f32 : Ideal.ofBits .f32 0x3F800000#32 = 1 := Ideal.ofBits_one_f32
/-- The two zeros are the same extended real. -/
theorem zero_bf16_eq_f32 : Ideal.ofBits .bf16 0x0000#16 = Ideal.ofBits .f32 0x00000000#32 :=
  zero_bf16.trans zero_f32.symm
/-- The two ones are the same extended real. -/
theorem one_bf16_eq_f32 : Ideal.ofBits .bf16 0x3F80#16 = Ideal.ofBits .f32 0x3F800000#32 :=
  one_bf16.trans one_f32.symm

/-! ## The constant vectors, as functions into the extended reals -/

section Vec
variable {s t : Shape}

/-- A constant vector reads its word's value at every index. -/
theorem constant_apply_ideal (φ : FTy) (b : BitVec φ.bits) (i : s.Idx) :
    constant (F := Ideal) s φ b i = Ideal.ofBits φ b := rfl

/-- The 16-bit and the 32-bit zero vectors of one shape are the same function. -/
theorem constant_zero_eq :
    (constant (F := Ideal) s .bf16 0x0000#16 : s.Idx → EReal) = constant (F := Ideal) s .f32 0x00000000#32 :=
  funext fun _ => zero_bf16_eq_f32

/-- The 16-bit and the 32-bit one vectors of one shape are the same function. -/
theorem constant_one_eq :
    (constant (F := Ideal) s .bf16 0x3F80#16 : s.Idx → EReal) = constant (F := Ideal) s .f32 0x3F800000#32 :=
  funext fun _ => one_bf16_eq_f32

/-- The 16-bit zero vector is 0 at every index; so is the 32-bit one. -/
theorem constant_zero_bf16_apply (i : s.Idx) : constant (F := Ideal) s .bf16 0x0000#16 i = 0 := zero_bf16
theorem constant_zero_f32_apply (i : s.Idx) : constant (F := Ideal) s .f32 0x00000000#32 i = 0 := zero_f32
/-- The 16-bit one vector is 1 at every index; so is the 32-bit one. -/
theorem constant_one_bf16_apply (i : s.Idx) : constant (F := Ideal) s .bf16 0x3F80#16 i = 1 := one_bf16
theorem constant_one_f32_apply (i : s.Idx) : constant (F := Ideal) s .f32 0x3F800000#32 i = 1 := one_f32

/-- A constant vector broadcast to any shape, along any axes, reads its word's value at every index. -/
theorem bcast_constant_apply (dims : Fin s.rank → Fin t.rank) (h : s.BroadcastsInDim t dims) (φ : FTy) (b : BitVec φ.bits)
    (j : t.Idx) : broadcastInDim t dims h (constant (F := Ideal) s φ b) j = Ideal.ofBits φ b := rfl

/-- THE ZERO BROADCAST: the 16-bit zero scalar broadcast to any shape is 0 at every index. -/
theorem bcast_zero_bf16_apply (h : (⟨0, ![]⟩ : Shape).BroadcastsInDim t ![]) (j : t.Idx) :
    broadcastInDim t ![] h (constant (F := Ideal) ⟨0, ![]⟩ .bf16 0x0000#16) j = 0 :=
  (bcast_constant_apply (s := ⟨0, ![]⟩) (![] : Fin 0 → Fin t.rank) h .bf16 0x0000#16 j).trans zero_bf16

/-- The 32-bit zero scalar broadcast to any shape is 0 at every index. -/
theorem bcast_zero_f32_apply (h : (⟨0, ![]⟩ : Shape).BroadcastsInDim t ![]) (j : t.Idx) :
    broadcastInDim t ![] h (constant (F := Ideal) ⟨0, ![]⟩ .f32 0x00000000#32) j = 0 :=
  (bcast_constant_apply (s := ⟨0, ![]⟩) (![] : Fin 0 → Fin t.rank) h .f32 0x00000000#32 j).trans zero_f32

/-- The 16-bit one scalar broadcast to any shape is 1 at every index; so is the 32-bit one. -/
theorem bcast_one_bf16_apply (h : (⟨0, ![]⟩ : Shape).BroadcastsInDim t ![]) (j : t.Idx) :
    broadcastInDim t ![] h (constant (F := Ideal) ⟨0, ![]⟩ .bf16 0x3F80#16) j = 1 :=
  (bcast_constant_apply (s := ⟨0, ![]⟩) (![] : Fin 0 → Fin t.rank) h .bf16 0x3F80#16 j).trans one_bf16
theorem bcast_one_f32_apply (h : (⟨0, ![]⟩ : Shape).BroadcastsInDim t ![]) (j : t.Idx) :
    broadcastInDim t ![] h (constant (F := Ideal) ⟨0, ![]⟩ .f32 0x3F800000#32) j = 1 :=
  (bcast_constant_apply (s := ⟨0, ![]⟩) (![] : Fin 0 → Fin t.rank) h .f32 0x3F800000#32 j).trans one_f32

/-- The broadcast zeros, and the broadcast ones, of the two formats are the same functions. -/
theorem bcast_zero_eq (h : (⟨0, ![]⟩ : Shape).BroadcastsInDim t ![]) :
    (broadcastInDim t ![] h (constant (F := Ideal) ⟨0, ![]⟩ .bf16 0x0000#16) : t.Idx → EReal)
      = broadcastInDim t ![] h (constant (F := Ideal) ⟨0, ![]⟩ .f32 0x00000000#32) :=
  funext fun j => (bcast_zero_bf16_apply h j).trans (bcast_zero_f32_apply h j).symm
theorem bcast_one_eq (h : (⟨0, ![]⟩ : Shape).BroadcastsInDim t ![]) :
    (broadcastInDim t ![] h (constant (F := Ideal) ⟨0, ![]⟩ .bf16 0x3F80#16) : t.Idx → EReal)
      = broadcastInDim t ![] h (constant (F := Ideal) ⟨0, ![]⟩ .f32 0x3F800000#32) :=
  funext fun j => (bcast_one_bf16_apply h j).trans (bcast_one_f32_apply h j).symm

end Vec

end Cert.Bridge
-- ==== Proof.KI.Prefix.lean ====
/- The region's first operand as the host lines before the region leave it: five blocks of columns
   side by side — the item features, the user embedding and the neighbour representation, each
   rounded to the short float format, the indicator matrix of the neighbours' classes, and 107
   columns of zeros that fill the row up to a multiple of the column block. -/
import proofs.«424952_j75608604279323_3_alg».proof.Proof.KI.Kit

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ)

set_option maxHeartbeats 2000000 in
/-- One valuation — the buffers' contents just before the line that joins the blocks — serves the joined
    array and its five operands: the lines after it write none of them. -/
theorem inp_reads (c : Dev nD) : ∃ Vb : Valuation τ sig (Elt F),
    (Fr.V m c main_v101 : (⟨S1024x11648, .bf16⟩ : BufTy).Contents (Elt F)) = concatenate S1024x11648 1 [⟨S1024x750, Vb (Proc.devRef .tc main_v97)⟩, ⟨S1024x10, Vb (Proc.devRef .tc main_v98)⟩, ⟨S1024x450, Vb (Proc.devRef .tc main_v99)⟩,
          ⟨S1024x10331, Vb (Proc.devRef .tc main_v96)⟩, ⟨S1024x107, Vb (Proc.devRef .tc main_v100)⟩]
          concatenates_S1024x750_S1024x10_S1024x450_S1024x10331_S1024x107_S1024x11648_d1
    ∧ Fr.V m c main_v97 = Vb (Proc.devRef .tc main_v97)
    ∧ Fr.V m c main_v98 = Vb (Proc.devRef .tc main_v98)
    ∧ Fr.V m c main_v99 = Vb (Proc.devRef .tc main_v99)
    ∧ Fr.V m c main_v96 = Vb (Proc.devRef .tc main_v96)
    ∧ Fr.V m c main_v100 = Vb (Proc.devRef .tc main_v100) := by
  dsimp only [Fr.V, Fr.V0, Fr.preOps]
  simp only [List.flatten_cons, List.flatten_nil, StableHlo.after_append, StableHlo.after_nil]
  generalize StableHlo.after (hostOps0_8 (F := F)) _ = W0
  simp only [hostOps0_9, after_cons, after_nil]
  generalize (StableHlo.unary main_cst_32 main_v100 _ _ _).result _ = Vb
  refine ⟨Vb, ?_, ?_, ?_, ?_, ?_, ?_⟩
  · after_results_simp
    rfl
  all_goals after_results_simp

/-- The operand is the five blocks side by side. -/
theorem V_main_v101 (c : Dev nD) :
    (Fr.V m c main_v101 : (⟨S1024x11648, .bf16⟩ : BufTy).Contents (Elt F)) = concatenate S1024x11648 1 [⟨S1024x750, Fr.V m c main_v97⟩, ⟨S1024x10, Fr.V m c main_v98⟩, ⟨S1024x450, Fr.V m c main_v99⟩,
          ⟨S1024x10331, Fr.V m c main_v96⟩, ⟨S1024x107, Fr.V m c main_v100⟩]
          concatenates_S1024x750_S1024x10_S1024x450_S1024x10331_S1024x107_S1024x11648_d1 := by
  obtain ⟨Vb, h101, h97, h98, h99, h96, h100⟩ := inp_reads m c
  rw [h101, h97, h98, h99, h96, h100]

set_option maxHeartbeats 2000000 in
/-- One valuation — the contents just before the first of the four lines that make the blocks — serves
    those four lines' results and what they read. -/
theorem block_reads (c : Dev nD) : ∃ Vc : Valuation τ sig (Elt F),
    (Fr.V m c main_v97 : (⟨S1024x750, .bf16⟩ : BufTy).Contents (Elt F)) = truncf .bf16 (Vc (Proc.devRef .tc main_arg2) : (⟨S1024x750, .f32⟩ : BufTy).Contents (Elt F)) bitsLt_bf16_f32
    ∧ (Fr.V m c main_v98 : (⟨S1024x10, .bf16⟩ : BufTy).Contents (Elt F)) = truncf .bf16 (Vc (Proc.devRef .tc main_arg0) : (⟨S1024x10, .f32⟩ : BufTy).Contents (Elt F)) bitsLt_bf16_f32
    ∧ (Fr.V m c main_v99 : (⟨S1024x450, .bf16⟩ : BufTy).Contents (Elt F)) = truncf .bf16 (Vc (Proc.devRef .tc main_v77) : (⟨S1024x450, .f32⟩ : BufTy).Contents (Elt F)) bitsLt_bf16_f32
    ∧ (Fr.V m c main_v100 : (⟨S1024x107, .bf16⟩ : BufTy).Contents (Elt F)) = broadcastInDim S1024x107 ![] bcast_S_S1024x107 (constant (F := F) S_ .bf16 0x0000#16)
    ∧ Fr.V m c main_arg2 = Vc (Proc.devRef .tc main_arg2)
    ∧ Fr.V m c main_arg0 = Vc (Proc.devRef .tc main_arg0)
    ∧ Fr.V m c main_v77 = Vc (Proc.devRef .tc main_v77) := by
  dsimp only [Fr.V, Fr.V0, Fr.preOps]
  simp only [List.flatten_cons, List.flatten_nil, StableHlo.after_append, StableHlo.after_nil]
  generalize StableHlo.after (hostOps0_8 (F := F)) _ = W0
  simp only [hostOps0_9, after_cons, after_nil]
  generalize (StableHlo.ternary main_v80 main_v94 main_v95 main_v96 _ _ _ _ _).result _ = Vc
  refine ⟨Vc, ?_, ?_, ?_, ?_, ?_, ?_, ?_⟩
  all_goals after_results_simp
  all_goals rfl

/-- The first block: the item features rounded to the short float format. -/
theorem V_main_v97 (c : Dev nD) :
    (Fr.V m c main_v97 : (⟨S1024x750, .bf16⟩ : BufTy).Contents (Elt F))
      = truncf .bf16 (m ((c : Thread nD τ).loc main_arg2) : (⟨S1024x750, .f32⟩ : BufTy).Contents (Elt F)) bitsLt_bf16_f32 := by
  obtain ⟨Vc, h97, _, _, _, ha2, _, _⟩ := block_reads m c
  rw [h97, ← ha2, Fr.V_main_arg2]

/-- The second block: the user embedding rounded to the short float format. -/
theorem V_main_v98 (c : Dev nD) :
    (Fr.V m c main_v98 : (⟨S1024x10, .bf16⟩ : BufTy).Contents (Elt F))
      = truncf .bf16 (m ((c : Thread nD τ).loc main_arg0) : (⟨S1024x10, .f32⟩ : BufTy).Contents (Elt F)) bitsLt_bf16_f32 := by
  obtain ⟨Vc, _, h98, _, _, _, ha0, _⟩ := block_reads m c
  rw [h98, ← ha0, Fr.V_main_arg0]

/-- The third block: the neighbour representation rounded to the short float format. -/
theorem V_main_v99 (c : Dev nD) :
    (Fr.V m c main_v99 : (⟨S1024x450, .bf16⟩ : BufTy).Contents (Elt F))
      = truncf .bf16 (Fr.V m c main_v77 : (⟨S1024x450, .f32⟩ : BufTy).Contents (Elt F)) bitsLt_bf16_f32 := by
  obtain ⟨Vc, _, _, h99, _, _, _, h77⟩ := block_reads m c
  rw [h99, ← h77]

/-- The fifth block: zeros. -/
theorem V_main_v100 (c : Dev nD) :
    (Fr.V m c main_v100 : (⟨S1024x107, .bf16⟩ : BufTy).Contents (Elt F))
      = broadcastInDim S1024x107 ![] bcast_S_S1024x107 (constant (F := F) S_ .bf16 0x0000#16) := by
  obtain ⟨Vc, _, _, _, h100, _, _, _⟩ := block_reads m c
  exact h100

/-- The operand with its first three blocks spelt out: the item features, the user embedding and the
    neighbour representation rounded, then the indicator matrix and the zero columns. -/
theorem V_main_v101_blocks (c : Dev nD) :
    (Fr.V m c main_v101 : (⟨S1024x11648, .bf16⟩ : BufTy).Contents (Elt F))
      = concatenate S1024x11648 1 [⟨S1024x750, truncf .bf16 (m ((c : Thread nD τ).loc main_arg2) : (⟨S1024x750, .f32⟩ : BufTy).Contents (Elt F)) bitsLt_bf16_f32⟩,
          ⟨S1024x10, truncf .bf16 (m ((c : Thread nD τ).loc main_arg0) : (⟨S1024x10, .f32⟩ : BufTy).Contents (Elt F)) bitsLt_bf16_f32⟩,
          ⟨S1024x450, truncf .bf16 (Fr.V m c main_v77 : (⟨S1024x450, .f32⟩ : BufTy).Contents (Elt F)) bitsLt_bf16_f32⟩,
          ⟨S1024x10331, Fr.V m c main_v96⟩, ⟨S1024x107, Fr.V m c main_v100⟩]
          concatenates_S1024x750_S1024x10_S1024x450_S1024x10331_S1024x107_S1024x11648_d1 := by
  rw [V_main_v101, V_main_v97, V_main_v98, V_main_v99]

end Cert.KernelIdeal.Host

end
-- ==== Proof.KI.PrefixShared.lean ====
/- The host lines that the region's program and the reference program share. Before the region the program forms,
   on the host, the reshaped neighbour representation [1024, 450] and the one-hot array [1024, 10331]; the reference
   program forms the same two arrays by the same operations on the same argument arrays (the neighbour positions, the
   neighbour indices, the embedding table). Read stretch by stretch, each buffer a later stretch still needs holds the
   reference's composed value; the one-hot array differs only in the width of its zero and one words, which denote 0
   and 1 at the extended reals in either width. -/
import proofs.«424952_j75608604279323_3_alg».proof.Proof.KI.Kit
import proofs.«424952_j75608604279323_3_alg».proof.Proof.Ref.Read
import Idealize.ShloMosaic.Lib.StableHlo.Run
import Idealize.ShloMosaic.Lib.Pipeline.Value
import Idealize.ShloMosaic.Lib.IdealHost
import Idealize.ShloMosaic.Lib.Tactic

set_option maxRecDepth 16384

noncomputable section

namespace Cert.KernelIdeal.Host

/-! ## A joined array of five operands -/

section five

open Idealize.ShloMosaic Idealize.ShloMosaic.StableHlo

variable {τ₀ : Topo} {σ : RefSig} {Val : EltTy → Type}

/-- An operation over a LITERAL family of five operand buffers leaves, in its result buffer, its function of the five
    operands' contents, each read at its own buffer. -/
theorem nary5_result' {x a b c e y : Ref σ .tc}
    (f : ((k : Fin 5) → ((![x, a, b, c, e] : Fin 5 → Ref σ .tc) k).ty.Contents Val) → y.ty.Contents Val) (hxs hy)
    (G : Valuation τ₀ σ Val) :
    (nary (τ := τ₀) ![x, a, b, c, e] y f hxs hy).result G (no_index (Proc.devRef .tc y))
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) := by
  rw [nary_result]; congr 1; funext k; fin_cases k <;> rfl

end five

open Cert.KernelIdeal Cert.KernelIdeal.Gen Cert.KernelIdeal.Fr
open Idealize.ShloMosaic Idealize.ShloMosaic.TcCoe Idealize.ShloMosaic.Tactic Idealize.SL.Sem
open Idealize.ShloMosaic.StableHlo

open Cert.KernelIdeal Cert.KernelIdeal.Gen Cert.KernelIdeal.Fr
open Idealize.ShloMosaic Idealize.ShloMosaic.TcCoe Idealize.ShloMosaic.Tactic Idealize.SL.Sem
open Idealize.ShloMosaic.StableHlo

/-! ## The host lines before the region, stretch by stretch

The last long stretch is cut before each of its two joins of computed arrays, so that each join is read once, over an
arbitrary valuation, and the stretches around it are plain compositions. -/

section stages

variable {F : FTy → Type} [FloatOps F]

/-- The array the one-hot scatter starts from: 1024 x 10331 copies of the 16-bit zero word. -/
abbrev zerosK : (⟨S1024x10331, .bf16⟩ : BufTy).Contents (Elt F) := broadcastInDim S1024x10331 ![] bcast_S_S1024x10331 (constant S_ .bf16 0x0000#16)
/-- The values it scatters: 1024 x 30 copies of the 16-bit word of one. -/
abbrev onesK : (⟨S1024x30, .bf16⟩ : BufTy).Contents (Elt F) := broadcastInDim S1024x30 ![] bcast_S_S1024x30 (constant S_ .bf16 0x3F80#16)

/-- The tenth stretch is its first 25 lines, the three lines that join the neighbour representation, the next 21, the
    line that joins the scatter's index array, and the rest. -/
theorem split9 : (hostOps0_9 (F := F)) = (hostOps0_9 (F := F)).take 25 ++ (((hostOps0_9 (F := F)).drop 25).take 3 ++ (((hostOps0_9 (F := F)).drop 28).take 21 ++ (((hostOps0_9 (F := F)).drop 49).take 1 ++ (hostOps0_9 (F := F)).drop 50))) := by
  rfl

set_option maxHeartbeats 1000000 in
/-- The three joining lines, over any contents: the reshape of the join of the gathered rows with the join of the five
    derived columns. -/
theorem cat77 (G : Valuation τ sig (Elt F)) (a6 : (⟨S1024x30x10, .f32⟩ : BufTy).Contents (Elt F))
    (a70 a71 a72 a73 a74 : (⟨S1024x30x1, .f32⟩ : BufTy).Contents (Elt F))
    (h6 : G (Proc.devRef .tc main_v6) = a6) (h70 : G (Proc.devRef .tc main_v70) = a70)
    (h71 : G (Proc.devRef .tc main_v71) = a71) (h72 : G (Proc.devRef .tc main_v72) = a72)
    (h73 : G (Proc.devRef .tc main_v73) = a73) (h74 : G (Proc.devRef .tc main_v74) = a74) :
    after (((hostOps0_9 (F := F)).drop 25).take 3) G (Proc.devRef .tc main_v77)
      = shapeCast S1024x450 (concatenate S1024x30x15 2 [⟨S1024x30x10, a6⟩, ⟨S1024x30x5,
          concatenate S1024x30x5 2 [⟨S1024x30x1, a70⟩, ⟨S1024x30x1, a71⟩, ⟨S1024x30x1, a72⟩, ⟨S1024x30x1, a73⟩, ⟨S1024x30x1, a74⟩]
            concatenates_S1024x30x1_S1024x30x1_S1024x30x1_S1024x30x1_S1024x30x1_S1024x30x5_d2⟩]
          concatenates_S1024x30x10_S1024x30x5_S1024x30x15_d2) shapeCasts_S1024x30x15_S1024x450 := by
  subst h6 h70 h71 h72 h73 h74
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  rfl

set_option maxHeartbeats 1000000 in
/-- The line that joins the scatter's index array, over any contents. -/
theorem cat94 (G : Valuation τ sig (Elt F)) (a92 a93 : (⟨S1024x30x1, .i32⟩ : BufTy).Contents (Elt F))
    (h92 : G (Proc.devRef .tc main_v92) = a92) (h93 : G (Proc.devRef .tc main_v93) = a93) :
    after (((hostOps0_9 (F := F)).drop 49).take 1) G (Proc.devRef .tc main_v94)
      = concatenate S1024x30x2 2 [⟨S1024x30x1, a92⟩, ⟨S1024x30x1, a93⟩] concatenates_S1024x30x1_S1024x30x1_S1024x30x2_d2 := by
  subst h92 h93
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']

variable (m : (ℓ : Loc nD τ sig) → Buf (Elt F) ℓ)

/-- The buffers' contents after the first stretch of host lines, then after each further stretch (the tenth in five
    parts). -/
def W0 (c : Dev nD) : Valuation τ sig (Elt F) := after hostOps0 (fun b => m (c, b))
def W1 (c : Dev nD) : Valuation τ sig (Elt F) := after hostOps0_1 (W0 m c)
def W2 (c : Dev nD) : Valuation τ sig (Elt F) := after hostOps0_2 (W1 m c)
def W3 (c : Dev nD) : Valuation τ sig (Elt F) := after hostOps0_3 (W2 m c)
def W4 (c : Dev nD) : Valuation τ sig (Elt F) := after hostOps0_4 (W3 m c)
def W5 (c : Dev nD) : Valuation τ sig (Elt F) := after hostOps0_5 (W4 m c)
def W6 (c : Dev nD) : Valuation τ sig (Elt F) := after hostOps0_6 (W5 m c)
def W7 (c : Dev nD) : Valuation τ sig (Elt F) := after hostOps0_7 (W6 m c)
def W8 (c : Dev nD) : Valuation τ sig (Elt F) := after hostOps0_8 (W7 m c)
def W9a (c : Dev nD) : Valuation τ sig (Elt F) := after ((hostOps0_9 (F := F)).take 25) (W8 m c)
def W9b (c : Dev nD) : Valuation τ sig (Elt F) := after (((hostOps0_9 (F := F)).drop 25).take 3) (W9a m c)
def W9c (c : Dev nD) : Valuation τ sig (Elt F) := after (((hostOps0_9 (F := F)).drop 28).take 21) (W9b m c)
def W9d (c : Dev nD) : Valuation τ sig (Elt F) := after (((hostOps0_9 (F := F)).drop 49).take 1) (W9c m c)
def W9 (c : Dev nD) : Valuation τ sig (Elt F) := after ((hostOps0_9 (F := F)).drop 50) (W9d m c)

/-- The region-entry contents are the contents after the tenth stretch followed by the four stretches left (the two
    paddings and the reshape of the bias). -/
theorem V0_eq (c : Dev nD) :
    Fr.V0 m c = after hostOps0_13 (after hostOps0_12 (after hostOps0_11 (after hostOps0_10 (W9 m c)))) := by
  have h9 : ∀ G : Valuation τ sig (Elt F), after (hostOps0_9 (F := F)) G
      = after ((hostOps0_9 (F := F)).drop 50) (after (((hostOps0_9 (F := F)).drop 49).take 1) (after (((hostOps0_9 (F := F)).drop 28).take 21)
          (after (((hostOps0_9 (F := F)).drop 25).take 3) (after ((hostOps0_9 (F := F)).take 25) G)))) := fun G => by
    conv_lhs => rw [split9]
    simp only [StableHlo.after_append]
  unfold W9 W9d W9c W9b W9a W8 W7 W6 W5 W4 W3 W2 W1 W0
  dsimp only [Fr.V0, Fr.preOps]
  simp only [List.flatten_cons, List.flatten_nil, List.append_nil, StableHlo.after_append]
  rw [h9]

/-! ### Stage 0 -/
set_option maxHeartbeats 1000000 in
/-- What this stage leaves in `main_v6`, from what the stage before left. -/
theorem W0_v6 (c : Dev nD) : W0 m c (Proc.devRef .tc main_v6) = Cert.ReferenceIdeal.Read.val_main_v6 (F := F) (m ((c : Thread nD τ).loc main_arg1)) (m ((c : Thread nD τ).loc main_arg4)) := by
  show after hostOps0 (fun b => m (c, b)) (Proc.devRef .tc main_v6) = _
  simp only [hostOps0]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_v8`, from what the stage before left. -/
theorem W0_v8 (c : Dev nD) : W0 m c (Proc.devRef .tc main_v8) = Cert.ReferenceIdeal.Read.val_main_v8 (F := F) (m ((c : Thread nD τ).loc main_arg0)) := by
  show after hostOps0 (fun b => m (c, b)) (Proc.devRef .tc main_v8) = _
  simp only [hostOps0]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_cst_2`, from what the stage before left. -/
theorem W0_cst_2 (c : Dev nD) : W0 m c (Proc.devRef .tc main_cst_2) = Cert.ReferenceIdeal.Read.val_main_cst_2 (F := F) := by
  show after hostOps0 (fun b => m (c, b)) (Proc.devRef .tc main_cst_2) = _
  simp only [hostOps0]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_cst_1`, from what the stage before left. -/
theorem W0_cst_1 (c : Dev nD) : W0 m c (Proc.devRef .tc main_cst_1) = Cert.ReferenceIdeal.Read.val_main_cst_1 (F := F) := by
  show after hostOps0 (fun b => m (c, b)) (Proc.devRef .tc main_cst_1) = _
  simp only [hostOps0]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_v10`, from what the stage before left. -/
theorem W0_v10 (c : Dev nD) : W0 m c (Proc.devRef .tc main_v10) = Cert.ReferenceIdeal.Read.val_main_v10 (F := F) (m ((c : Thread nD τ).loc main_arg0)) := by
  show after hostOps0 (fun b => m (c, b)) (Proc.devRef .tc main_v10) = _
  simp only [hostOps0]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- This stage does not write `main_arg1`. -/
theorem W0_arg1 (c : Dev nD) : W0 m c (Proc.devRef .tc main_arg1) = m ((c : Thread nD τ).loc main_arg1) := by
  show after hostOps0 (fun b => m (c, b)) (Proc.devRef .tc main_arg1) = _
  simp only [hostOps0]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl

/-! ### Stage 1 -/
set_option maxHeartbeats 1000000 in
/-- This stage does not write `main_v6`. -/
theorem W1_v6 (c : Dev nD) : W1 m c (Proc.devRef .tc main_v6) = Cert.ReferenceIdeal.Read.val_main_v6 (F := F) (m ((c : Thread nD τ).loc main_arg1)) (m ((c : Thread nD τ).loc main_arg4)) := by
  show after hostOps0_1 (W0 m c) (Proc.devRef .tc main_v6) = _
  simp only [hostOps0_1]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W0_v6 m c]
  try rfl
set_option maxHeartbeats 1000000 in
/-- This stage does not write `main_v8`. -/
theorem W1_v8 (c : Dev nD) : W1 m c (Proc.devRef .tc main_v8) = Cert.ReferenceIdeal.Read.val_main_v8 (F := F) (m ((c : Thread nD τ).loc main_arg0)) := by
  show after hostOps0_1 (W0 m c) (Proc.devRef .tc main_v8) = _
  simp only [hostOps0_1]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W0_v8 m c]
  try rfl
set_option maxHeartbeats 1000000 in
/-- What this stage leaves in `main_v11`, from what the stage before left. -/
theorem W1_v11 (c : Dev nD) : W1 m c (Proc.devRef .tc main_v11) = Cert.ReferenceIdeal.Read.val_main_v11 (F := F) (m ((c : Thread nD τ).loc main_arg0)) := by
  show after hostOps0_1 (W0 m c) (Proc.devRef .tc main_v11) = _
  simp only [hostOps0_1]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W0_cst_2 m c, W0_cst_1 m c, W0_v10 m c]
  try rfl
set_option maxHeartbeats 1000000 in
/-- This stage does not write `main_arg1`. -/
theorem W1_arg1 (c : Dev nD) : W1 m c (Proc.devRef .tc main_arg1) = m ((c : Thread nD τ).loc main_arg1) := by
  show after hostOps0_1 (W0 m c) (Proc.devRef .tc main_arg1) = _
  simp only [hostOps0_1]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W0_arg1 m c]
  try rfl

/-! ### Stage 2 -/
set_option maxHeartbeats 1000000 in
/-- This stage does not write `main_v6`. -/
theorem W2_v6 (c : Dev nD) : W2 m c (Proc.devRef .tc main_v6) = Cert.ReferenceIdeal.Read.val_main_v6 (F := F) (m ((c : Thread nD τ).loc main_arg1)) (m ((c : Thread nD τ).loc main_arg4)) := by
  show after hostOps0_2 (W1 m c) (Proc.devRef .tc main_v6) = _
  simp only [hostOps0_2]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W1_v6 m c]
  try rfl
set_option maxHeartbeats 1000000 in
/-- This stage does not write `main_v8`. -/
theorem W2_v8 (c : Dev nD) : W2 m c (Proc.devRef .tc main_v8) = Cert.ReferenceIdeal.Read.val_main_v8 (F := F) (m ((c : Thread nD τ).loc main_arg0)) := by
  show after hostOps0_2 (W1 m c) (Proc.devRef .tc main_v8) = _
  simp only [hostOps0_2]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W1_v8 m c]
  try rfl
set_option maxHeartbeats 1000000 in
/-- This stage does not write `main_v11`. -/
theorem W2_v11 (c : Dev nD) : W2 m c (Proc.devRef .tc main_v11) = Cert.ReferenceIdeal.Read.val_main_v11 (F := F) (m ((c : Thread nD τ).loc main_arg0)) := by
  show after hostOps0_2 (W1 m c) (Proc.devRef .tc main_v11) = _
  simp only [hostOps0_2]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W1_v11 m c]
  try rfl
set_option maxHeartbeats 1000000 in
/-- What this stage leaves in `main_cst_5`, from what the stage before left. -/
theorem W2_cst_5 (c : Dev nD) : W2 m c (Proc.devRef .tc main_cst_5) = Cert.ReferenceIdeal.Read.val_main_cst_5 (F := F) := by
  show after hostOps0_2 (W1 m c) (Proc.devRef .tc main_cst_5) = _
  simp only [hostOps0_2]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_cst_4`, from what the stage before left. -/
theorem W2_cst_4 (c : Dev nD) : W2 m c (Proc.devRef .tc main_cst_4) = Cert.ReferenceIdeal.Read.val_main_cst_4 (F := F) := by
  show after hostOps0_2 (W1 m c) (Proc.devRef .tc main_cst_4) = _
  simp only [hostOps0_2]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_v13`, from what the stage before left. -/
theorem W2_v13 (c : Dev nD) : W2 m c (Proc.devRef .tc main_v13) = Cert.ReferenceIdeal.Read.val_main_v13 (F := F) (m ((c : Thread nD τ).loc main_arg1)) (m ((c : Thread nD τ).loc main_arg4)) := by
  show after hostOps0_2 (W1 m c) (Proc.devRef .tc main_v13) = _
  simp only [hostOps0_2]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W1_v6 m c]
  try rfl
set_option maxHeartbeats 1000000 in
/-- This stage does not write `main_arg1`. -/
theorem W2_arg1 (c : Dev nD) : W2 m c (Proc.devRef .tc main_arg1) = m ((c : Thread nD τ).loc main_arg1) := by
  show after hostOps0_2 (W1 m c) (Proc.devRef .tc main_arg1) = _
  simp only [hostOps0_2]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W1_arg1 m c]
  try rfl

/-! ### Stage 3 -/
set_option maxHeartbeats 1000000 in
/-- This stage does not write `main_v6`. -/
theorem W3_v6 (c : Dev nD) : W3 m c (Proc.devRef .tc main_v6) = Cert.ReferenceIdeal.Read.val_main_v6 (F := F) (m ((c : Thread nD τ).loc main_arg1)) (m ((c : Thread nD τ).loc main_arg4)) := by
  show after hostOps0_3 (W2 m c) (Proc.devRef .tc main_v6) = _
  simp only [hostOps0_3]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W2_v6 m c]
  try rfl
set_option maxHeartbeats 1000000 in
/-- This stage does not write `main_v8`. -/
theorem W3_v8 (c : Dev nD) : W3 m c (Proc.devRef .tc main_v8) = Cert.ReferenceIdeal.Read.val_main_v8 (F := F) (m ((c : Thread nD τ).loc main_arg0)) := by
  show after hostOps0_3 (W2 m c) (Proc.devRef .tc main_v8) = _
  simp only [hostOps0_3]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W2_v8 m c]
  try rfl
set_option maxHeartbeats 1000000 in
/-- This stage does not write `main_v11`. -/
theorem W3_v11 (c : Dev nD) : W3 m c (Proc.devRef .tc main_v11) = Cert.ReferenceIdeal.Read.val_main_v11 (F := F) (m ((c : Thread nD τ).loc main_arg0)) := by
  show after hostOps0_3 (W2 m c) (Proc.devRef .tc main_v11) = _
  simp only [hostOps0_3]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W2_v11 m c]
  try rfl
set_option maxHeartbeats 1000000 in
/-- What this stage leaves in `main_v14`, from what the stage before left. -/
theorem W3_v14 (c : Dev nD) : W3 m c (Proc.devRef .tc main_v14) = Cert.ReferenceIdeal.Read.val_main_v14 (F := F) (m ((c : Thread nD τ).loc main_arg1)) (m ((c : Thread nD τ).loc main_arg4)) := by
  show after hostOps0_3 (W2 m c) (Proc.devRef .tc main_v14) = _
  simp only [hostOps0_3]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W2_cst_5 m c, W2_cst_4 m c, W2_v13 m c]
  try rfl
set_option maxHeartbeats 1000000 in
/-- This stage does not write `main_arg1`. -/
theorem W3_arg1 (c : Dev nD) : W3 m c (Proc.devRef .tc main_arg1) = m ((c : Thread nD τ).loc main_arg1) := by
  show after hostOps0_3 (W2 m c) (Proc.devRef .tc main_arg1) = _
  simp only [hostOps0_3]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W2_arg1 m c]
  try rfl

/-! ### Stage 4 -/
set_option maxHeartbeats 1000000 in
/-- This stage does not write `main_v6`. -/
theorem W4_v6 (c : Dev nD) : W4 m c (Proc.devRef .tc main_v6) = Cert.ReferenceIdeal.Read.val_main_v6 (F := F) (m ((c : Thread nD τ).loc main_arg1)) (m ((c : Thread nD τ).loc main_arg4)) := by
  show after hostOps0_4 (W3 m c) (Proc.devRef .tc main_v6) = _
  simp only [hostOps0_4]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W3_v6 m c]
  try rfl
set_option maxHeartbeats 1000000 in
/-- What this stage leaves in `main_v35`, from what the stage before left. -/
theorem W4_v35 (c : Dev nD) : W4 m c (Proc.devRef .tc main_v35) = Cert.ReferenceIdeal.Read.val_main_v35 (F := F) (m ((c : Thread nD τ).loc main_arg0)) (m ((c : Thread nD τ).loc main_arg1)) (m ((c : Thread nD τ).loc main_arg4)) := by
  show after hostOps0_4 (W3 m c) (Proc.devRef .tc main_v35) = _
  simp only [hostOps0_4]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W3_v8 m c, W3_v6 m c, W3_v11 m c, W3_v14 m c]
  try rfl
set_option maxHeartbeats 1000000 in
/-- What this stage leaves in `main_v37`, from what the stage before left. -/
theorem W4_v37 (c : Dev nD) : W4 m c (Proc.devRef .tc main_v37) = Cert.ReferenceIdeal.Read.val_main_v37 (F := F) (m ((c : Thread nD τ).loc main_arg0)) (m ((c : Thread nD τ).loc main_arg1)) (m ((c : Thread nD τ).loc main_arg4)) := by
  show after hostOps0_4 (W3 m c) (Proc.devRef .tc main_v37) = _
  simp only [hostOps0_4]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W3_v8 m c, W3_v6 m c]
  try rfl
set_option maxHeartbeats 1000000 in
/-- This stage does not write `main_v8`. -/
theorem W4_v8 (c : Dev nD) : W4 m c (Proc.devRef .tc main_v8) = Cert.ReferenceIdeal.Read.val_main_v8 (F := F) (m ((c : Thread nD τ).loc main_arg0)) := by
  show after hostOps0_4 (W3 m c) (Proc.devRef .tc main_v8) = _
  simp only [hostOps0_4]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W3_v8 m c]
  try rfl
set_option maxHeartbeats 1000000 in
/-- This stage does not write `main_arg1`. -/
theorem W4_arg1 (c : Dev nD) : W4 m c (Proc.devRef .tc main_arg1) = m ((c : Thread nD τ).loc main_arg1) := by
  show after hostOps0_4 (W3 m c) (Proc.devRef .tc main_arg1) = _
  simp only [hostOps0_4]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W3_arg1 m c]
  try rfl

/-! ### Stage 5 -/
set_option maxHeartbeats 1000000 in
/-- This stage does not write `main_v6`. -/
theorem W5_v6 (c : Dev nD) : W5 m c (Proc.devRef .tc main_v6) = Cert.ReferenceIdeal.Read.val_main_v6 (F := F) (m ((c : Thread nD τ).loc main_arg1)) (m ((c : Thread nD τ).loc main_arg4)) := by
  show after hostOps0_5 (W4 m c) (Proc.devRef .tc main_v6) = _
  simp only [hostOps0_5]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W4_v6 m c]
  try rfl
set_option maxHeartbeats 1000000 in
/-- This stage does not write `main_v35`. -/
theorem W5_v35 (c : Dev nD) : W5 m c (Proc.devRef .tc main_v35) = Cert.ReferenceIdeal.Read.val_main_v35 (F := F) (m ((c : Thread nD τ).loc main_arg0)) (m ((c : Thread nD τ).loc main_arg1)) (m ((c : Thread nD τ).loc main_arg4)) := by
  show after hostOps0_5 (W4 m c) (Proc.devRef .tc main_v35) = _
  simp only [hostOps0_5]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W4_v35 m c]
  try rfl
set_option maxHeartbeats 1000000 in
/-- This stage does not write `main_v37`. -/
theorem W5_v37 (c : Dev nD) : W5 m c (Proc.devRef .tc main_v37) = Cert.ReferenceIdeal.Read.val_main_v37 (F := F) (m ((c : Thread nD τ).loc main_arg0)) (m ((c : Thread nD τ).loc main_arg1)) (m ((c : Thread nD τ).loc main_arg4)) := by
  show after hostOps0_5 (W4 m c) (Proc.devRef .tc main_v37) = _
  simp only [hostOps0_5]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W4_v37 m c]
  try rfl
set_option maxHeartbeats 1000000 in
/-- What this stage leaves in `main_v38`, from what the stage before left. -/
theorem W5_v38 (c : Dev nD) : W5 m c (Proc.devRef .tc main_v38) = Cert.ReferenceIdeal.Read.val_main_v38 (F := F) (m ((c : Thread nD τ).loc main_arg0)) := by
  show after hostOps0_5 (W4 m c) (Proc.devRef .tc main_v38) = _
  simp only [hostOps0_5]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W4_v8 m c]
  try rfl
set_option maxHeartbeats 1000000 in
/-- This stage does not write `main_v8`. -/
theorem W5_v8 (c : Dev nD) : W5 m c (Proc.devRef .tc main_v8) = Cert.ReferenceIdeal.Read.val_main_v8 (F := F) (m ((c : Thread nD τ).loc main_arg0)) := by
  show after hostOps0_5 (W4 m c) (Proc.devRef .tc main_v8) = _
  simp only [hostOps0_5]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W4_v8 m c]
  try rfl
set_option maxHeartbeats 1000000 in
/-- This stage does not write `main_arg1`. -/
theorem W5_arg1 (c : Dev nD) : W5 m c (Proc.devRef .tc main_arg1) = m ((c : Thread nD τ).loc main_arg1) := by
  show after hostOps0_5 (W4 m c) (Proc.devRef .tc main_arg1) = _
  simp only [hostOps0_5]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W4_arg1 m c]
  try rfl

/-! ### Stage 6 -/
set_option maxHeartbeats 1000000 in
/-- This stage does not write `main_v6`. -/
theorem W6_v6 (c : Dev nD) : W6 m c (Proc.devRef .tc main_v6) = Cert.ReferenceIdeal.Read.val_main_v6 (F := F) (m ((c : Thread nD τ).loc main_arg1)) (m ((c : Thread nD τ).loc main_arg4)) := by
  show after hostOps0_6 (W5 m c) (Proc.devRef .tc main_v6) = _
  simp only [hostOps0_6]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W5_v6 m c]
  try rfl
set_option maxHeartbeats 1000000 in
/-- This stage does not write `main_v35`. -/
theorem W6_v35 (c : Dev nD) : W6 m c (Proc.devRef .tc main_v35) = Cert.ReferenceIdeal.Read.val_main_v35 (F := F) (m ((c : Thread nD τ).loc main_arg0)) (m ((c : Thread nD τ).loc main_arg1)) (m ((c : Thread nD τ).loc main_arg4)) := by
  show after hostOps0_6 (W5 m c) (Proc.devRef .tc main_v35) = _
  simp only [hostOps0_6]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W5_v35 m c]
  try rfl
set_option maxHeartbeats 1000000 in
/-- This stage does not write `main_v37`. -/
theorem W6_v37 (c : Dev nD) : W6 m c (Proc.devRef .tc main_v37) = Cert.ReferenceIdeal.Read.val_main_v37 (F := F) (m ((c : Thread nD τ).loc main_arg0)) (m ((c : Thread nD τ).loc main_arg1)) (m ((c : Thread nD τ).loc main_arg4)) := by
  show after hostOps0_6 (W5 m c) (Proc.devRef .tc main_v37) = _
  simp only [hostOps0_6]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W5_v37 m c]
  try rfl
set_option maxHeartbeats 1000000 in
/-- This stage does not write `main_v38`. -/
theorem W6_v38 (c : Dev nD) : W6 m c (Proc.devRef .tc main_v38) = Cert.ReferenceIdeal.Read.val_main_v38 (F := F) (m ((c : Thread nD τ).loc main_arg0)) := by
  show after hostOps0_6 (W5 m c) (Proc.devRef .tc main_v38) = _
  simp only [hostOps0_6]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W5_v38 m c]
  try rfl
set_option maxHeartbeats 1000000 in
/-- What this stage leaves in `main_v39`, from what the stage before left. -/
theorem W6_v39 (c : Dev nD) : W6 m c (Proc.devRef .tc main_v39) = Cert.ReferenceIdeal.Read.val_main_v39 (F := F) (m ((c : Thread nD τ).loc main_arg1)) (m ((c : Thread nD τ).loc main_arg4)) := by
  show after hostOps0_6 (W5 m c) (Proc.devRef .tc main_v39) = _
  simp only [hostOps0_6]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W5_v6 m c]
  try rfl
set_option maxHeartbeats 1000000 in
/-- This stage does not write `main_v8`. -/
theorem W6_v8 (c : Dev nD) : W6 m c (Proc.devRef .tc main_v8) = Cert.ReferenceIdeal.Read.val_main_v8 (F := F) (m ((c : Thread nD τ).loc main_arg0)) := by
  show after hostOps0_6 (W5 m c) (Proc.devRef .tc main_v8) = _
  simp only [hostOps0_6]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W5_v8 m c]
  try rfl
set_option maxHeartbeats 1000000 in
/-- This stage does not write `main_arg1`. -/
theorem W6_arg1 (c : Dev nD) : W6 m c (Proc.devRef .tc main_arg1) = m ((c : Thread nD τ).loc main_arg1) := by
  show after hostOps0_6 (W5 m c) (Proc.devRef .tc main_arg1) = _
  simp only [hostOps0_6]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W5_arg1 m c]
  try rfl

/-! ### Stage 7 -/
set_option maxHeartbeats 1000000 in
/-- This stage does not write `main_v6`. -/
theorem W7_v6 (c : Dev nD) : W7 m c (Proc.devRef .tc main_v6) = Cert.ReferenceIdeal.Read.val_main_v6 (F := F) (m ((c : Thread nD τ).loc main_arg1)) (m ((c : Thread nD τ).loc main_arg4)) := by
  show after hostOps0_7 (W6 m c) (Proc.devRef .tc main_v6) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W6_v6 m c]
  try rfl
set_option maxHeartbeats 1000000 in
/-- This stage does not write `main_v35`. -/
theorem W7_v35 (c : Dev nD) : W7 m c (Proc.devRef .tc main_v35) = Cert.ReferenceIdeal.Read.val_main_v35 (F := F) (m ((c : Thread nD τ).loc main_arg0)) (m ((c : Thread nD τ).loc main_arg1)) (m ((c : Thread nD τ).loc main_arg4)) := by
  show after hostOps0_7 (W6 m c) (Proc.devRef .tc main_v35) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W6_v35 m c]
  try rfl
set_option maxHeartbeats 1000000 in
/-- What this stage leaves in `main_v45`, from what the stage before left. -/
theorem W7_v45 (c : Dev nD) : W7 m c (Proc.devRef .tc main_v45) = Cert.ReferenceIdeal.Read.val_main_v45 (F := F) (m ((c : Thread nD τ).loc main_arg0)) (m ((c : Thread nD τ).loc main_arg1)) (m ((c : Thread nD τ).loc main_arg4)) := by
  show after hostOps0_7 (W6 m c) (Proc.devRef .tc main_v45) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W6_v37 m c, W6_v38 m c, W6_v39 m c]
  try rfl
set_option maxHeartbeats 1000000 in
/-- This stage does not write `main_v37`. -/
theorem W7_v37 (c : Dev nD) : W7 m c (Proc.devRef .tc main_v37) = Cert.ReferenceIdeal.Read.val_main_v37 (F := F) (m ((c : Thread nD τ).loc main_arg0)) (m ((c : Thread nD τ).loc main_arg1)) (m ((c : Thread nD τ).loc main_arg4)) := by
  show after hostOps0_7 (W6 m c) (Proc.devRef .tc main_v37) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W6_v37 m c]
  try rfl
set_option maxHeartbeats 1000000 in
/-- What this stage leaves in `main_v51`, from what the stage before left. -/
theorem W7_v51 (c : Dev nD) : W7 m c (Proc.devRef .tc main_v51) = Cert.ReferenceIdeal.Read.val_main_v51 (F := F) (m ((c : Thread nD τ).loc main_arg0)) (m ((c : Thread nD τ).loc main_arg1)) (m ((c : Thread nD τ).loc main_arg4)) := by
  show after hostOps0_7 (W6 m c) (Proc.devRef .tc main_v51) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W6_v8 m c, W6_v6 m c]
  try rfl
set_option maxHeartbeats 1000000 in
/-- What this stage leaves in `main_cst_20`, from what the stage before left. -/
theorem W7_cst_20 (c : Dev nD) : W7 m c (Proc.devRef .tc main_cst_20) = Cert.ReferenceIdeal.Read.val_main_cst_20 (F := F) := by
  show after hostOps0_7 (W6 m c) (Proc.devRef .tc main_cst_20) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_cst_19`, from what the stage before left. -/
theorem W7_cst_19 (c : Dev nD) : W7 m c (Proc.devRef .tc main_cst_19) = Cert.ReferenceIdeal.Read.val_main_cst_19 (F := F) := by
  show after hostOps0_7 (W6 m c) (Proc.devRef .tc main_cst_19) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_v53`, from what the stage before left. -/
theorem W7_v53 (c : Dev nD) : W7 m c (Proc.devRef .tc main_v53) = Cert.ReferenceIdeal.Read.val_main_v53 (F := F) (m ((c : Thread nD τ).loc main_arg1)) (m ((c : Thread nD τ).loc main_arg4)) := by
  show after hostOps0_7 (W6 m c) (Proc.devRef .tc main_v53) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W6_v6 m c]
  try rfl
set_option maxHeartbeats 1000000 in
/-- This stage does not write `main_arg1`. -/
theorem W7_arg1 (c : Dev nD) : W7 m c (Proc.devRef .tc main_arg1) = m ((c : Thread nD τ).loc main_arg1) := by
  show after hostOps0_7 (W6 m c) (Proc.devRef .tc main_arg1) = _
  simp only [hostOps0_7]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W6_arg1 m c]
  try rfl

/-! ### Stage 8 -/
set_option maxHeartbeats 1000000 in
/-- This stage does not write `main_v6`. -/
theorem W8_v6 (c : Dev nD) : W8 m c (Proc.devRef .tc main_v6) = Cert.ReferenceIdeal.Read.val_main_v6 (F := F) (m ((c : Thread nD τ).loc main_arg1)) (m ((c : Thread nD τ).loc main_arg4)) := by
  show after hostOps0_8 (W7 m c) (Proc.devRef .tc main_v6) = _
  simp only [hostOps0_8]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W7_v6 m c]
  try rfl
set_option maxHeartbeats 1000000 in
/-- This stage does not write `main_v35`. -/
theorem W8_v35 (c : Dev nD) : W8 m c (Proc.devRef .tc main_v35) = Cert.ReferenceIdeal.Read.val_main_v35 (F := F) (m ((c : Thread nD τ).loc main_arg0)) (m ((c : Thread nD τ).loc main_arg1)) (m ((c : Thread nD τ).loc main_arg4)) := by
  show after hostOps0_8 (W7 m c) (Proc.devRef .tc main_v35) = _
  simp only [hostOps0_8]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W7_v35 m c]
  try rfl
set_option maxHeartbeats 1000000 in
/-- This stage does not write `main_v45`. -/
theorem W8_v45 (c : Dev nD) : W8 m c (Proc.devRef .tc main_v45) = Cert.ReferenceIdeal.Read.val_main_v45 (F := F) (m ((c : Thread nD τ).loc main_arg0)) (m ((c : Thread nD τ).loc main_arg1)) (m ((c : Thread nD τ).loc main_arg4)) := by
  show after hostOps0_8 (W7 m c) (Proc.devRef .tc main_v45) = _
  simp only [hostOps0_8]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W7_v45 m c]
  try rfl
set_option maxHeartbeats 1000000 in
/-- This stage does not write `main_v37`. -/
theorem W8_v37 (c : Dev nD) : W8 m c (Proc.devRef .tc main_v37) = Cert.ReferenceIdeal.Read.val_main_v37 (F := F) (m ((c : Thread nD τ).loc main_arg0)) (m ((c : Thread nD τ).loc main_arg1)) (m ((c : Thread nD τ).loc main_arg4)) := by
  show after hostOps0_8 (W7 m c) (Proc.devRef .tc main_v37) = _
  simp only [hostOps0_8]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W7_v37 m c]
  try rfl
set_option maxHeartbeats 1000000 in
/-- This stage does not write `main_v51`. -/
theorem W8_v51 (c : Dev nD) : W8 m c (Proc.devRef .tc main_v51) = Cert.ReferenceIdeal.Read.val_main_v51 (F := F) (m ((c : Thread nD τ).loc main_arg0)) (m ((c : Thread nD τ).loc main_arg1)) (m ((c : Thread nD τ).loc main_arg4)) := by
  show after hostOps0_8 (W7 m c) (Proc.devRef .tc main_v51) = _
  simp only [hostOps0_8]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W7_v51 m c]
  try rfl
set_option maxHeartbeats 1000000 in
/-- What this stage leaves in `main_v54`, from what the stage before left. -/
theorem W8_v54 (c : Dev nD) : W8 m c (Proc.devRef .tc main_v54) = Cert.ReferenceIdeal.Read.val_main_v54 (F := F) (m ((c : Thread nD τ).loc main_arg1)) (m ((c : Thread nD τ).loc main_arg4)) := by
  show after hostOps0_8 (W7 m c) (Proc.devRef .tc main_v54) = _
  simp only [hostOps0_8]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W7_cst_20 m c, W7_cst_19 m c, W7_v53 m c]
  try rfl
set_option maxHeartbeats 1000000 in
/-- This stage does not write `main_arg1`. -/
theorem W8_arg1 (c : Dev nD) : W8 m c (Proc.devRef .tc main_arg1) = m ((c : Thread nD τ).loc main_arg1) := by
  show after hostOps0_8 (W7 m c) (Proc.devRef .tc main_arg1) = _
  simp only [hostOps0_8]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W7_arg1 m c]
  try rfl

/-! ### Stage 9a -/
set_option maxHeartbeats 1000000 in
/-- This stage does not write `main_v6`. -/
theorem W9a_v6 (c : Dev nD) : W9a m c (Proc.devRef .tc main_v6) = Cert.ReferenceIdeal.Read.val_main_v6 (F := F) (m ((c : Thread nD τ).loc main_arg1)) (m ((c : Thread nD τ).loc main_arg4)) := by
  show after ((hostOps0_9 (F := F)).take 25) (W8 m c) (Proc.devRef .tc main_v6) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W8_v6 m c]
  try rfl
set_option maxHeartbeats 1000000 in
/-- What this stage leaves in `main_v70`, from what the stage before left. -/
theorem W9a_v70 (c : Dev nD) : W9a m c (Proc.devRef .tc main_v70) = Cert.ReferenceIdeal.Read.val_main_v70 (F := F) (m ((c : Thread nD τ).loc main_arg0)) (m ((c : Thread nD τ).loc main_arg1)) (m ((c : Thread nD τ).loc main_arg4)) := by
  show after ((hostOps0_9 (F := F)).take 25) (W8 m c) (Proc.devRef .tc main_v70) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W8_v35 m c]
  try rfl
set_option maxHeartbeats 1000000 in
/-- What this stage leaves in `main_v71`, from what the stage before left. -/
theorem W9a_v71 (c : Dev nD) : W9a m c (Proc.devRef .tc main_v71) = Cert.ReferenceIdeal.Read.val_main_v71 (F := F) (m ((c : Thread nD τ).loc main_arg0)) (m ((c : Thread nD τ).loc main_arg1)) (m ((c : Thread nD τ).loc main_arg4)) := by
  show after ((hostOps0_9 (F := F)).take 25) (W8 m c) (Proc.devRef .tc main_v71) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W8_v45 m c]
  try rfl
set_option maxHeartbeats 1000000 in
/-- What this stage leaves in `main_v72`, from what the stage before left. -/
theorem W9a_v72 (c : Dev nD) : W9a m c (Proc.devRef .tc main_v72) = Cert.ReferenceIdeal.Read.val_main_v72 (F := F) (m ((c : Thread nD τ).loc main_arg0)) (m ((c : Thread nD τ).loc main_arg1)) (m ((c : Thread nD τ).loc main_arg4)) := by
  show after ((hostOps0_9 (F := F)).take 25) (W8 m c) (Proc.devRef .tc main_v72) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W8_v37 m c]
  try rfl
set_option maxHeartbeats 1000000 in
/-- What this stage leaves in `main_v73`, from what the stage before left. -/
theorem W9a_v73 (c : Dev nD) : W9a m c (Proc.devRef .tc main_v73) = Cert.ReferenceIdeal.Read.val_main_v73 (F := F) (m ((c : Thread nD τ).loc main_arg0)) (m ((c : Thread nD τ).loc main_arg1)) (m ((c : Thread nD τ).loc main_arg4)) := by
  show after ((hostOps0_9 (F := F)).take 25) (W8 m c) (Proc.devRef .tc main_v73) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W8_v51 m c]
  try rfl
set_option maxHeartbeats 1000000 in
/-- What this stage leaves in `main_v74`, from what the stage before left. -/
theorem W9a_v74 (c : Dev nD) : W9a m c (Proc.devRef .tc main_v74) = Cert.ReferenceIdeal.Read.val_main_v74 (F := F) (m ((c : Thread nD τ).loc main_arg1)) (m ((c : Thread nD τ).loc main_arg4)) := by
  show after ((hostOps0_9 (F := F)).take 25) (W8 m c) (Proc.devRef .tc main_v74) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W8_v54 m c]
  try rfl
set_option maxHeartbeats 1000000 in
/-- This stage does not write `main_arg1`. -/
theorem W9a_arg1 (c : Dev nD) : W9a m c (Proc.devRef .tc main_arg1) = m ((c : Thread nD τ).loc main_arg1) := by
  show after ((hostOps0_9 (F := F)).take 25) (W8 m c) (Proc.devRef .tc main_arg1) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W8_arg1 m c]
  try rfl

/-! ### Stage 9b -/
/-- The neighbour representation, joined from the parts the stage before left. -/
theorem W9b_v77 (c : Dev nD) : W9b m c (Proc.devRef .tc main_v77) = Cert.ReferenceIdeal.Read.val_main_v77 (F := F) (m ((c : Thread nD τ).loc main_arg0)) (m ((c : Thread nD τ).loc main_arg1)) (m ((c : Thread nD τ).loc main_arg4)) := by
  show after (((hostOps0_9 (F := F)).drop 25).take 3) (W9a m c) (Proc.devRef .tc main_v77) = _
  exact (cat77 (W9a m c) _ _ _ _ _ _ (W9a_v6 m c) (W9a_v70 m c) (W9a_v71 m c) (W9a_v72 m c) (W9a_v73 m c) (W9a_v74 m c)).trans rfl
set_option maxHeartbeats 1000000 in
/-- This stage does not write `main_arg1`. -/
theorem W9b_arg1 (c : Dev nD) : W9b m c (Proc.devRef .tc main_arg1) = m ((c : Thread nD τ).loc main_arg1) := by
  show after (((hostOps0_9 (F := F)).drop 25).take 3) (W9a m c) (Proc.devRef .tc main_arg1) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9a_arg1 m c]
  try rfl

/-! ### Stage 9c -/
set_option maxHeartbeats 1000000 in
/-- This stage does not write `main_v77`. -/
theorem W9c_v77 (c : Dev nD) : W9c m c (Proc.devRef .tc main_v77) = Cert.ReferenceIdeal.Read.val_main_v77 (F := F) (m ((c : Thread nD τ).loc main_arg0)) (m ((c : Thread nD τ).loc main_arg1)) (m ((c : Thread nD τ).loc main_arg4)) := by
  show after (((hostOps0_9 (F := F)).drop 28).take 21) (W9b m c) (Proc.devRef .tc main_v77) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9b_v77 m c]
  try rfl
set_option maxHeartbeats 1000000 in
/-- What this stage leaves in `main_v92`, from what the stage before left. -/
theorem W9c_v92 (c : Dev nD) : W9c m c (Proc.devRef .tc main_v92) = Cert.ReferenceIdeal.Read.val_main_v92 (F := F) := by
  show after (((hostOps0_9 (F := F)).drop 28).take 21) (W9b m c) (Proc.devRef .tc main_v92) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl
set_option maxHeartbeats 1000000 in
/-- What this stage leaves in `main_v93`, from what the stage before left. -/
theorem W9c_v93 (c : Dev nD) : W9c m c (Proc.devRef .tc main_v93) = Cert.ReferenceIdeal.Read.val_main_v93 (F := F) (m ((c : Thread nD τ).loc main_arg1)) := by
  show after (((hostOps0_9 (F := F)).drop 28).take 21) (W9b m c) (Proc.devRef .tc main_v93) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9b_arg1 m c]
  try rfl
set_option maxHeartbeats 1000000 in
/-- What this stage leaves in `main_v80`, from what the stage before left. -/
theorem W9c_v80 (c : Dev nD) : W9c m c (Proc.devRef .tc main_v80) = zerosK (F := F) := by
  show after (((hostOps0_9 (F := F)).drop 28).take 21) (W9b m c) (Proc.devRef .tc main_v80) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  try rfl

/-! ### Stage 9d -/
set_option maxHeartbeats 1000000 in
/-- This stage does not write `main_v77`. -/
theorem W9d_v77 (c : Dev nD) : W9d m c (Proc.devRef .tc main_v77) = Cert.ReferenceIdeal.Read.val_main_v77 (F := F) (m ((c : Thread nD τ).loc main_arg0)) (m ((c : Thread nD τ).loc main_arg1)) (m ((c : Thread nD τ).loc main_arg4)) := by
  show after (((hostOps0_9 (F := F)).drop 49).take 1) (W9c m c) (Proc.devRef .tc main_v77) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9c_v77 m c]
  try rfl
/-- The scatter's index array, joined from the two parts the stage before left. -/
theorem W9d_v94 (c : Dev nD) : W9d m c (Proc.devRef .tc main_v94) = Cert.ReferenceIdeal.Read.val_main_v94 (F := F) (m ((c : Thread nD τ).loc main_arg1)) := by
  show after (((hostOps0_9 (F := F)).drop 49).take 1) (W9c m c) (Proc.devRef .tc main_v94) = _
  exact (cat94 (W9c m c) _ _ (W9c_v92 m c) (W9c_v93 m c)).trans rfl
set_option maxHeartbeats 1000000 in
/-- This stage does not write `main_v80`. -/
theorem W9d_v80 (c : Dev nD) : W9d m c (Proc.devRef .tc main_v80) = zerosK (F := F) := by
  show after (((hostOps0_9 (F := F)).drop 49).take 1) (W9c m c) (Proc.devRef .tc main_v80) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9c_v80 m c]
  try rfl

/-! ### Stage 9 -/
set_option maxHeartbeats 1000000 in
/-- This stage does not write `main_v77`. -/
theorem W9_v77 (c : Dev nD) : W9 m c (Proc.devRef .tc main_v77) = Cert.ReferenceIdeal.Read.val_main_v77 (F := F) (m ((c : Thread nD τ).loc main_arg0)) (m ((c : Thread nD τ).loc main_arg1)) (m ((c : Thread nD τ).loc main_arg4)) := by
  show after ((hostOps0_9 (F := F)).drop 50) (W9d m c) (Proc.devRef .tc main_v77) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9d_v77 m c]
  try rfl
set_option maxHeartbeats 1000000 in
/-- This stage does not write `main_v94`. -/
theorem W9_v94 (c : Dev nD) : W9 m c (Proc.devRef .tc main_v94) = Cert.ReferenceIdeal.Read.val_main_v94 (F := F) (m ((c : Thread nD τ).loc main_arg1)) := by
  show after ((hostOps0_9 (F := F)).drop 50) (W9d m c) (Proc.devRef .tc main_v94) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9d_v94 m c]
  try rfl
set_option maxHeartbeats 1000000 in
/-- What this stage leaves in `main_v96`, from what the stage before left. -/
theorem W9_v96 (c : Dev nD) : W9 m c (Proc.devRef .tc main_v96) = Host.scatter scatter_S1024x10331_S1024x30x2_S1024x30_n_01_01_2 (fun _ b => b) (zerosK (F := F))
          (Cert.ReferenceIdeal.Read.val_main_v94 (F := F) (m ((c : Thread nD τ).loc main_arg1))) (onesK (F := F)) := by
  show after ((hostOps0_9 (F := F)).drop 50) (W9d m c) (Proc.devRef .tc main_v96) = _
  simp only [hostOps0_9, List.take_succ_cons, List.take_zero, List.drop_succ_cons, List.drop_zero]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  simp only [W9d_v80 m c, W9d_v94 m c]
  try rfl

end stages

section finals

variable {F : FTy → Type} [FloatOps F]
variable (m : (ℓ : Loc nD τ sig) → Buf (Elt F) ℓ)

set_option maxHeartbeats 1000000 in
/-- The reshaped neighbour representation [1024, 450] the region's program forms on the host is the same composition
    of the same operations, on the same three argument arrays, as the reference program's. -/
theorem V_main_v77 (c : Dev nD) :
    Fr.V m c main_v77 = Cert.ReferenceIdeal.Read.val_main_v77 (F := F) (m ((c : Thread nD τ).loc main_arg0))
      (m ((c : Thread nD τ).loc main_arg1)) (m ((c : Thread nD τ).loc main_arg4)) := by
  show Fr.V0 m c (Proc.devRef .tc main_v77) = _
  rw [V0_eq]
  simp only [hostOps0_10, hostOps0_11, hostOps0_12, hostOps0_13]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  exact W9_v77 m c

set_option maxHeartbeats 1000000 in
/-- The index array [1024, 30, 2] of the one-hot scatter (row number, wrapped neighbour index) is the reference's. -/
theorem V_main_v94 (c : Dev nD) :
    Fr.V m c main_v94 = Cert.ReferenceIdeal.Read.val_main_v94 (F := F) (m ((c : Thread nD τ).loc main_arg1)) := by
  show Fr.V0 m c (Proc.devRef .tc main_v94) = _
  rw [V0_eq]
  simp only [hostOps0_10, hostOps0_11, hostOps0_12, hostOps0_13]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  exact W9_v94 m c

set_option maxHeartbeats 1000000 in
theorem V_main_v96_form (c : Dev nD) :
    Fr.V m c main_v96
      = Host.scatter scatter_S1024x10331_S1024x30x2_S1024x30_n_01_01_2 (fun _ b => b) (zerosK (F := F))
          (Cert.ReferenceIdeal.Read.val_main_v94 (F := F) (m ((c : Thread nD τ).loc main_arg1))) (onesK (F := F)) := by
  show Fr.V0 m c (Proc.devRef .tc main_v96) = _
  rw [V0_eq]
  simp only [hostOps0_10, hostOps0_11, hostOps0_12, hostOps0_13]
  simp (disch := decide) only [after_cons, after_nil,
    nullary_result', unary_result', binary_result', ternary_result', quaternary_result', reshape_result', nary5_result',
    unaryIndexed_result', binaryIndexed_result',
    nullary_result_ne', unary_result_ne', binary_result_ne', ternary_result_ne', quaternary_result_ne', reshape_result_ne',
    nary_result_ne', unaryIndexed_result_ne', binaryIndexed_result_ne']
  exact W9_v96 m c

end finals

/-! ## The one-hot array at the extended reals -/

section ideal

variable (m : (ℓ : Loc nD τ sig) → Buf (Elt Ideal) ℓ)

/-- At the extended reals the 16-bit and the 32-bit zero words both denote 0. -/
theorem zeros_eq : (zerosK (F := Ideal) : S1024x10331.Idx → EReal) = Cert.ReferenceIdeal.Read.val_main_v78 (F := Ideal) := by
  funext j
  show Ideal.ofBits .bf16 0x0000#16 = Ideal.ofBits .f32 0x00000000#32
  rw [Ideal.ofBits_zero_bf16, Ideal.ofBits_zero_f32]

/-- And the 16-bit and the 32-bit words of one both denote 1. -/
theorem ones_eq : (onesK (F := Ideal) : S1024x30.Idx → EReal) = Cert.ReferenceIdeal.Read.val_main_v95 (F := Ideal) := by
  funext j
  show Ideal.ofBits .bf16 0x3F80#16 = Ideal.ofBits .f32 0x3F800000#32
  rw [Ideal.ofBits_one_bf16, Ideal.ofBits_one_f32]

/-- The one-hot array of the region's program is the reference's: the same scatter, at the same index array, of ones
    into zeros. -/
theorem V_main_v96 (c : Dev nD) :
    Fr.V m c main_v96 = Cert.ReferenceIdeal.Read.val_main_v96 (F := Ideal) (m ((c : Thread nD τ).loc main_arg1)) :=
  (V_main_v96_form m c).trans
    (congrArg₂ (fun (z : S1024x10331.Idx → EReal) (u : S1024x30.Idx → EReal) =>
      Host.scatter scatter_S1024x10331_S1024x30x2_S1024x30_n_01_01_2 (fun _ b => b) z
        (Cert.ReferenceIdeal.Read.val_main_v94 (F := Ideal) (m ((c : Thread nD τ).loc main_arg1))) u) zeros_eq ones_eq)

end ideal

end Cert.KernelIdeal.Host

end
-- ==== Proof.Bridge.LogitAgree.lean ====
/- The tiled layer's logits against the reference's.  The region forms, for row r and column t, the product of
   row r of its left operand with row t of its padded weights over 11648 columns, block after block, and adds the
   padded bias.  The left operand is the reference's joined input followed by 107 zero columns, the padded weights
   and bias are the reference's weights and bias on their first 10331 rows (entries), so below column 10331 the
   two logit arrays are equal entry by entry. -/
import proofs.«424952_j75608604279323_3_alg».proof.Proof.Math.Agree
import proofs.«424952_j75608604279323_3_alg».proof.Proof.KI.PrefixW
import proofs.«424952_j75608604279323_3_alg».proof.Proof.Ref.Result
import proofs.«424952_j75608604279323_3_alg».proof.Proof.Bridge.InpAgree
import proofs.«424952_j75608604279323_3_alg».proof.Proof.Bridge.Consts
import proofs.«424952_j75608604279323_3_alg».proof.Proof.KI.Prefix
import proofs.«424952_j75608604279323_3_alg».proof.Proof.KI.PrefixShared

noncomputable section

open scoped BigOperators

namespace Cert.Bridge

open Idealize.ShloMosaic Idealize.ShloMosaic.TcCoe Idealize.SL.Sem Idealize.ShloMosaic.ValueIdx

/-- The tiled layer's padded logits, from the three operand arrays as the region finds them. -/
abbrev kLogits (m : (ℓ : Loc Cert.KernelIdeal.nD Cert.KernelIdeal.τ Cert.KernelIdeal.sig) → Buf (Elt Ideal) ℓ) (c : Dev Cert.KernelIdeal.nD) :=
  Cert.Spec.kLogit (Cert.KernelIdeal.Fr.V m c Cert.KernelIdeal.main_v101) (Cert.KernelIdeal.Fr.V m c Cert.KernelIdeal.main_v103)
    (Cert.KernelIdeal.Fr.V m c Cert.KernelIdeal.main_v105)

/-- The reference's logits, from its argument arrays. -/
abbrev rLogits (m' : (ℓ : Loc Cert.ReferenceIdeal.nD Cert.ReferenceIdeal.τ Cert.ReferenceIdeal.sig) → Buf (Elt Ideal) ℓ) (c : Dev Cert.ReferenceIdeal.nD) :=
  Cert.ReferenceIdeal.Read.val_main_v102 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))

/-- The region's left operand as the region finds it, as a function from its index set to the extended reals. -/
abbrev kInp (m : (ℓ : Loc Cert.KernelIdeal.nD Cert.KernelIdeal.τ Cert.KernelIdeal.sig) → Buf (Elt Ideal) ℓ) (c : Dev Cert.KernelIdeal.nD) :
    (⟨2, ![1024, 11648]⟩ : Shape).Idx → EReal :=
  Cert.KernelIdeal.Fr.V m c Cert.KernelIdeal.main_v101

/-- The two logit arrays agree below column 10331, given that the region's left operand is the reference's joined
    input on its first 11541 columns and zero beyond them: the weights and the bias are padded with zeros, which
    changes no product of rows and no bias entry below the padding, and the argument arrays agree. -/
theorem logit_agree_of_inp (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)))
    (c : Dev Cert.KernelIdeal.nD)
    (hA : ∀ (r : Fin 1024) (i : Fin 11541),
      kInp m c (ix2 r (Fin.castLE (by decide) i))
        = Cert.ReferenceIdeal.Read.val_main_v97 (F := Ideal) (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg4)) (ix2 r i))
    (hA0 : ∀ (r : Fin 1024) (i : Fin 11648), 11541 ≤ i.val →
      kInp m c (ix2 r i) = 0)
    (r : Fin 1024) (t : Fin 10331) :
    kLogits m c (ix2 r (Fin.castLE (by decide) t)) = rLogits m' c (ix2 r t) := by
  obtain ⟨_, _, _, _, _, h5, h6⟩ := hagree c
  refine Eq.trans ?_ (Cert.RefVal.logits_apply _ _ _ _ _ _ r t).symm
  exact Cert.Spec.kLogit_agree _ _ _ _ _ _ hA hA0
    (fun t i => (Cert.KernelIdeal.Host.V_main_v103_apply m c t i).trans (congrFun h5 (ix2 t i)).symm)
    (fun t => (Cert.KernelIdeal.Host.V_main_v105_apply m c t).trans (congrFun h6 (ix1 t)).symm) r t

/-- The same from the parts of the left operand: it is the five-piece join of the features, the predicted embedding,
    the neighbour representation (each after the change of number format), the one-hot rows and a zero block, the
    neighbour representation and the one-hot rows being the reference's. -/
theorem logit_agree_of_parts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)))
    (c : Dev Cert.KernelIdeal.nD)
    (k77 : FVec Ideal Cert.KernelIdeal.S1024x450 .f32) (k96 : FVec Ideal Cert.KernelIdeal.S1024x10331 .bf16) (z : FVec Ideal Cert.KernelIdeal.S1024x107 .bf16)
    (h : FTy.bits .bf16 < FTy.bits .f32)
    (hc : Shape.Concatenates [Cert.KernelIdeal.S1024x750, Cert.KernelIdeal.S1024x10, Cert.KernelIdeal.S1024x450, Cert.KernelIdeal.S1024x10331, Cert.KernelIdeal.S1024x107] Cert.KernelIdeal.S1024x11648 1)
    (hV : kInp m c = concatenate Cert.KernelIdeal.S1024x11648 1 [⟨Cert.KernelIdeal.S1024x750, truncf (F := Ideal) (φ := .f32) .bf16 (m' ((c.tc : Thread Cert.ReferenceIdeal.nD Cert.ReferenceIdeal.τ).loc Cert.ReferenceIdeal.main_arg2)) h⟩, ⟨Cert.KernelIdeal.S1024x10, truncf (F := Ideal) (φ := .f32) .bf16 (m' ((c.tc : Thread Cert.ReferenceIdeal.nD Cert.ReferenceIdeal.τ).loc Cert.ReferenceIdeal.main_arg0)) h⟩, ⟨Cert.KernelIdeal.S1024x450, truncf (F := Ideal) (φ := .f32) .bf16 k77 h⟩, ⟨Cert.KernelIdeal.S1024x10331, k96⟩, ⟨Cert.KernelIdeal.S1024x107, z⟩] hc)
    (hk77 : k77 = Cert.ReferenceIdeal.Read.val_main_v77 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)))
    (hk96 : k96 = Cert.ReferenceIdeal.Read.val_main_v96 (F := Ideal) (m' ((c.tc : Thread Cert.ReferenceIdeal.nD Cert.ReferenceIdeal.τ).loc Cert.ReferenceIdeal.main_arg1)))
    (hz : ∀ j, z j = 0) (r : Fin 1024) (t : Fin 10331) :
    kLogits m c (ix2 r (Fin.castLE (by decide) t)) = rLogits m' c (ix2 r t) :=
  logit_agree_of_inp m m' hagree c
    (fun r i => inp_agree_lt (kInp m c) _ _ _ _ k77 k96 z h hc hV hk77 hk96 r i)
    (fun r i hi => inp_agree_ge (kInp m c) _ _ k77 k96 z h hc hV hz r i hi) r t

/-- **The logits agree.**  Below column 10331 the tiled layer's padded logits are the reference's logits, entry by
    entry: the region's left operand is the joined input of the reference followed by zero columns (its pieces are
    the same arguments and the same host computations, up to a change of number format that changes no value at the
    extended reals), and its weights and bias are the reference's, padded with zeros. -/
theorem logit_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)))
    (c : Dev Cert.KernelIdeal.nD) (r : Fin 1024) (t : Fin 10331) :
    kLogits m c (ix2 r (Fin.castLE (by decide) t)) = rLogits m' c (ix2 r t) := by
  obtain ⟨h0, h1, h2, _, h4, _, _⟩ := hagree c
  have hV := Cert.KernelIdeal.Host.V_main_v101_blocks (F := Ideal) m c
  rw [← h2, ← h0] at hV
  exact logit_agree_of_parts m m' hagree c _ _ _ _ _ hV
    (by rw [h0, h1, h4]; exact Cert.KernelIdeal.Host.V_main_v77 (F := Ideal) m c)
    (by rw [h1]; exact Cert.KernelIdeal.Host.V_main_v96 m c)
    (fun j => (congrFun (Cert.KernelIdeal.Host.V_main_v100 (F := Ideal) m c) j).trans (bcast_zero_bf16_apply _ j)) r t

end Cert.Bridge

end
-- ==== Proof.Bridge.Agree.lean ====
/- The two programs compute the same two results. Both results depend on the arguments only through the logit
   matrix, the neighbour indices and the neighbour labels. Under the index range every neighbour index is a column
   of the logit matrix, so the kernel's read along the class axis meets no fill value and is the reference's read at
   (row, index), and there the kernel's padded logits are the reference's logits. The logistic function is applied
   entry by entry, before the read in one program and after it in the other, which is the same; the loss is the same
   function of the logits read and of the labels. -/
import proofs.«424952_j75608604279323_3_alg».proof.Defs
import proofs.«424952_j75608604279323_3_alg».proof.Proof.KI.Final
import proofs.«424952_j75608604279323_3_alg».proof.Proof.KI.Tail
import proofs.«424952_j75608604279323_3_alg».proof.Proof.Bridge.KTail
import proofs.«424952_j75608604279323_3_alg».proof.Proof.Bridge.RTail
import proofs.«424952_j75608604279323_3_alg».proof.Proof.Bridge.IdxRange
import proofs.«424952_j75608604279323_3_alg».proof.Proof.Bridge.LogitAgree
import proofs.«424952_j75608604279323_3_alg».proof.Proof.Ref.Run

noncomputable section

namespace Cert.Bridge

open Idealize.ShloMosaic Idealize.ShloMosaic.TcCoe Idealize.SL.Sem Idealize.ShloMosaic.ValueIdx
open Cert.KernelIdeal Cert.KernelIdeal.Gen
open Idealize.ShloMosaic.Pipeline (Dat)

/-- The kernel's first result after its run: what the lines after the region leave in its buffer. -/
abbrev kDist (m : (ℓ : Loc Cert.KernelIdeal.nD Cert.KernelIdeal.τ Cert.KernelIdeal.sig) → Buf (Elt Ideal) ℓ) (c : Dev Cert.KernelIdeal.nD) :=
  Pipeline.afterTail₀ cfgs (Fr.dats (F := Ideal) m) 0 (Fr.V0 m) Fr.postOps c main_v114
/-- The kernel's second result after its run. -/
abbrev kLoss (m : (ℓ : Loc Cert.KernelIdeal.nD Cert.KernelIdeal.τ Cert.KernelIdeal.sig) → Buf (Elt Ideal) ℓ) (c : Dev Cert.KernelIdeal.nD) :=
  Pipeline.afterTail₀ cfgs (Fr.dats (F := Ideal) m) 0 (Fr.V0 m) Fr.postOps c main_v125

/-- The neighbour indices are columns of the logit matrix: the precondition's last conjunct. -/
theorem idx_ok [hPre : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD)
    (r : Fin 1024) (k : Fin 30) :
    0 ≤ ((m ((c.tc : Thread Cert.KernelIdeal.nD Cert.KernelIdeal.τ).loc Cert.KernelIdeal.main_arg1)) (ix2 r k)).toInt ∧ ((m ((c.tc : Thread Cert.KernelIdeal.nD Cert.KernelIdeal.τ).loc Cert.KernelIdeal.main_arg1)) (ix2 r k)).toInt < 10331 :=
  idx_range (F := Ideal) _ _ _ _ _ _ _ (hpre c) r k

/-- The logistic function is applied entry by entry in both programs, with the same two constants. -/
theorem sig_entry (x : (⟨Cert.KernelIdeal.S1024x30, .f32⟩ : BufTy).Contents (Elt Ideal))
    (y : (⟨Cert.ReferenceIdeal.S1024x10331, .f32⟩ : BufTy).Contents (Elt Ideal))
    (i : Cert.KernelIdeal.S1024x30.Idx) (j : Cert.ReferenceIdeal.S1024x10331.Idx) (h : y j = x i) :
    Cert.RefVal.refSig (F := Ideal) y j = Cert.KernelIdeal.Host.tailSig (F := Ideal) x i := by
  rw [Cert.RefVal.refSig_apply, h]
  rfl

/-- The logits read at the neighbours agree: the reference reads its logit matrix at (row, index), the kernel takes
    its padded logits along the class axis at the same index, and the two matrices agree there. -/
theorem neigh_agree [hPre : Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) (r : Fin 1024) (k : Fin 30) :
    Cert.RefVal.refGather (F := Ideal) (rLogits m' c) (m' ((c.tc : Thread Cert.ReferenceIdeal.nD Cert.ReferenceIdeal.τ).loc Cert.ReferenceIdeal.main_arg1)) (ix2 r k)
      = Cert.KernelIdeal.Host.tailLN (F := Ideal) (kLogits m c) (m ((c.tc : Thread Cert.KernelIdeal.nD Cert.KernelIdeal.τ).loc Cert.KernelIdeal.main_arg1)) (ix2 r k) := by
  have ha1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)) := (hagree c).2.1
  have hr := idx_ok m hpre c
  rw [ha1, refGather_apply _ _ hr r k, tailLN_apply _ _ hr r k]
  exact ((congrArg (kLogits m c) (congrArg (ix2 r) (Fin.ext rfl))).trans
    (logit_agree m m' hagree c r ⟨_, (clamp_col _ (hr r k).1 (hr r k).2).2⟩)).symm

/-- One entry of the first result: the logistic function of the logit read at the neighbour. -/
theorem dist_entry [hPre : Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) (r : Fin 1024) (k : Fin 30) :
    Cert.RefVal.refGather (F := Ideal) (Cert.RefVal.refSig (F := Ideal) (rLogits m' c)) (m' ((c.tc : Thread Cert.ReferenceIdeal.nD Cert.ReferenceIdeal.τ).loc Cert.ReferenceIdeal.main_arg1)) (ix2 r k)
      = Cert.KernelIdeal.Host.tailSig (F := Ideal) (Cert.KernelIdeal.Host.tailLN (F := Ideal) (kLogits m c) (m ((c.tc : Thread Cert.KernelIdeal.nD Cert.KernelIdeal.τ).loc Cert.KernelIdeal.main_arg1))) (ix2 r k) := by
  have ha1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)) := (hagree c).2.1
  have hr := idx_ok m hpre c
  rw [ha1, refGather_apply _ _ hr r k]
  refine sig_entry _ _ _ _ ?_
  rw [tailLN_apply _ _ hr r k]
  exact ((congrArg (kLogits m c) (congrArg (ix2 r) (Fin.ext rfl))).trans
    (logit_agree m m' hagree c r ⟨_, (clamp_col _ (hr r k).1 (hr r k).2).2⟩)).symm

/-- The first results agree. -/
theorem dist_agree [hPre : Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.Read.val_main_v140 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = kDist m c := by
  have hK : kDist m c = Cert.KernelIdeal.Host.tailSig (Cert.KernelIdeal.Host.tailLN (kLogits m c) (m ((c.tc : Thread Cert.KernelIdeal.nD Cert.KernelIdeal.τ).loc Cert.KernelIdeal.main_arg1))) :=
    (Cert.KernelIdeal.Host.tail_v114 m (Fr.dats m) c).trans (by rw [Cert.KernelIdeal.Val.final3])
  have hx : Cert.RefVal.refGather (F := Ideal) (Cert.RefVal.refSig (F := Ideal) (rLogits m' c)) (m' ((c.tc : Thread Cert.ReferenceIdeal.nD Cert.ReferenceIdeal.τ).loc Cert.ReferenceIdeal.main_arg1))
      = Cert.KernelIdeal.Host.tailSig (F := Ideal) (Cert.KernelIdeal.Host.tailLN (F := Ideal) (kLogits m c) (m ((c.tc : Thread Cert.KernelIdeal.nD Cert.KernelIdeal.τ).loc Cert.KernelIdeal.main_arg1))) := by
    funext i
    obtain ⟨r, k, rfl⟩ : ∃ (r : Fin 1024) (k : Fin 30), i = ix2 r k := ⟨i 0, i 1, eq_ix2 i⟩
    exact dist_entry m m' hpre hagree c r k
  exact ((Cert.RefVal.dist_stage (F := Ideal) _ _ _ _ _ _).trans hx).trans hK.symm

/-- The loss is the same function of the logits read at the neighbours and of the labels in both programs. -/
theorem loss_fn_eq (x a3 : (⟨Cert.KernelIdeal.S1024x30, .f32⟩ : BufTy).Contents (Elt Ideal)) :
    Cert.RefVal.refLoss (F := Ideal) x a3 = Cert.KernelIdeal.Host.tailLoss (F := Ideal) x a3 := rfl

/-- The second results agree. -/
theorem loss_agree [hPre : Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.Read.val_main_v151 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = kLoss m c := by
  have hK : kLoss m c = Cert.KernelIdeal.Host.tailLoss (Cert.KernelIdeal.Host.tailLN (kLogits m c) (m ((c.tc : Thread Cert.KernelIdeal.nD Cert.KernelIdeal.τ).loc Cert.KernelIdeal.main_arg1))) (m ((c.tc : Thread Cert.KernelIdeal.nD Cert.KernelIdeal.τ).loc Cert.KernelIdeal.main_arg3)) :=
    (Cert.KernelIdeal.Host.tail_v125 m (Fr.dats m) c).trans (by rw [Cert.KernelIdeal.Val.final3])
  refine ((Cert.RefVal.loss_stage (F := Ideal) _ _ _ _ _ _ _).trans ?_).trans hK.symm
  have ha3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)) := (hagree c).2.2.2.1
  have hx : Cert.RefVal.refGather (F := Ideal) (rLogits m' c) (m' ((c.tc : Thread Cert.ReferenceIdeal.nD Cert.ReferenceIdeal.τ).loc Cert.ReferenceIdeal.main_arg1))
      = Cert.KernelIdeal.Host.tailLN (F := Ideal) (kLogits m c) (m ((c.tc : Thread Cert.KernelIdeal.nD Cert.KernelIdeal.τ).loc Cert.KernelIdeal.main_arg1)) := by
    funext i
    obtain ⟨r, k, rfl⟩ : ∃ (r : Fin 1024) (k : Fin 30), i = ix2 r k := ⟨i 0, i 1, eq_ix2 i⟩
    exact neigh_agree m m' hpre hagree c r k
  rw [ha3, hx]
  exact loss_fn_eq _ _

/-- The two idealized programs, from memories agreeing on the arguments, end with equal results and unchanged arguments. -/
theorem algebraic [hPre : Cert.Pre_finite_inputs.Facts] :
    Cert.algebraic_KernelIdeal_ReferenceIdeal (hKernelIdeal := Cert.KernelIdeal.Gen.facts) (hReferenceIdeal := Cert.ReferenceIdeal.Gen.facts) (hPre_finite_inputs := hPre) :=
  fun m g m' g' hpre hagree =>
  ⟨fun c => kDist m c, fun c => kLoss m c,
    (θ_run Cert.KernelIdeal.defs _ _).mono (fun _ h c =>
      ⟨(h c).2 main_v114 (Pipeline.mem_restRefs_of main_v114 (by decide) (by decide)),
       (h c).2 main_v125 (Pipeline.mem_restRefs_of main_v125 (by decide) (by decide)),
       ((h c).2 main_arg0 (Pipeline.mem_restRefs_of main_arg0 (by decide) (by decide))).trans (Fr.W_main_arg0 m (Fr.dats m) c),
       ((h c).2 main_arg1 (Pipeline.mem_restRefs_of main_arg1 (by decide) (by decide))).trans (Fr.W_main_arg1 m (Fr.dats m) c),
       ((h c).2 main_arg2 (Pipeline.mem_restRefs_of main_arg2 (by decide) (by decide))).trans (Fr.W_main_arg2 m (Fr.dats m) c),
       ((h c).2 main_arg3 (Pipeline.mem_restRefs_of main_arg3 (by decide) (by decide))).trans (Fr.W_main_arg3 m (Fr.dats m) c),
       ((h c).2 main_arg4 (Pipeline.mem_restRefs_of main_arg4 (by decide) (by decide))).trans (Fr.W_main_arg4 m (Fr.dats m) c),
       ((h c).2 main_arg5 (Pipeline.mem_restRefs_of main_arg5 (by decide) (by decide))).trans (Fr.W_main_arg5 m (Fr.dats m) c),
       ((h c).2 main_arg6 (Pipeline.mem_restRefs_of main_arg6 (by decide) (by decide))).trans (Fr.W_main_arg6 m (Fr.dats m) c)⟩)
      (Fr.run_main (F := Ideal) m g),
    (θ_run Cert.ReferenceIdeal.defs _ _).mono (fun _ h c =>
      ⟨(h c).1.trans (dist_agree m m' hpre hagree c), (h c).2.1.trans (loss_agree m m' hpre hagree c), (h c).2.2⟩)
      (Cert.RefVal.run' (F := Ideal) m' g')⟩

end Cert.Bridge

end
-- ==== Proof.lean ====
/- The certificate of the tiled linear layer with its gathered features against the plain reference.
   The two frames of the kernel programs are the hand-written frame of the one region (three control cases over the
   reduction step, the accumulator carried between grid points, the output block written at the last step), once at
   the word-level instance and once at the ideal one; the reference's frame is its run with the results dropped; the
   idealization rewrote nothing; and over the extended reals the two programs end with the same two results. -/
import proofs.«424952_j75608604279323_3_alg».proof.Defs
import proofs.«424952_j75608604279323_3_alg».proof.Proof.Gen.Kernel
import proofs.«424952_j75608604279323_3_alg».proof.Proof.Gen.KernelIdeal
import proofs.«424952_j75608604279323_3_alg».proof.Proof.Gen.ReferenceIdeal
import proofs.«424952_j75608604279323_3_alg».proof.Proof.Gen.Pre_finite_inputs
import proofs.«424952_j75608604279323_3_alg».proof.Proof.K.Frame
import proofs.«424952_j75608604279323_3_alg».proof.Proof.KI.Frame
import proofs.«424952_j75608604279323_3_alg».proof.Proof.Ref.Run
import proofs.«424952_j75608604279323_3_alg».proof.Proof.Bridge.Agree

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame (F := Bits) m ρ,
  fun m ρ _ => Cert.KernelIdeal.Fr.frame (F := Ideal) m ρ,
  fun m ρ _ => (θ_run Cert.ReferenceIdeal.defs _ _).mono (fun _ h c => (h c).2.2) (Cert.RefVal.run' (F := Ideal) m ρ),
  trivial,
  Cert.Bridge.algebraic⟩

end Cert.Proof

end
